-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x3x512 : Shape := ⟨3, ![1024, 3, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x3x512 : S_.BroadcastsInDim S1024x3x512 (![] : Fin 0 → Fin S1024x3x512.rank)
  reducesTo_S1024x3x512_S_d0_1_2 : S1024x3x512.ReducesTo [0, 1, 2] S_

variable [Facts]

def fn {F : FTy → Type} [FloatOps F] (main_arg0 : FVec F S1024x512 .f32) (main_arg1 : FVec F S1024x3x512 .f32) (main_arg2 : FVec F S1024x3x512 .f32) (main_arg3 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x3x512 .f32 := Host.absf main_arg1
  let main_cst_0 : FVec F S_ .f32 := constant S_ .f32 0x7F800000#32
  let main_v5 : FVec F S1024x3x512 .f32 := broadcastInDim S1024x3x512 ![] bcast_S_S1024x3x512 main_cst_0
  let main_v6 : IVec S1024x3x512 1 := cmpf .olt main_v4 main_v5
  let main_c_1 : IVec S_ 1 := constantI S_ 1 1#1
  let main_v7 : IVec S_ 1 := (fun x v => Host.reduce IntOp.andi x v reducesTo_S1024x3x512_S_d0_1_2 h_S_) main_v6 main_c_1
  let main_v8 : IVec S_ 1 := andi main_v3 main_v7
  let main_v9 : FVec F S1024x3x512 .f32 := Host.absf main_arg2
  let main_cst_2 : FVec F S_ .f32 := constant S_ .f32 0x7F800000#32
  let main_v10 : FVec F S1024x3x512 .f32 := broadcastInDim S1024x3x512 ![] bcast_S_S1024x3x512 main_cst_2
  let main_v11 : IVec S1024x3x512 1 := cmpf .olt main_v9 main_v10
  let main_c_3 : IVec S_ 1 := constantI S_ 1 1#1
  let main_v12 : IVec S_ 1 := (fun x v => Host.reduce IntOp.andi x v reducesTo_S1024x3x512_S_d0_1_2 h_S_) main_v11 main_c_3
  let main_v13 : IVec S_ 1 := andi main_v8 main_v12
  main_v13
-- ==== Kernel.lean ====
abbrev S1024x512 : Shape := ⟨2, ![1024, 512]⟩
abbrev S1024x3x512 : Shape := ⟨3, ![1024, 3, 512]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x3x1 : Shape := ⟨3, ![1024, 3, 1]⟩
abbrev S3072x512 : Shape := ⟨2, ![3072, 512]⟩
abbrev S7168x512 : Shape := ⟨2, ![7168, 512]⟩
abbrev S3072 : Shape := ⟨1, ![3072]⟩
abbrev S7168 : Shape := ⟨1, ![7168]⟩
abbrev S512x7168 : Shape := ⟨2, ![512, 7168]⟩
abbrev S7168x1 : Shape := ⟨2, ![7168, 1]⟩
abbrev S1x7168 : Shape := ⟨2, ![1, 7168]⟩
abbrev S7168x5 : Shape := ⟨2, ![7168, 5]⟩
abbrev S128x512 : Shape := ⟨2, ![128, 512]⟩
abbrev S128x1 : Shape := ⟨2, ![128, 1]⟩
abbrev S128x5 : Shape := ⟨2, ![128, 5]⟩
abbrev S128x7168 : Shape := ⟨2, ![128, 7168]⟩
abbrev S128 : Shape := ⟨1, ![128]⟩

abbrev nBuf : Space → Nat
  | .hbm => 105
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x3x512, .f32⟩
  | .hbm, ⟨2, _⟩ => ⟨S1024x3x512, .f32⟩
  | .hbm, ⟨3, _⟩ => ⟨S1024, .i32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x3x512, .f32⟩
  | .hbm, ⟨19, _⟩ => ⟨S1024x3x512, .f32⟩
  | .hbm, ⟨20, _⟩ => ⟨S1024x3x512, .f32⟩
  | .hbm, ⟨21, _⟩ => ⟨S_, .f32⟩
  | .hbm, ⟨22, _⟩ => ⟨S1024x3, .f32⟩
  | .hbm, ⟨23, _⟩ => ⟨S1024x3x1, .f32⟩
  | .hbm, ⟨24, _⟩ => ⟨S1024x3x1, .f32⟩
  | .hbm, ⟨25, _⟩ => ⟨S_, .f32⟩
  | .hbm, ⟨26, _⟩ => ⟨S1024x3x1, .f32⟩
  | .hbm, ⟨27, _⟩ => ⟨S1024x3x1, .f32⟩
  | .hbm, ⟨28, _⟩ => ⟨S1024x3x512, .f32⟩
  | .hbm, ⟨29, _⟩ => ⟨S1024x3x512, .f32⟩
  | .hbm, ⟨30, _⟩ => ⟨S3072x512, .f32⟩
  | .hbm, ⟨31, _⟩ => ⟨S_, .f32⟩
  | .hbm, ⟨32, _⟩ => ⟨S1024x3x512, .f32⟩
  | .hbm, ⟨33, _⟩ => ⟨S1024x3x512, .f32⟩
  | .hbm, ⟨34, _⟩ => ⟨S1024x3x512, .f32⟩
  | .hbm, ⟨35, _⟩ => ⟨S_, .f32⟩
  | .hbm, ⟨36, _⟩ => ⟨S1024x3, .f32⟩
  | .hbm, ⟨37, _⟩ => ⟨S1024x3x1, .f32⟩
  | .hbm, ⟨38, _⟩ => ⟨S1024x3x1, .f32⟩
  | .hbm, ⟨39, _⟩ => ⟨S_, .f32⟩
  | .hbm, ⟨40, _⟩ => ⟨S1024x3x1, .f32⟩
  | .hbm, ⟨41, _⟩ => ⟨S1024x3x1, .f32⟩
  | .hbm, ⟨42, _⟩ => ⟨S1024x3x512, .f32⟩
  | .hbm, ⟨43, _⟩ => ⟨S1024x3x512, .f32⟩
  | .hbm, ⟨44, _⟩ => ⟨S3072x512, .f32⟩
  | .hbm, ⟨45, _⟩ => ⟨S7168x512, .f32⟩
  | .hbm, ⟨46, _⟩ => ⟨S1024x3, .i32⟩
  | .hbm, ⟨47, _⟩ => ⟨S3072, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024x3, .i32⟩
  | .hbm, ⟨52, _⟩ => ⟨S3072, .i32⟩
  | .hbm, ⟨53, _⟩ => ⟨S7168, .i32⟩
  | .hbm, ⟨54, _⟩ => ⟨S7168x512, .bf16⟩
  | .hbm, ⟨55, _⟩ => ⟨S512x7168, .bf16⟩
  | .hbm, ⟨56, _⟩ => ⟨S7168x1, .i32⟩
  | .hbm, ⟨57, _⟩ => ⟨S1x7168, .i32⟩
  | .hbm, ⟨58, _⟩ => ⟨S7168x5, .f32⟩
  | .hbm, ⟨59, _⟩ => ⟨S7168x1, .f32⟩
  | .hbm, ⟨60, _⟩ => ⟨S7168, .f32⟩
  | .hbm, ⟨61, _⟩ => ⟨S7168x1, .f32⟩
  | .hbm, ⟨62, _⟩ => ⟨S7168, .f32⟩
  | .hbm, ⟨63, _⟩ => ⟨S7168x1, .f32⟩
  | .hbm, ⟨64, _⟩ => ⟨S7168, .f32⟩
  | .hbm, ⟨65, _⟩ => ⟨S7168x1, .f32⟩
  | .hbm, ⟨66, _⟩ => ⟨S7168, .f32⟩
  | .hbm, ⟨67, _⟩ => ⟨S7168x1, .f32⟩
  | .hbm, ⟨68, _⟩ => ⟨S7168, .f32⟩
  | .hbm, ⟨69, _⟩ => ⟨S7168, .f32⟩
  | .hbm, ⟨70, _⟩ => ⟨S_, .f32⟩
  | .hbm, ⟨71, _⟩ => ⟨S7168, .f32⟩
  | .hbm, ⟨72, _⟩ => ⟨S7168, .f32⟩
  | .hbm, ⟨73, _⟩ => ⟨S7168, .f32⟩
  | .hbm, ⟨74, _⟩ => ⟨S7168, .f32⟩
  | .hbm, ⟨75, _⟩ => ⟨S_, .f32⟩
  | .hbm, ⟨76, _⟩ => ⟨S7168, .f32⟩
  | .hbm, ⟨77, _⟩ => ⟨S7168, .f32⟩
  | .hbm, ⟨78, _⟩ => ⟨S7168, .f32⟩
  | .hbm, ⟨79, _⟩ => ⟨S_, .f32⟩
  | .hbm, ⟨80, _⟩ => ⟨S7168, .f32⟩
  | .hbm, ⟨81, _⟩ => ⟨S7168, .i1⟩
  | .hbm, ⟨82, _⟩ => ⟨S_, .f32⟩
  | .hbm, ⟨83, _⟩ => ⟨S7168, .f32⟩
  | .hbm, ⟨84, _⟩ => ⟨S7168, .i1⟩
  | .hbm, ⟨85, _⟩ => ⟨S7168, .i1⟩
  | .hbm, ⟨86, _⟩ => ⟨S7168, .i32⟩
  | .hbm, ⟨87, _⟩ => ⟨S_, .i32⟩
  | .hbm, ⟨88, _⟩ => ⟨S_, .i32⟩
  | .hbm, ⟨89, _⟩ => ⟨S7168, .f32⟩
  | .hbm, ⟨90, _⟩ => ⟨S_, .f32⟩
  | .hbm, ⟨91, _⟩ => ⟨S_, .f32⟩
  | .hbm, ⟨92, _⟩ => ⟨S7168, .f32⟩
  | .hbm, ⟨93, _⟩ => ⟨S7168, .f32⟩
  | .hbm, ⟨94, _⟩ => ⟨S_, .f32⟩
  | .hbm, ⟨95, _⟩ => ⟨S_, .f32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S128x512, .bf16⟩
  | .local _ .vmem, ⟨1, _⟩ => ⟨S128x512, .bf16⟩
  | .local _ .vmem, ⟨2, _⟩ => ⟨S512x7168, .bf16⟩
  | .local _ .vmem, ⟨3, _⟩ => ⟨S128x1, .i32⟩
  | .local _ .vmem, ⟨4, _⟩ => ⟨S128x1, .i32⟩
  | .local _ .vmem, ⟨5, _⟩ => ⟨S1x7168, .i32⟩
  | .local _ .vmem, ⟨6, _⟩ => ⟨S128x5, .f32⟩
  | .local _ .vmem, ⟨7, _⟩ => ⟨S128x5, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_9 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_call3_v0 : Ref sig .tc := ⟨.hbm, 91, rfl⟩
abbrev main_call3_v1 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_call4_v0 : Ref sig .tc := ⟨.hbm, 103, rfl⟩
abbrev main_v68 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x7168 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x512 : S_.BroadcastsInDim S1024x512 (![] : Fin 0 → Fin S1024x512.rank)
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024x3x512 : S_.BroadcastsInDim S1024x3x512 (![] : Fin 0 → Fin S1024x3x512.rank)
  reducesTo_S1024x3x512_S1024x3_d2 : S1024x3x512.ReducesTo [2] S1024x3
  bcast_S1024x3_S1024x3x1_0_1 : S1024x3.BroadcastsInDim S1024x3x1 (![0, 1] : Fin 2 → Fin S1024x3x1.rank)
  bcast_S_S1024x3x1 : S_.BroadcastsInDim S1024x3x1 (![] : Fin 0 → Fin S1024x3x1.rank)
  bcast_S1024x3x1_S1024x3x512_0_1_2 : S1024x3x1.BroadcastsInDim S1024x3x512 (![0, 1, 2] : Fin 3 → Fin S1024x3x512.rank)
  shapeCasts_S1024x3x512_S3072x512 : S1024x3x512.ShapeCasts S3072x512
  concatenates_S1024x512_S3072x512_S3072x512_S7168x512_d0 : Shape.Concatenates [S1024x512, S3072x512, S3072x512] S7168x512 0
  bcast_S1024_S1024x3_0 : S1024.BroadcastsInDim S1024x3 (![0] : Fin 1 → Fin S1024x3.rank)
  shapeCasts_S1024x3_S3072 : S1024x3.ShapeCasts S3072
  bcast_S_S1024 : S_.BroadcastsInDim S1024 (![] : Fin 0 → Fin S1024.rank)
  concatenates_S1024_S3072_S3072_S7168_d0 : Shape.Concatenates [S1024, S3072, S3072] S7168 0
  bitsLt_bf16_f32 : FTy.bits .bf16 < FTy.bits .f32
  transposes_S7168x512_S512x7168_1_0 : S7168x512.Transposes [1, 0] S512x7168
  shapeCasts_S7168_S7168x1 : S7168.ShapeCasts S7168x1
  shapeCasts_S7168_S1x7168 : S7168.ShapeCasts S1x7168
  iota_S128x1_d0_w32 : S128x1.Iotas .tc 32 [0]
  iota_S1x7168_d1_w32 : S1x7168.Iotas .tc 32 [1]
  broadcasts_S128x1_S128x7168 : S128x1.Broadcasts S128x7168
  broadcasts_S1x7168_S128x7168 : S1x7168.Broadcasts S128x7168
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x7168_S512x7168_0_0 : ∀ a, (![0, 0] : Fin 2 → Nat) a + S512x7168.size a ≤ S512x7168.size a
  h_S512x7168 : 0 < S512x7168.numel
  shapeCasts_S512x7168_S512x7168 : S512x7168.ShapeCasts S512x7168
  reduces_S128x7168_S128 : S128x7168.Reduces [1] S128
  shapeCasts_S128_S128x1 : S128.ShapeCasts S128x1
  natLt_1_32 : 1 < 32
  inb_S128x5_S128x1_0_0 : ∀ a, (![0, 0] : Fin 2 → Nat) a + S128x1.size a ≤ S128x5.size a
  inb_S128x5_S128x1_0_1 : ∀ a, (![0, 1] : Fin 2 → Nat) a + S128x1.size a ≤ S128x5.size a
  inb_S128x5_S128x1_0_2 : ∀ a, (![0, 2] : Fin 2 → Nat) a + S128x1.size a ≤ S128x5.size a
  inb_S128x5_S128x1_0_3 : ∀ a, (![0, 3] : Fin 2 → Nat) a + S128x1.size a ≤ S128x5.size a
  inb_S128x5_S128x1_0_4 : ∀ a, (![0, 4] : Fin 2 → Nat) a + S128x1.size a ≤ S128x5.size a
  slices_S7168x5_S7168x1_0_0 : S7168x5.Slices ![0, 0] S7168x1
  shapeCasts_S7168x1_S7168 : S7168x1.ShapeCasts S7168
  slices_S7168x5_S7168x1_0_1 : S7168x5.Slices ![0, 1] S7168x1
  slices_S7168x5_S7168x1_0_2 : S7168x5.Slices ![0, 2] S7168x1
  slices_S7168x5_S7168x1_0_3 : S7168x5.Slices ![0, 3] S7168x1
  slices_S7168x5_S7168x1_0_4 : S7168x5.Slices ![0, 4] S7168x1
  bcast_S_S7168 : S_.BroadcastsInDim S7168 (![] : Fin 0 → Fin S7168.rank)
  reducesTo_S7168_S_d0 : S7168.ReducesTo [0] S_
  dot_S128x512_S512x7168_S128x7168_1_0_0_1_n_n_wf : DotDims.WF S128x512 S512x7168 S128x7168 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S7168x512.size a
  hwx0_0 : ∀ i : grid0.Coords, EltTy.bits .bf16 = 32 ∨ (Rect.block (s := S7168x512) S128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x7168.size a ≤ S512x7168.size a
  hwx0_1 : ∀ i : grid0.Coords, EltTy.bits .bf16 = 32 ∨ (Rect.block (s := S512x7168) S512x7168.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S7168x1.size a
  hwx0_2 : ∀ i : grid0.Coords, EltTy.bits .i32 = 32 ∨ (Rect.block (s := S7168x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7168.size a ≤ S1x7168.size a
  hwx0_3 : ∀ i : grid0.Coords, EltTy.bits .i32 = 32 ∨ (Rect.block (s := S1x7168) S1x7168.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x5.size a ≤ S7168x5.size a
  hwx0_4 : ∀ i : grid0.Coords, EltTy.bits .f32 = 32 ∨ (Rect.block (s := S7168x5) S128x5.size (cc0_transform_4 i) (hinb0_4 i)).WholeWords (EltTy.packing .f32)

variable [Facts₀]

def dot_S128x512_S512x7168_S128x7168_1_0_0_1_n_n : DotDims S128x512 S512x7168 S128x7168 where
  lhsContracting := [1]
  rhsContracting := [0]
  lhsNonContracting := [0]
  rhsNonContracting := [1]
  lhsBatch := []
  rhsBatch := []
  wf := dot_S128x512_S512x7168_S128x7168_1_0_0_1_n_n_wf

abbrev win0_0 : Pipeline.Window sig grid0 :=
  Pipeline.Window.ofSpec (Memref.whole main_v31) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x7168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x7168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x3x512 : Shape := ⟨3, ![1024, 3, 512]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x3x1 : Shape := ⟨3, ![1024, 3, 1]⟩
abbrev S3072x512 : Shape := ⟨2, ![3072, 512]⟩
abbrev S7168x512 : Shape := ⟨2, ![7168, 512]⟩
abbrev S3072 : Shape := ⟨1, ![3072]⟩
abbrev S7168 : Shape := ⟨1, ![7168]⟩
abbrev S512x7168 : Shape := ⟨2, ![512, 7168]⟩
abbrev S7168x7168 : Shape := ⟨2, ![7168, 7168]⟩
abbrev S1x7168 : Shape := ⟨2, ![1, 7168]⟩
abbrev S7168x1 : Shape := ⟨2, ![7168, 1]⟩

abbrev nBuf : Space → Nat
  | .hbm => 145
  | .vmem => 0
  | .smem => 0
  | _ => 0

abbrev hbmTy0_0 (i : Nat) : BufTy := match i % 128 with
  | 0 => ⟨S1024x512, .f32⟩
  | 1 => ⟨S1024x3x512, .f32⟩
  | 2 => ⟨S1024x3x512, .f32⟩
  | 3 => ⟨S1024, .i32⟩
  | 4 => ⟨S_, .f32⟩
  | 5 => ⟨S1024x512, .f32⟩
  | 6 => ⟨S1024x512, .f32⟩
  | 7 => ⟨S1024x512, .f32⟩
  | 8 => ⟨S_, .f32⟩
  | 9 => ⟨S1024, .f32⟩
  | 10 => ⟨S1024x1, .f32⟩
  | 11 => ⟨S1024x1, .f32⟩
  | 12 => ⟨S_, .f32⟩
  | 13 => ⟨S1024x1, .f32⟩
  | 14 => ⟨S1024x1, .f32⟩
  | 15 => ⟨S1024x512, .f32⟩
  | 16 => ⟨S1024x512, .f32⟩
  | 17 => ⟨S_, .f32⟩
  | 18 => ⟨S1024x3x512, .f32⟩
  | 19 => ⟨S1024x3x512, .f32⟩
  | 20 => ⟨S1024x3x512, .f32⟩
  | 21 => ⟨S_, .f32⟩
  | 22 => ⟨S1024x3, .f32⟩
  | 23 => ⟨S1024x3x1, .f32⟩
  | 24 => ⟨S1024x3x1, .f32⟩
  | 25 => ⟨S_, .f32⟩
  | 26 => ⟨S1024x3x1, .f32⟩
  | 27 => ⟨S1024x3x1, .f32⟩
  | 28 => ⟨S1024x3x512, .f32⟩
  | 29 => ⟨S1024x3x512, .f32⟩
  | 30 => ⟨S3072x512, .f32⟩
  | 31 => ⟨S_, .f32⟩
  | 32 => ⟨S1024x3x512, .f32⟩
  | 33 => ⟨S1024x3x512, .f32⟩
  | 34 => ⟨S1024x3x512, .f32⟩
  | 35 => ⟨S_, .f32⟩
  | 36 => ⟨S1024x3, .f32⟩
  | 37 => ⟨S1024x3x1, .f32⟩
  | 38 => ⟨S1024x3x1, .f32⟩
  | 39 => ⟨S_, .f32⟩
  | 40 => ⟨S1024x3x1, .f32⟩
  | 41 => ⟨S1024x3x1, .f32⟩
  | 42 => ⟨S1024x3x512, .f32⟩
  | 43 => ⟨S1024x3x512, .f32⟩
  | 44 => ⟨S3072x512, .f32⟩
  | 45 => ⟨S7168x512, .f32⟩
  | 46 => ⟨S1024x3, .i32⟩
  | 47 => ⟨S3072, .i32⟩
  | 48 => ⟨S_, .i32⟩
  | 49 => ⟨S1024, .i32⟩
  | 50 => ⟨S1024, .i32⟩
  | 51 => ⟨S1024x3, .i32⟩
  | 52 => ⟨S3072, .i32⟩
  | 53 => ⟨S7168, .i32⟩
  | 54 => ⟨S512x7168, .f32⟩
  | 55 => ⟨S7168x7168, .f32⟩
  | 56 => ⟨S_, .f32⟩
  | 57 => ⟨S7168x7168, .f32⟩
  | 58 => ⟨S7168x7168, .f32⟩
  | 59 => ⟨S1x7168, .i32⟩
  | 60 => ⟨S7168x1, .i32⟩
  | 61 => ⟨S7168x7168, .i32⟩
  | 62 => ⟨S7168x7168, .i32⟩
  | 63 => ⟨S7168x7168, .i1⟩
  | 64 => ⟨S7168x7168, .i32⟩
  | 65 => ⟨S7168x7168, .i32⟩
  | 66 => ⟨S_, .i32⟩
  | 67 => ⟨S7168x7168, .i32⟩
  | 68 => ⟨S7168x7168, .i32⟩
  | 69 => ⟨S7168x7168, .i1⟩
  | 70 => ⟨S7168x7168, .i1⟩
  | 71 => ⟨S7168x7168, .i1⟩
  | 72 => ⟨S7168x7168, .i1⟩
  | 73 => ⟨S7168x7168, .i1⟩
  | 74 => ⟨S7168x7168, .i1⟩
  | 75 => ⟨S7168x7168, .f32⟩
  | 76 => ⟨S7168x7168, .i1⟩
  | 77 => ⟨S_, .f32⟩
  | 78 => ⟨S_, .f32⟩
  | 79 => ⟨S7168x7168, .f32⟩
  | 80 => ⟨S7168x7168, .f32⟩
  | 81 => ⟨S_, .f32⟩
  | 82 => ⟨S7168, .f32⟩
  | 83 => ⟨S7168x7168, .i32⟩
  | 84 => ⟨S_, .i32⟩
  | 85 => ⟨S7168, .i32⟩
  | 86 => ⟨S7168x7168, .i32⟩
  | 87 => ⟨S_, .i32⟩
  | 88 => ⟨S7168, .i32⟩
  | 89 => ⟨S_, .f32⟩
  | 90 => ⟨S_, .f32⟩
  | 91 => ⟨S7168x7168, .f32⟩
  | 92 => ⟨S7168x7168, .f32⟩
  | 93 => ⟨S_, .f32⟩
  | 94 => ⟨S7168, .f32⟩
  | 95 => ⟨S7168, .f32⟩
  | 96 => ⟨S_, .i32⟩
  | 97 => ⟨S7168, .i32⟩
  | 98 => ⟨S7168, .i32⟩
  | 99 => ⟨S7168, .f32⟩
  | 100 => ⟨S7168, .f32⟩
  | 101 => ⟨S7168, .f32⟩
  | 102 => ⟨S_, .f32⟩
  | 103 => ⟨S7168x7168, .f32⟩
  | 104 => ⟨S7168x7168, .f32⟩
  | 105 => ⟨S_, .f32⟩
  | 106 => ⟨S7168x7168, .f32⟩
  | 107 => ⟨S7168x7168, .f32⟩
  | 108 => ⟨S_, .f32⟩
  | 109 => ⟨S_, .f32⟩
  | 110 => ⟨S7168x7168, .f32⟩
  | 111 => ⟨S7168x7168, .f32⟩
  | 112 => ⟨S_, .f32⟩
  | 113 => ⟨S7168, .f32⟩
  | 114 => ⟨S_, .i32⟩
  | 115 => ⟨S7168, .i32⟩
  | 116 => ⟨S7168, .i32⟩
  | 117 => ⟨S7168, .f32⟩
  | 118 => ⟨S7168, .f32⟩
  | 119 => ⟨S_, .i32⟩
  | 120 => ⟨S7168, .i32⟩
  | 121 => ⟨S7168, .i1⟩
  | 122 => ⟨S_, .i32⟩
  | 123 => ⟨S7168, .i32⟩
  | 124 => ⟨S7168, .i1⟩
  | 125 => ⟨S7168, .i1⟩
  | 126 => ⟨S7168, .i32⟩
  | 127 => ⟨S_, .i32⟩
  | _ => ⟨S1024x512, .f32⟩

abbrev hbmTy0_1 (i : Nat) : BufTy := match i % 128 with
  | 0 => ⟨S_, .i32⟩
  | 1 => ⟨S7168, .f32⟩
  | 2 => ⟨S_, .f32⟩
  | 3 => ⟨S_, .f32⟩
  | 4 => ⟨S7168, .f32⟩
  | 5 => ⟨S7168, .f32⟩
  | 6 => ⟨S_, .f32⟩
  | 7 => ⟨S_, .f32⟩
  | 8 => ⟨S_, .i32⟩
  | 9 => ⟨S_, .i1⟩
  | 10 => ⟨S_, .i32⟩
  | 11 => ⟨S_, .i32⟩
  | 12 => ⟨S_, .f32⟩
  | 13 => ⟨S_, .f32⟩
  | 14 => ⟨S_, .f32⟩
  | 15 => ⟨S_, .f32⟩
  | 16 => ⟨S_, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_call3_v0 : Ref sig .tc := ⟨.hbm, 78, rfl⟩
abbrev main_call3_v1 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_cst_11 : Ref sig .tc := ⟨.hbm, 89, rfl⟩
abbrev main_call4_v0 : Ref sig .tc := ⟨.hbm, 90, rfl⟩
abbrev main_call4_v1 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_call5_v0 : Ref sig .tc := ⟨.hbm, 109, rfl⟩
abbrev main_call5_v1 : Ref sig .tc := ⟨.hbm, 110, rfl⟩
abbrev main_v70 : Ref sig .tc := ⟨.hbm, 111, rfl⟩
abbrev main_cst_17 : Ref sig .tc := ⟨.hbm, 112, rfl⟩
abbrev main_v71 : Ref sig .tc := ⟨.hbm, 113, rfl⟩
abbrev main_c_18 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_19 : Ref sig .tc := ⟨.hbm, 119, rfl⟩
abbrev main_v76 : Ref sig .tc := ⟨.hbm, 120, rfl⟩
abbrev main_v77 : Ref sig .tc := ⟨.hbm, 121, rfl⟩
abbrev main_c_20 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_21 : Ref sig .tc := ⟨.hbm, 127, rfl⟩
abbrev main_v82 : Ref sig .tc := ⟨.hbm, 128, rfl⟩
abbrev main_v83 : Ref sig .tc := ⟨.hbm, 129, rfl⟩
abbrev main_cst_22 : Ref sig .tc := ⟨.hbm, 130, rfl⟩
abbrev main_call6_v0 : Ref sig .tc := ⟨.hbm, 131, rfl⟩
abbrev main_call6_v1 : Ref sig .tc := ⟨.hbm, 132, rfl⟩
abbrev main_v84 : Ref sig .tc := ⟨.hbm, 133, rfl⟩
abbrev main_cst_23 : Ref sig .tc := ⟨.hbm, 134, rfl⟩
abbrev main_v85 : Ref sig .tc := ⟨.hbm, 135, rfl⟩
abbrev main_c_24 : Ref sig .tc := ⟨.hbm, 136, rfl⟩
abbrev main_v86 : Ref sig .tc := ⟨.hbm, 137, rfl⟩
abbrev main_c_25 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_26 : Ref sig .tc := ⟨.hbm, 142, rfl⟩
abbrev main_call7_v0 : Ref sig .tc := ⟨.hbm, 143, rfl⟩
abbrev main_v90 : Ref sig .tc := ⟨.hbm, 144, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024x3x512 : S_.BroadcastsInDim S1024x3x512 (![] : Fin 0 → Fin S1024x3x512.rank)
  reducesTo_S1024x3x512_S1024x3_d2 : S1024x3x512.ReducesTo [2] S1024x3
  bcast_S1024x3_S1024x3x1_0_1 : S1024x3.BroadcastsInDim S1024x3x1 (![0, 1] : Fin 2 → Fin S1024x3x1.rank)
  bcast_S_S1024x3x1 : S_.BroadcastsInDim S1024x3x1 (![] : Fin 0 → Fin S1024x3x1.rank)
  bcast_S1024x3x1_S1024x3x512_0_1_2 : S1024x3x1.BroadcastsInDim S1024x3x512 (![0, 1, 2] : Fin 3 → Fin S1024x3x512.rank)
  shapeCasts_S1024x3x512_S3072x512 : S1024x3x512.ShapeCasts S3072x512
  concatenates_S1024x512_S3072x512_S3072x512_S7168x512_d0 : Shape.Concatenates [S1024x512, S3072x512, S3072x512] S7168x512 0
  bcast_S1024_S1024x3_0 : S1024.BroadcastsInDim S1024x3 (![0] : Fin 1 → Fin S1024x3.rank)
  shapeCasts_S1024x3_S3072 : S1024x3.ShapeCasts S3072
  bcast_S_S1024 : S_.BroadcastsInDim S1024 (![] : Fin 0 → Fin S1024.rank)
  concatenates_S1024_S3072_S3072_S7168_d0 : Shape.Concatenates [S1024, S3072, S3072] S7168 0
  transposes_S7168x512_S512x7168_1_0 : S7168x512.Transposes [1, 0] S512x7168
  bcast_S_S7168x7168 : S_.BroadcastsInDim S7168x7168 (![] : Fin 0 → Fin S7168x7168.rank)
  bcast_S7168_S1x7168_1 : S7168.BroadcastsInDim S1x7168 (![1] : Fin 1 → Fin S1x7168.rank)
  bcast_S7168_S7168x1_0 : S7168.BroadcastsInDim S7168x1 (![0] : Fin 1 → Fin S7168x1.rank)
  bcast_S1x7168_S7168x7168_0_1 : S1x7168.BroadcastsInDim S7168x7168 (![0, 1] : Fin 2 → Fin S7168x7168.rank)
  bcast_S7168x1_S7168x7168_0_1 : S7168x1.BroadcastsInDim S7168x7168 (![0, 1] : Fin 2 → Fin S7168x7168.rank)
  reducesTo_S7168x7168_S7168_d1 : S7168x7168.ReducesTo [1] S7168
  natLt_1_32 : 1 < 32
  bcast_S_S7168 : S_.BroadcastsInDim S7168 (![] : Fin 0 → Fin S7168.rank)
  reducesTo_S7168_S_d0 : S7168.ReducesTo [0] S_
  dot_S7168x512_S512x7168_S7168x7168_1_0_0_1_n_n_wf : DotDims.WF S7168x512 S512x7168 S7168x7168 [1] [0] [0] [1] [] []

variable [Facts₀]

def dot_S7168x512_S512x7168_S7168x7168_1_0_0_1_n_n : DotDims S7168x512 S512x7168 S7168x7168 where
  lhsContracting := [1]
  rhsContracting := [0]
  lhsNonContracting := [0]
  rhsNonContracting := [1]
  lhsBatch := []
  rhsBatch := []
  wf := dot_S7168x512_S512x7168_S7168x7168_1_0_0_1_n_n_wf

class Facts : Prop extends Facts₀ where

variable [Facts]
-- ==== Proof.FrameK.lean ====
/-
  The run of the kernel program around its one region, and the frame claim it gives.

  The program computes, for each of 7168 rows of a table of normalised embeddings, five statistics of the row against
  all 7168 columns; it does so in one region over a grid of 56 points, each point taking one block of 128 rows. Before
  the region a stretch of host operations builds the four arrays the region reads (the table, its transpose, the
  words as a column and as a row); after it another stretch folds the 7168 × 5 array of statistics into the loss.

  At a point the body reads four staging buffers whole — the block of 128 rows, the whole transposed table, the
  block's 128 words, all 7168 words — and fills the fifth, a 128 × 5 block, column by column with five stores of
  128 × 1 columns at column offsets 0 … 4. The five columns tile the block, so what the body leaves in it is a closed
  function of the four blocks read and of the point's coordinate (which the off-diagonal mask depends on): the five
  payloads laid side by side. With that function as the proof data of the pipeline, the region runs, the host
  operations before it touch no argument array and those after it touch neither an argument nor an array of the
  pipeline, and so every argument array ends as it was launched.

  Everything is stated once for any family of float types.
-/
import proofs.«164784_j15556371546850_1_alg».proof.Proof.Gen.Kernel.Launch
import proofs.«164784_j15556371546850_1_alg».proof.Proof.Gen.Kernel.Skeleton
import proofs.«164784_j15556371546850_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of extents in the thousands recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region, stretch by stretch: the main function's own lines and, in between, the
    three calls of the normalising function. -/
abbrev pfx : List (List (HloOp τ sig (Elt F))) :=
  [hostOps0, hostOps0_1, hostOps0_2, hostOps0_3, hostOps0_4, hostOps0_5, hostOps0_6]
/-- The host operations after the region: the main function's lines and the two calls of the selecting function. -/
abbrev sfx : List (List (HloOp τ sig (Elt F))) := [hostOps1, hostOps1_1, hostOps1_2, hostOps1_3]

/-- A core's buffer contents when the region is entered, as a valuation: what the host operations before the region
    leave of the launch contents. -/
abbrev V0 (c : Dev nD) : Valuation τ sig (Elt F) := StableHlo.after (List.flatten pfx) (fun b => m (c, b))
/-- The same read at a reference of the core. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The main function around the region: the host operations before it, the region, the host operations after it. It
    reduces to the region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the buffers that bypass it only: each touches
    unscoped references of the core, and with nothing prefetched every such reference is one or the other. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- No operation after the region writes an array of the pipeline: each writes its own result buffer, which is none of the five. -/
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

set_option maxHeartbeats 1000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether or not the pipeline fetched it
    there (an unfetched point has the block index of the point before, whose block is still in the buffer), for any
    proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every point, whether or not the pipeline fetched it
    there (an unfetched point has the block index of the point before, whose block is still in the buffer), for any
    proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every point, whether or not the pipeline fetched it
    there (an unfetched point has the block index of the point before, whose block is still in the buffer), for any
    proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds the window's block at every point, whether or not the pipeline fetched it
    there (an unfetched point has the block index of the point before, whose block is still in the buffer), for any
    proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The four loads read their buffers whole. -/
abbrev rl0 : Rect S128x512 := Rect.unit (s := S128x512) ![0, 0] S128x512.size inb_S128x512_S128x512_0_0
abbrev rl1 : Rect S512x7168 := Rect.unit (s := S512x7168) ![0, 0] S512x7168.size inb_S512x7168_S512x7168_0_0
abbrev rl2 : Rect S128x1 := Rect.unit (s := S128x1) ![0, 0] S128x1.size inb_S128x1_S128x1_0_0
abbrev rl3 : Rect S1x7168 := Rect.unit (s := S1x7168) ![0, 0] S1x7168.size inb_S1x7168_S1x7168_0_0
/-- The five stores write the five columns of the 128 × 5 block. -/
abbrev r4_0 : Rect S128x5 := Rect.unit (s := S128x5) ![0, 0] S128x1.size inb_S128x5_S128x1_0_0
abbrev r4_1 : Rect S128x5 := Rect.unit (s := S128x5) ![0, 1] S128x1.size inb_S128x5_S128x1_0_1
abbrev r4_2 : Rect S128x5 := Rect.unit (s := S128x5) ![0, 2] S128x1.size inb_S128x5_S128x1_0_2
abbrev r4_3 : Rect S128x5 := Rect.unit (s := S128x5) ![0, 3] S128x1.size inb_S128x5_S128x1_0_3
abbrev r4_4 : Rect S128x5 := Rect.unit (s := S128x5) ![0, 4] S128x1.size inb_S128x5_S128x1_0_4

/-- The output block after the body at the point of coordinate `i`, from the four input blocks: column 0 the sums of
    exponentials, column 1 the numbers of positives, column 2 the numbers of negatives, column 3 the sums of positive
    similarities, column 4 the sums of clipped margins — the five stores as pieces, the last first. -/
def out0_4 (i : grid0.Coords) (x0 : Vec F S128x512 .bf16) (x1 : Vec F S512x7168 .bf16) (x2 : Vec F S128x1 .i32) (x3 : Vec F S1x7168 .i32) :
    Vec F S128x5 .f32 :=
  View.canon [⟨r4_4, k0_pay2 (k0_pay6 i (View.ld x2 rl2) (View.ld x3 rl3)) (k0_pay7 (View.ld x0 rl0) (View.ld x1 rl1))⟩,
    ⟨r4_3, k0_pay1 (k0_pay11 i (View.ld x2 rl2) (View.ld x3 rl3) (View.ld x0 rl0) (View.ld x1 rl1))⟩,
    ⟨r4_2, k0_pay10 i (View.ld x2 rl2) (View.ld x3 rl3)⟩,
    ⟨r4_1, k0_pay9 i (View.ld x2 rl2) (View.ld x3 rl3)⟩,
    ⟨r4_0, k0_pay8 i (View.ld x0 rl0) (View.ld x1 rl1)⟩]

/-- The five columns tile the block, so they cover it. -/
theorem cover0_4 (p0 p1 p2 p3 p4 : Vec F S128x1 .f32) (y : S128x5.Idx) :
    ∃ pc ∈ ([⟨r4_4, p4⟩, ⟨r4_3, p3⟩, ⟨r4_2, p2⟩, ⟨r4_1, p1⟩, ⟨r4_0, p0⟩] : List (View.Piece (Elt F) S128x5 .f32)), y ∈ pc.1.set :=
  View.cover_of_tiled [⟨r4_4, p4⟩, ⟨r4_3, p3⟩, ⟨r4_2, p2⟩, ⟨r4_1, p1⟩, ⟨r4_0, p0⟩] S128x1.size (by rfl) y

/-! ## The body's triple -/

set_option maxHeartbeats 1000000 in
/-- The body on whole staging buffers, the four inputs' at read contents `x0 … x3` and the output's at anything, runs to
    the continuation holding the inputs' as they were and the output's at `out0_4` of them. -/
theorem sound_kernel (c : Dev nD) (E : Set ℕ) (i : grid0.Coords)
    (arg1 : Memref sig .tc .vmem S128x512 .bf16) (harg1 : arg1.IsWhole) (arg2 : Memref sig .tc .vmem S512x7168 .bf16) (harg2 : arg2.IsWhole)
    (arg3 : Memref sig .tc .vmem S128x1 .i32) (harg3 : arg3.IsWhole) (arg4 : Memref sig .tc .vmem S1x7168 .i32) (harg4 : arg4.IsWhole)
    (arg5 : Memref sig .tc .vmem S128x5 .f32) (harg5 : arg5.IsWhole)
    (x0 : Vec F S128x512 .bf16) (x1 : Vec F S512x7168 .bf16) (x2 : Vec F S128x1 .i32) (x3 : Vec F S1x7168 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__row_kernel i arg1 harg1 arg2 harg2 arg3 harg3 arg4 harg4 arg5 harg5) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _ _)

/-! ## The pipeline's proof data -/

/-- The proof data of the pipeline on a core: the arrays as the region finds them; after the body at a point each
    input's buffer at its block and the output's at `out0_4` of the input blocks and the point's coordinate; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

set_option maxHeartbeats 1000000 in
/-- No host operation after the region writes argument 0, and it is no array of the pipeline: it ends as launched. -/
theorem W_main_arg0 (c : Dev nD) :
    Pipeline.afterTail₀ cfgs (dats m) 0 (V0 m) sfx c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation after the region writes argument 1, and it is no array of the pipeline: it ends as launched. -/
theorem W_main_arg1 (c : Dev nD) :
    Pipeline.afterTail₀ cfgs (dats m) 0 (V0 m) sfx c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation after the region writes argument 2, and it is no array of the pipeline: it ends as launched. -/
theorem W_main_arg2 (c : Dev nD) :
    Pipeline.afterTail₀ cfgs (dats m) 0 (V0 m) sfx c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation after the region writes argument 3, and it is no array of the pipeline: it ends as launched. -/
theorem W_main_arg3 (c : Dev nD) :
    Pipeline.afterTail₀ cfgs (dats m) 0 (V0 m) sfx c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- From any memory with zero counters every weakly fair execution of the main function on the cores terminates, and
    every final state has every array of the pipeline at what the proof data computes and every other unscoped buffer
    as the operations after the region leave it. -/
theorem run_main : θ_run defs (onTc (τ := τ) (main (F := F))) (s₀ m ρ)
    (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the main function runs and its four argument arrays end as launched. An argument is no array of the
    pipeline, so the run's post gives it at what the operations after the region leave, which is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.Kernel.Hand

end
-- ==== Proof.FrameKI.lean ====
/-
  The run of the kernel program around its one region, and the frame claim it gives.

  The program computes, for each of 7168 rows of a table of normalised embeddings, five statistics of the row against
  all 7168 columns; it does so in one region over a grid of 56 points, each point taking one block of 128 rows. Before
  the region a stretch of host operations builds the four arrays the region reads (the table, its transpose, the
  words as a column and as a row); after it another stretch folds the 7168 × 5 array of statistics into the loss.

  At a point the body reads four staging buffers whole — the block of 128 rows, the whole transposed table, the
  block's 128 words, all 7168 words — and fills the fifth, a 128 × 5 block, column by column with five stores of
  128 × 1 columns at column offsets 0 … 4. The five columns tile the block, so what the body leaves in it is a closed
  function of the four blocks read and of the point's coordinate (which the off-diagonal mask depends on): the five
  payloads laid side by side. With that function as the proof data of the pipeline, the region runs, the host
  operations before it touch no argument array and those after it touch neither an argument nor an array of the
  pipeline, and so every argument array ends as it was launched.

  Everything is stated once for any family of float types.
-/
import proofs.«164784_j15556371546850_1_alg».proof.Proof.Gen.KernelIdeal.Launch
import proofs.«164784_j15556371546850_1_alg».proof.Proof.Gen.KernelIdeal.Skeleton
import proofs.«164784_j15556371546850_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of extents in the thousands recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region, stretch by stretch: the main function's own lines and, in between, the
    three calls of the normalising function. -/
abbrev pfx : List (List (HloOp τ sig (Elt F))) :=
  [hostOps0, hostOps0_1, hostOps0_2, hostOps0_3, hostOps0_4, hostOps0_5, hostOps0_6]
/-- The host operations after the region: the main function's lines and the two calls of the selecting function. -/
abbrev sfx : List (List (HloOp τ sig (Elt F))) := [hostOps1, hostOps1_1, hostOps1_2, hostOps1_3]

/-- A core's buffer contents when the region is entered, as a valuation: what the host operations before the region
    leave of the launch contents. -/
abbrev V0 (c : Dev nD) : Valuation τ sig (Elt F) := StableHlo.after (List.flatten pfx) (fun b => m (c, b))
/-- The same read at a reference of the core. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The main function around the region: the host operations before it, the region, the host operations after it. It
    reduces to the region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the buffers that bypass it only: each touches
    unscoped references of the core, and with nothing prefetched every such reference is one or the other. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- No operation after the region writes an array of the pipeline: each writes its own result buffer, which is none of the five. -/
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.nary_writes, StableHlo.binaryIndexed_writes, Finset.mem_singleton]
  repeat' apply And.intro
  all_goals intro w; fin_cases w <;> exact StableHlo.devRef_ne_of_ne (by decide)
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

set_option maxHeartbeats 1000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

set_option maxHeartbeats 1000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether or not the pipeline fetched it
    there (an unfetched point has the block index of the point before, whose block is still in the buffer), for any
    proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every point, whether or not the pipeline fetched it
    there (an unfetched point has the block index of the point before, whose block is still in the buffer), for any
    proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every point, whether or not the pipeline fetched it
    there (an unfetched point has the block index of the point before, whose block is still in the buffer), for any
    proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds the window's block at every point, whether or not the pipeline fetched it
    there (an unfetched point has the block index of the point before, whose block is still in the buffer), for any
    proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The four loads read their buffers whole. -/
abbrev rl0 : Rect S128x512 := Rect.unit (s := S128x512) ![0, 0] S128x512.size inb_S128x512_S128x512_0_0
abbrev rl1 : Rect S512x7168 := Rect.unit (s := S512x7168) ![0, 0] S512x7168.size inb_S512x7168_S512x7168_0_0
abbrev rl2 : Rect S128x1 := Rect.unit (s := S128x1) ![0, 0] S128x1.size inb_S128x1_S128x1_0_0
abbrev rl3 : Rect S1x7168 := Rect.unit (s := S1x7168) ![0, 0] S1x7168.size inb_S1x7168_S1x7168_0_0
/-- The five stores write the five columns of the 128 × 5 block. -/
abbrev r4_0 : Rect S128x5 := Rect.unit (s := S128x5) ![0, 0] S128x1.size inb_S128x5_S128x1_0_0
abbrev r4_1 : Rect S128x5 := Rect.unit (s := S128x5) ![0, 1] S128x1.size inb_S128x5_S128x1_0_1
abbrev r4_2 : Rect S128x5 := Rect.unit (s := S128x5) ![0, 2] S128x1.size inb_S128x5_S128x1_0_2
abbrev r4_3 : Rect S128x5 := Rect.unit (s := S128x5) ![0, 3] S128x1.size inb_S128x5_S128x1_0_3
abbrev r4_4 : Rect S128x5 := Rect.unit (s := S128x5) ![0, 4] S128x1.size inb_S128x5_S128x1_0_4

/-- The output block after the body at the point of coordinate `i`, from the four input blocks: column 0 the sums of
    exponentials, column 1 the numbers of positives, column 2 the numbers of negatives, column 3 the sums of positive
    similarities, column 4 the sums of clipped margins — the five stores as pieces, the last first. -/
def out0_4 (i : grid0.Coords) (x0 : Vec F S128x512 .bf16) (x1 : Vec F S512x7168 .bf16) (x2 : Vec F S128x1 .i32) (x3 : Vec F S1x7168 .i32) :
    Vec F S128x5 .f32 :=
  View.canon [⟨r4_4, k0_pay2 (k0_pay6 i (View.ld x2 rl2) (View.ld x3 rl3)) (k0_pay7 (View.ld x0 rl0) (View.ld x1 rl1))⟩,
    ⟨r4_3, k0_pay1 (k0_pay11 i (View.ld x2 rl2) (View.ld x3 rl3) (View.ld x0 rl0) (View.ld x1 rl1))⟩,
    ⟨r4_2, k0_pay10 i (View.ld x2 rl2) (View.ld x3 rl3)⟩,
    ⟨r4_1, k0_pay9 i (View.ld x2 rl2) (View.ld x3 rl3)⟩,
    ⟨r4_0, k0_pay8 i (View.ld x0 rl0) (View.ld x1 rl1)⟩]

/-- The five columns tile the block, so they cover it. -/
theorem cover0_4 (p0 p1 p2 p3 p4 : Vec F S128x1 .f32) (y : S128x5.Idx) :
    ∃ pc ∈ ([⟨r4_4, p4⟩, ⟨r4_3, p3⟩, ⟨r4_2, p2⟩, ⟨r4_1, p1⟩, ⟨r4_0, p0⟩] : List (View.Piece (Elt F) S128x5 .f32)), y ∈ pc.1.set :=
  View.cover_of_tiled [⟨r4_4, p4⟩, ⟨r4_3, p3⟩, ⟨r4_2, p2⟩, ⟨r4_1, p1⟩, ⟨r4_0, p0⟩] S128x1.size (by rfl) y

/-! ## The body's triple -/

set_option maxHeartbeats 1000000 in
/-- The body on whole staging buffers, the four inputs' at read contents `x0 … x3` and the output's at anything, runs to
    the continuation holding the inputs' as they were and the output's at `out0_4` of them. -/
theorem sound_kernel (c : Dev nD) (E : Set ℕ) (i : grid0.Coords)
    (arg1 : Memref sig .tc .vmem S128x512 .bf16) (harg1 : arg1.IsWhole) (arg2 : Memref sig .tc .vmem S512x7168 .bf16) (harg2 : arg2.IsWhole)
    (arg3 : Memref sig .tc .vmem S128x1 .i32) (harg3 : arg3.IsWhole) (arg4 : Memref sig .tc .vmem S1x7168 .i32) (harg4 : arg4.IsWhole)
    (arg5 : Memref sig .tc .vmem S128x5 .f32) (harg5 : arg5.IsWhole)
    (x0 : Vec F S128x512 .bf16) (x1 : Vec F S512x7168 .bf16) (x2 : Vec F S128x1 .i32) (x3 : Vec F S1x7168 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__row_kernel i arg1 harg1 arg2 harg2 arg3 harg3 arg4 harg4 arg5 harg5) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _ _)

/-! ## The pipeline's proof data -/

/-- The proof data of the pipeline on a core: the arrays as the region finds them; after the body at a point each
    input's buffer at its block and the output's at `out0_4` of the input blocks and the point's coordinate; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

set_option maxHeartbeats 1000000 in
/-- No host operation after the region writes argument 0, and it is no array of the pipeline: it ends as launched. -/
theorem W_main_arg0 (c : Dev nD) :
    Pipeline.afterTail₀ cfgs (dats m) 0 (V0 m) sfx c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation after the region writes argument 1, and it is no array of the pipeline: it ends as launched. -/
theorem W_main_arg1 (c : Dev nD) :
    Pipeline.afterTail₀ cfgs (dats m) 0 (V0 m) sfx c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation after the region writes argument 2, and it is no array of the pipeline: it ends as launched. -/
theorem W_main_arg2 (c : Dev nD) :
    Pipeline.afterTail₀ cfgs (dats m) 0 (V0 m) sfx c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation after the region writes argument 3, and it is no array of the pipeline: it ends as launched. -/
theorem W_main_arg3 (c : Dev nD) :
    Pipeline.afterTail₀ cfgs (dats m) 0 (V0 m) sfx c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- From any memory with zero counters every weakly fair execution of the main function on the cores terminates, and
    every final state has every array of the pipeline at what the proof data computes and every other unscoped buffer
    as the operations after the region leave it. -/
theorem run_main : θ_run defs (onTc (τ := τ) (main (F := F))) (s₀ m ρ)
    (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the main function runs and its four argument arrays end as launched. An argument is no array of the
    pipeline, so the run's post gives it at what the operations after the region leave, which is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Hand

end
-- ==== Proof.Spec.lean ====
/-
  The mathematics both programs compute, over the extended reals, with no program in sight.

  From a table `E` of 7168 rows of 512 extended reals (the normalised embeddings) and one 32-bit word per row (`ids`):
  the similarity of two rows is their inner product divided by the temperature; a column `c` is POSITIVE for row `r`
  when the two words agree and `c ≠ r`, NEGATIVE when they differ and `c ≠ r`. Each row has five statistics — the sum of
  the exponentials of its off-diagonal similarities, the numbers of its positives and negatives, the sum of its positive
  similarities, and the sum over its negatives of the similarity plus the margin clipped below at zero — and the loss is
  the mean, over the rows that have at least one positive and one negative, of
  `log denom − posSum / max(npos, 1) + marginSum / max(nneg, 1)`, and zero when there is no such row.

  The five statistics are first stated for ONE row given by itself — its position `g`, its 512 entries `L`, its word `a` —
  against all 7168 columns, given as a 512 × 7168 table `R` and their words `b`; the statistics of the table `E` are these
  at row `r` of `E` against `E` transposed.
-/
import Idealize.ShloMosaic.PureOps.Ideal
import Idealize.ShloMosaic.Lib.ValueIdx

noncomputable section

namespace Cert.Spec

open Idealize.ShloMosaic

/-- The temperature: the binary32 value nearest 0.07. -/
def temp : EReal := Ideal.ofBits .f32 0x3D8F5C29#32
/-- The margin: the binary32 value nearest 0.2. -/
def marginC : EReal := Ideal.ofBits .f32 0x3E4CCCCD#32

/-! ## One row against all columns -/

section Row

variable (g : ℕ) (L : Fin 512 → EReal) (R : Fin 512 → Fin 7168 → EReal) (a : BitVec 32) (b : Fin 7168 → BitVec 32)

/-- The similarity of the row with column `c`: their inner product over the temperature. -/
def rowSim (c : Fin 7168) : EReal := Ideal.div (∑ k : Fin 512, L k * R k c) temp

/-- Column `c` is a positive of the row at position `g` with word `a`: the same word, another position. -/
def rowIsPos (c : Fin 7168) : Prop := a = b c ∧ g ≠ c.val
/-- Column `c` is a negative: another word, another position. -/
def rowIsNeg (c : Fin 7168) : Prop := a ≠ b c ∧ g ≠ c.val

instance (c : Fin 7168) : Decidable (rowIsPos g a b c) := inferInstanceAs (Decidable (_ ∧ _))
instance (c : Fin 7168) : Decidable (rowIsNeg g a b c) := inferInstanceAs (Decidable (_ ∧ _))

/-- The sum of the exponentials of the row's off-diagonal similarities. -/
def rowDenom : EReal := ∑ c : Fin 7168, if g ≠ c.val then Ideal.exp (rowSim L R c) else 0
/-- How many positives the row has. -/
def rowNpos : ℕ := (Finset.univ.filter fun c : Fin 7168 => rowIsPos g a b c).card
/-- How many negatives the row has. -/
def rowNneg : ℕ := (Finset.univ.filter fun c : Fin 7168 => rowIsNeg g a b c).card
/-- The sum of the row's positive similarities. -/
def rowPosSum : EReal := ∑ c : Fin 7168, if rowIsPos g a b c then rowSim L R c else 0
/-- The sum over the row's negatives of the similarity plus the margin, clipped below at zero. -/
def rowMarginSum : EReal := ∑ c : Fin 7168, if rowIsNeg g a b c then max (rowSim L R c + marginC) 0 else 0

end Row

/-! ## The table -/

/-- A 7168 × 512 array read as a table of rows. -/
def tableOf (e : (⟨2, ![7168, 512]⟩ : Shape).Idx → EReal) : Fin 7168 → Fin 512 → EReal := fun r k => e (ValueIdx.ix2 r k)
/-- A vector of 7168 words read by position. -/
def wordsOf (v : (⟨1, ![7168]⟩ : Shape).Idx → BitVec 32) : Fin 7168 → BitVec 32 := fun r => v (ValueIdx.ix1 r)

variable (E : Fin 7168 → Fin 512 → EReal) (ids : Fin 7168 → BitVec 32)

/-- The table transposed: entry `k` of column `c`. -/
def transposed : Fin 512 → Fin 7168 → EReal := fun k c => E c k

def denom (r : Fin 7168) : EReal := rowDenom r.val (E r) (transposed E)
def npos (r : Fin 7168) : ℕ := rowNpos r.val (ids r) ids
def nneg (r : Fin 7168) : ℕ := rowNneg r.val (ids r) ids
def posSum (r : Fin 7168) : EReal := rowPosSum r.val (E r) (transposed E) (ids r) ids
def marginSum (r : Fin 7168) : EReal := rowMarginSum r.val (E r) (transposed E) (ids r) ids

/-- A count used as a divisor: at least one, as a real. -/
def clampCount (n : ℕ) : EReal := (((max n 1 : ℕ) : ℝ) : EReal)

/-- One row's contribution from its five statistics: the InfoNCE term plus the margin term. -/
def lossOfStats (dn : EReal) (np nn : ℕ) (ps ms : EReal) : EReal :=
  (Ideal.log dn - Ideal.div ps (clampCount np)) + Ideal.div ms (clampCount nn)

/-- Row `r`'s contribution. -/
def rowLoss (r : Fin 7168) : EReal :=
  lossOfStats (denom E r) (npos ids r) (nneg ids r) (posSum E ids r) (marginSum E ids r)

/-- Row `r` counts: it has a positive and a negative. -/
def valid (r : Fin 7168) : Prop := 0 < npos ids r ∧ 0 < nneg ids r
instance (r : Fin 7168) : Decidable (valid ids r) := inferInstanceAs (Decidable (_ ∧ _))

/-- How many rows count. -/
def count : ℕ := (Finset.univ.filter fun r : Fin 7168 => valid ids r).card
/-- The sum of the counted rows' contributions. -/
def total : EReal := ∑ r : Fin 7168, if valid ids r then rowLoss E ids r else 0
/-- The loss: the mean contribution of the counted rows, zero when none counts. -/
def loss : EReal := if 0 < count ids then Ideal.div (total E ids) (clampCount (count ids)) else 0

end Cert.Spec

end
-- ==== Proof.KBlock.lean ====
/-
  The kernel body's five stored columns, read at an index over the extended reals, as the row statistics of the
  specification.

  Block `i` of the grid holds 128 consecutive rows of the table; row `p` of the block sits at position
  `i * 128 + p` among the 7168 rows. The body forms, for every row of the block against every one of the 7168 columns,
  the off-diagonal mask (the row's position differs from the column), the same-word mask (the row's word is the
  column's), and the similarity (inner product over the temperature); each stored column is a sum along the 7168 lanes
  of a quantity selected by these masks. Read at row `p` each sum is one of the specification's five statistics of that row
  against all columns:
    column 0  the sum of the exponentials of the off-diagonal similarities,
    column 1  the number of positives (as a sum of ones),
    column 2  the number of negatives,
    column 3  the sum of the positive similarities,
    column 4  the sum over the negatives of the similarity plus the margin, clipped below at zero.
  The position word is computed in 32 bits without wrap, since 56 * 128 = 7168 < 2^32.
-/
import proofs.«164784_j15556371546850_1_alg».proof.Proof.Gen.KernelIdeal.Skeleton
import proofs.«164784_j15556371546850_1_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate

set_option synthInstance.maxSize 4096

noncomputable section

namespace Cert.KernelIdeal.Block

open Cert.KernelIdeal Cert.KernelIdeal.Gen Idealize.ShloMosaic Idealize.ShloMosaic.ValueIdx

/-! ## Layout: a column and a row spread over the 128 × 7168 block; a sum along the lanes kept as a column -/

section Layout
variable {α : Type}

/-- A column vector spread along the lanes reads, at row `p` and any lane, its entry of row `p`. -/
theorem spread_col (x : S128x1.Idx → α) (h : S128x1.Broadcasts S128x7168) (p : Fin 128) (c : Fin 7168) :
    broadcastTo S128x7168 x h (ix2 p c) = x (ix2 p 0) :=
  broadcastTo_apply x h (ix2 p c) (ix2 p 0) (fun a => match a with
    | ⟨0, _⟩ => rfl
    | ⟨1, _⟩ => rfl)

/-- A row vector spread along the rows reads, at any row and lane `c`, its entry of lane `c`. -/
theorem spread_row (x : S1x7168.Idx → α) (h : S1x7168.Broadcasts S128x7168) (p : Fin 128) (c : Fin 7168) :
    broadcastTo S128x7168 x h (ix2 p c) = x (ix2 0 c) :=
  broadcastTo_apply x h (ix2 p c) (ix2 0 c) (fun a => match a with
    | ⟨0, _⟩ => rfl
    | ⟨1, _⟩ => rfl)

end Layout

/-- The sum along the lanes of a 128 × 7168 block, from the zero word, kept as a column: at row `p` it is the sum over
    all 7168 lanes of that row's entries. -/
theorem lane_sum (v : FVec Ideal S128x7168 .f32) (h : S128x7168.Reduces [1] S128) (hφ : FKind.Formats .f32)
    (hacc : (0x00000000#32 : BitVec 32) = 0x00000000#32) (hc : S128.ShapeCasts S128x1) (p : Fin 128) :
    shapeCast S128x1 (multiReduction (F := Ideal) .add [1] S128 v 0x00000000#32 h hφ hacc) hc (ix2 p 0)
      = ∑ c : Fin 7168, v (ix2 p c) := by
  refine (shapeCast_apply _ hc (ix2 p 0) (ix1 p) ?_).trans ?_
  · rw [Shape.rowMajor_val_one, Shape.rowMajor_val_two]
    show p.val = p.val * 1 + 0
    omega
  · refine (Ideal.multiReduction_add_single v 0x00000000#32 h hφ hacc (ix1 p)).trans ?_
    show ∑ c : Fin 7168, v (h.lift (ix1 p) c) = _
    refine Finset.sum_congr rfl fun c _ => congrArg v ?_
    funext a
    match a with
    | ⟨0, _⟩ => exact Fin.ext rfl
    | ⟨1, _⟩ => exact Fin.ext rfl

/-! ## One-bit words: conjunction, negation, a select on a decided bit, a count as a sum of ones -/

theorem and_one_iff (a b : BitVec 1) : IntOp.andi a b = 1#1 ↔ a = 1#1 ∧ b = 1#1 := by
  rcases BitVec.eq_zero_or_eq_one a with ha | ha <;> rcases BitVec.eq_zero_or_eq_one b with hb | hb <;>
    subst ha <;> subst hb <;> decide

theorem xor_one_iff (a : BitVec 1) : IntOp.xori a 1#1 = 1#1 ↔ ¬ a = 1#1 := by
  rcases BitVec.eq_zero_or_eq_one a with ha | ha <;> subst ha <;> decide

/-- A select on a bit that is set exactly when `P` holds is the `if` on `P`. -/
theorem select_ite {α : Type} (b : BitVec 1) (P : Prop) [Decidable P] (hb : b = 1#1 ↔ P) (x y : α) :
    Scalar.select b x y = if P then x else y := by
  by_cases h : P
  · rw [if_pos h, hb.2 h, select_one]
  · rw [if_neg h, eq_zero_of_ne_one (fun e => h (hb.1 e)), select_zero]

/-- A decided bit, widened to a word and read as a signed integer into the extended reals, is one or zero. -/
theorem bit_to_real (b : BitVec 1) (P : Prop) [Decidable P] (hb : b = 1#1 ↔ P) :
    FloatOps.sitofp (F := Ideal) .f32 (b.setWidth 32) = if P then (1 : EReal) else 0 := by
  show (((b.setWidth 32).toInt : ℝ) : EReal) = _
  by_cases h : P
  · rw [if_pos h, hb.2 h]
    show (((1 : ℤ) : ℝ) : EReal) = 1
    simp
  · rw [if_neg h, eq_zero_of_ne_one (fun e => h (hb.1 e))]
    show (((0 : ℤ) : ℝ) : EReal) = 0
    simp

/-- A sum of ones over the members of a decidable set is the set's size. -/
theorem sum_ones {ι : Type} [DecidableEq ι] (s : Finset ι) (P : ι → Prop) [DecidablePred P] :
    ∑ c ∈ s, (if P c then (1 : EReal) else 0) = ((((s.filter P).card : ℕ) : ℝ) : EReal) := by
  induction s using Finset.induction_on with
  | empty => simp
  | insert a s ha ih =>
    rw [Finset.sum_insert ha, ih, Finset.filter_insert]
    by_cases h : P a
    · rw [if_pos h, if_pos h, Finset.card_insert_of_notMem (fun hm => ha (Finset.mem_filter.1 hm).1),
        Nat.cast_succ, EReal.coe_add, EReal.coe_one, add_comm]
    · rw [if_neg h, if_neg h, zero_add]

/-! ## The block's inputs, and what the specification reads of them -/

variable (i : grid0.Coords) (x0 : Vec Ideal S128x512 .bf16) (x1 : Vec Ideal S512x7168 .bf16)
  (x2 : Vec Ideal S128x1 .i32) (x3 : Vec Ideal S1x7168 .i32) (p : Fin 128)

/-- The position, among the 7168 rows, of row p of block i. -/
def gpos : ℕ := (i 0).val * 128 + p.val
/-- Row `p` of the block of the table. -/
def Lrow : Fin 512 → EReal := fun k => x0 (ix2 p k)
/-- The transposed table: entry `k` of column `c`. -/
def Rtab : Fin 512 → Fin 7168 → EReal := fun k c => x1 (ix2 k c)
/-- The word of row `p` of the block. -/
def aword : BitVec 32 := x2 (ix2 p 0)
/-- The words of all 7168 columns. -/
def bwords : Fin 7168 → BitVec 32 := fun c => x3 (ix2 0 c)

theorem gpos_lt : gpos i p < 7168 := by
  have h : (i 0).val < 56 := (i 0).isLt
  unfold gpos
  omega

/-- The word the body computes for the position of row `p`: block number times 128 plus the row, without wrap. -/
theorem rowWord_toNat :
    (IntOp.addi (Scalar.muli (BitVec.ofNat 32 (i 0).val) 128#32) (BitVec.ofNat 32 p.val)).toNat = gpos i p := by
  have h : (i 0).val < 56 := (i 0).isLt
  have hp := p.isLt
  unfold gpos Scalar.muli IntOp.muli IntOp.addi
  rw [BitVec.toNat_add, BitVec.toNat_mul, BitVec.toNat_ofNat, BitVec.toNat_ofNat, BitVec.toNat_ofNat]
  omega

/-! ## The masks -/

/-- The off-diagonal mask is set exactly where the row's position differs from the lane. -/
theorem offdiag_iff (c : Fin 7168) : k0_pay3 i (ix2 p c) = 1#1 ↔ gpos i p ≠ c.val := by
  unfold k0_pay3
  show IntOp.xori (IntOp.cmpi .eq
      (broadcastTo S128x7168 (addi (broadcast S128x1 (Scalar.muli (BitVec.ofNat 32 (i 0).val) 128#32))
        (iota .tc S128x1 32 [0] iota_S128x1_d0_w32)) broadcasts_S128x1_S128x7168 (ix2 p c))
      (broadcastTo S128x7168 (iota .tc S1x7168 32 [1] iota_S1x7168_d1_w32) broadcasts_S1x7168_S128x7168 (ix2 p c))) 1#1 = 1#1 ↔ _
  rw [spread_col, spread_row]
  show IntOp.xori (IntOp.cmpi .eq
      (IntOp.addi (Scalar.muli (BitVec.ofNat 32 (i 0).val) 128#32) (iota .tc S128x1 32 [0] iota_S128x1_d0_w32 (ix2 p 0)))
      (iota .tc S1x7168 32 [1] iota_S1x7168_d1_w32 (ix2 0 c))) 1#1 = 1#1 ↔ _
  rw [iota_single_apply, iota_single_apply]
  show IntOp.xori (IntOp.cmpi .eq
      (IntOp.addi (Scalar.muli (BitVec.ofNat 32 (i 0).val) 128#32) (BitVec.ofNat 32 p.val))
      (BitVec.ofNat 32 c.val)) 1#1 = 1#1 ↔ _
  have hw := rowWord_toNat i p
  have hg := gpos_lt i p
  have hc := c.isLt
  generalize IntOp.addi (Scalar.muli (BitVec.ofNat 32 (i 0).val) 128#32) (BitVec.ofNat 32 p.val) = w at hw
  have key : (w = BitVec.ofNat 32 c.val) ↔ gpos i p = c.val := by
    constructor
    · intro e
      have := congrArg BitVec.toNat e
      rw [hw, BitVec.toNat_ofNat] at this
      omega
    · intro e
      apply BitVec.eq_of_toNat_eq
      rw [hw, BitVec.toNat_ofNat]
      omega
  rw [xor_one_iff, StableHlo.Predicate.cmpi_eq_iff, key]

/-- The same-word mask is set exactly where the row's word is the column's. -/
theorem same_iff (c : Fin 7168) : k0_pay4 x2 x3 (ix2 p c) = 1#1 ↔ aword x2 p = bwords x3 c := by
  unfold k0_pay4
  show IntOp.cmpi .eq
      (broadcastTo S128x7168 (shapeCast S128x1 x2 shapeCasts_S128x1_S128x1) broadcasts_S128x1_S128x7168 (ix2 p c))
      (broadcastTo S128x7168 (shapeCast S1x7168 x3 shapeCasts_S1x7168_S1x7168) broadcasts_S1x7168_S128x7168 (ix2 p c)) = 1#1 ↔ _
  rw [spread_col, spread_row, shapeCast_self, shapeCast_self]
  exact StableHlo.Predicate.cmpi_eq_iff

/-- The mask of positives: the same word at another position. -/
theorem pos_iff (c : Fin 7168) :
    k0_pay5 i x2 x3 (ix2 p c) = 1#1 ↔ Cert.Spec.rowIsPos (gpos i p) (aword x2 p) (bwords x3) c := by
  unfold k0_pay5 Cert.Spec.rowIsPos
  show IntOp.andi (k0_pay4 x2 x3 (ix2 p c)) (k0_pay3 i (ix2 p c)) = 1#1 ↔ _
  rw [and_one_iff, same_iff, offdiag_iff]

/-- The mask of negatives: another word at another position. -/
theorem neg_iff (c : Fin 7168) :
    k0_pay6 i x2 x3 (ix2 p c) = 1#1 ↔ Cert.Spec.rowIsNeg (gpos i p) (aword x2 p) (bwords x3) c := by
  unfold k0_pay6 Cert.Spec.rowIsNeg
  show IntOp.andi (IntOp.xori (k0_pay4 x2 x3 (ix2 p c)) 1#1) (k0_pay3 i (ix2 p c)) = 1#1 ↔ _
  rw [and_one_iff, xor_one_iff, same_iff, offdiag_iff]

/-! ## The similarity -/

theorem lhs_axis0 (j : S128x7168.Idx) (q : dot_S128x512_S512x7168_S128x7168_1_0_0_1_n_n.contr.Idx) :
    (dot_S128x512_S512x7168_S128x7168_1_0_0_1_n_n.lhsIdx j q 0).val = (j 0).val := by
  unfold DotDims.lhsIdx
  rw [dif_neg (show ¬(0 : Fin S128x512.rank) ∈ dot_S128x512_S512x7168_S128x7168_1_0_0_1_n_n.lhsBatch by decide), dif_pos (show (0 : Fin S128x512.rank) ∈ dot_S128x512_S512x7168_S128x7168_1_0_0_1_n_n.lhsNonContracting by decide)]
  rfl
theorem lhs_axis1 (j : S128x7168.Idx) (q : dot_S128x512_S512x7168_S128x7168_1_0_0_1_n_n.contr.Idx) :
    (dot_S128x512_S512x7168_S128x7168_1_0_0_1_n_n.lhsIdx j q 1).val = (q ⟨0, by decide⟩).val :=
  dot_S128x512_S512x7168_S128x7168_1_0_0_1_n_n.lhsIdx_val_of_single rfl j q
theorem rhs_axis0 (j : S128x7168.Idx) (q : dot_S128x512_S512x7168_S128x7168_1_0_0_1_n_n.contr.Idx) :
    (dot_S128x512_S512x7168_S128x7168_1_0_0_1_n_n.rhsIdx j q 0).val = (q ⟨0, by decide⟩).val :=
  dot_S128x512_S512x7168_S128x7168_1_0_0_1_n_n.rhsIdx_val_of_single rfl j q
theorem rhs_axis1 (j : S128x7168.Idx) (q : dot_S128x512_S512x7168_S128x7168_1_0_0_1_n_n.contr.Idx) :
    (dot_S128x512_S512x7168_S128x7168_1_0_0_1_n_n.rhsIdx j q 1).val = (j 1).val := by
  unfold DotDims.rhsIdx
  rw [dif_neg (show ¬(1 : Fin S512x7168.rank) ∈ dot_S128x512_S512x7168_S128x7168_1_0_0_1_n_n.rhsBatch by decide), dif_pos (show (1 : Fin S512x7168.rank) ∈ dot_S128x512_S512x7168_S128x7168_1_0_0_1_n_n.rhsNonContracting by decide)]
  rfl

/-- The product of the block with the transposed table, into a zero accumulator, is at row `r` and column `c` the
    inner product of row `r` with column `c`. -/
theorem prod_apply (y0 : FVec Ideal S128x512 .bf16) (y1 : FVec Ideal S512x7168 .bf16) (r : Fin 128) (c : Fin 7168) :
    FloatOps.matmul (F := Ideal) dot_S128x512_S512x7168_S128x7168_1_0_0_1_n_n none y0 y1 (constant (F := Ideal) S128x7168 .f32 0x00000000#32) (ix2 r c)
      = ∑ k : Fin 512, y0 (ix2 r k) * y1 (ix2 k c) := by
  rw [Ideal.matmul_constant_zero_apply, ← Equiv.sum_comp (contrEquiv1 dot_S128x512_S512x7168_S128x7168_1_0_0_1_n_n 512 rfl rfl).symm]
  refine Finset.sum_congr rfl fun k _ => ?_
  have hk := contrEquiv1_symm_val dot_S128x512_S512x7168_S128x7168_1_0_0_1_n_n 512 rfl rfl k
  have el : dot_S128x512_S512x7168_S128x7168_1_0_0_1_n_n.lhsIdx (ix2 r c) ((contrEquiv1 dot_S128x512_S512x7168_S128x7168_1_0_0_1_n_n 512 rfl rfl).symm k) = ix2 r k := funext fun a => Fin.ext (by
    match a with
    | ⟨0, _⟩ => exact lhs_axis0 _ _
    | ⟨1, _⟩ => exact (lhs_axis1 _ _).trans hk)
  have er : dot_S128x512_S512x7168_S128x7168_1_0_0_1_n_n.rhsIdx (ix2 r c) ((contrEquiv1 dot_S128x512_S512x7168_S128x7168_1_0_0_1_n_n 512 rfl rfl).symm k) = ix2 k c := funext fun a => Fin.ext (by
    match a with
    | ⟨0, _⟩ => exact (rhs_axis0 _ _).trans hk
    | ⟨1, _⟩ => exact rhs_axis1 _ _)
  rw [el, er]

/-- The similarity the body computes at row `p` and column `c` is the inner product over the temperature. -/
theorem sim_apply (c : Fin 7168) :
    k0_pay7 (F := Ideal) x0 x1 (ix2 p c) = Cert.Spec.rowSim (Lrow x0 p) (Rtab x1) c := by
  unfold k0_pay7 Cert.Spec.rowSim Cert.Spec.temp Lrow Rtab
  show Ideal.div (FloatOps.matmul (F := Ideal) dot_S128x512_S512x7168_S128x7168_1_0_0_1_n_n none
      (shapeCast S128x512 x0 shapeCasts_S128x512_S128x512 : FVec Ideal S128x512 .bf16)
      (shapeCast S512x7168 x1 shapeCasts_S512x7168_S512x7168 : FVec Ideal S512x7168 .bf16)
      (constant (F := Ideal) S128x7168 .f32 0x00000000#32) (ix2 p c)) (Ideal.ofBits .f32 0x3D8F5C29#32) = _
  rw [shapeCast_self, shapeCast_self, prod_apply]

/-! ## The five stored columns -/

/-- Column 0 at row `p`: the sum of the exponentials of the row's off-diagonal similarities. -/
theorem col0 : k0_pay8 (F := Ideal) i x0 x1 (ix2 p 0) = Cert.Spec.rowDenom (gpos i p) (Lrow x0 p) (Rtab x1) := by
  unfold k0_pay8 Cert.Spec.rowDenom
  refine (lane_sum _ _ _ _ _ p).trans ?_
  refine Finset.sum_congr rfl fun c _ => ?_
  show Scalar.select (k0_pay3 i (ix2 p c)) (Ideal.exp (k0_pay7 (F := Ideal) x0 x1 (ix2 p c))) (Ideal.ofBits .f32 0x00000000#32) = _
  rw [sim_apply, select_ite _ _ (offdiag_iff i p c), Ideal.ofBits_zero_f32]

/-- Column 1 at row `p`: the number of the row's positives. -/
theorem col1 : k0_pay9 (F := Ideal) i x2 x3 (ix2 p 0)
    = (((Cert.Spec.rowNpos (gpos i p) (aword x2 p) (bwords x3) : ℕ) : ℝ) : EReal) := by
  unfold k0_pay9 Cert.Spec.rowNpos
  refine (lane_sum _ _ _ _ _ p).trans ?_
  refine Eq.trans (Finset.sum_congr rfl fun c _ => ?_) (sum_ones Finset.univ _)
  exact bit_to_real _ _ (pos_iff i x2 x3 p c)

/-- Column 2 at row `p`: the number of the row's negatives. -/
theorem col2 : k0_pay10 (F := Ideal) i x2 x3 (ix2 p 0)
    = (((Cert.Spec.rowNneg (gpos i p) (aword x2 p) (bwords x3) : ℕ) : ℝ) : EReal) := by
  unfold k0_pay10 Cert.Spec.rowNneg
  refine (lane_sum _ _ _ _ _ p).trans ?_
  refine Eq.trans (Finset.sum_congr rfl fun c _ => ?_) (sum_ones Finset.univ _)
  exact bit_to_real _ _ (neg_iff i x2 x3 p c)

/-- Column 3 at row `p`: the sum of the row's positive similarities. -/
theorem col3 : k0_pay1 (F := Ideal) (k0_pay11 i x2 x3 x0 x1) (ix2 p 0)
    = Cert.Spec.rowPosSum (gpos i p) (Lrow x0 p) (Rtab x1) (aword x2 p) (bwords x3) := by
  unfold k0_pay1 Cert.Spec.rowPosSum
  refine (lane_sum _ _ _ _ _ p).trans ?_
  refine Finset.sum_congr rfl fun c _ => ?_
  unfold k0_pay11
  show Scalar.select (k0_pay5 i x2 x3 (ix2 p c)) (k0_pay7 (F := Ideal) x0 x1 (ix2 p c)) (Ideal.ofBits .f32 0x00000000#32) = _
  rw [sim_apply, select_ite _ _ (pos_iff i x2 x3 p c), Ideal.ofBits_zero_f32]

/-- Column 4 at row `p`: the sum over the row's negatives of the similarity plus the margin, clipped below at zero. -/
theorem col4 : k0_pay2 (F := Ideal) (k0_pay6 i x2 x3) (k0_pay7 x0 x1) (ix2 p 0)
    = Cert.Spec.rowMarginSum (gpos i p) (Lrow x0 p) (Rtab x1) (aword x2 p) (bwords x3) := by
  unfold k0_pay2 Cert.Spec.rowMarginSum Cert.Spec.marginC
  refine (lane_sum _ _ _ _ _ p).trans ?_
  refine Finset.sum_congr rfl fun c _ => ?_
  show Scalar.select (k0_pay6 i x2 x3 (ix2 p c))
      (max (k0_pay7 (F := Ideal) x0 x1 (ix2 p c) + Ideal.ofBits .f32 0x3E4CCCCD#32) (Ideal.ofBits .f32 0x00000000#32))
      (Ideal.ofBits .f32 0x00000000#32) = _
  rw [sim_apply, select_ite _ _ (neg_iff i x2 x3 p c), Ideal.ofBits_zero_f32]

end Cert.KernelIdeal.Block

end
-- ==== Proof.KFinal.lean ====
/-
  From the blocks to the array.

  At the grid point of coordinate `t` the body leaves, in the 128 × 5 output block, the five statistics of rows
  `128 t … 128 t + 127`: entry (p, j) is statistic `j` of the row at position `128 t + p`, computed from row `p` of the
  block of the table, the whole transposed table, word `p` of the block of words and all the words. The four input
  blocks are the four arrays read through the point's rectangles — block `t` of the rows, everything of the two
  constant windows — so the block written back at point `t` is block `t` of ONE function of the four arrays: at
  (r, j), statistic `j` of row `r` of the first array against the second, with the words of the third and fourth. The
  56 blocks fill the 7168 × 5 array, so the array ends holding that function.
-/
import proofs.«164784_j15556371546850_1_alg».proof.Proof.FrameKI
import proofs.«164784_j15556371546850_1_alg».proof.Proof.KBlock
import proofs.«164784_j15556371546850_1_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Hand Cert.KernelIdeal.Block
open Idealize.ShloMosaic Idealize.ShloMosaic.TcCoe Idealize.ShloMosaic.ValueIdx Idealize.SL.Sem
open Idealize.ShloMosaic.Pipeline (Dat)

/-! ## The block a point stores -/

section Block

variable (i : grid0.Coords) (x0 : Vec Ideal S128x512 .bf16) (x1 : Vec Ideal S512x7168 .bf16) (x2 : Vec Ideal S128x1 .i32) (x3 : Vec Ideal S1x7168 .i32)

/-- Row `p`, column `j` of the block a grid point stores: the row's statistic number `j`. -/
def blockStat (p : Fin 128) : ℕ → EReal
  | 0 => Cert.Spec.rowDenom (gpos i p) (Lrow x0 p) (Rtab x1)
  | 1 => (((Cert.Spec.rowNpos (gpos i p) (aword x2 p) (bwords x3) : ℕ) : ℝ) : EReal)
  | 2 => (((Cert.Spec.rowNneg (gpos i p) (aword x2 p) (bwords x3) : ℕ) : ℝ) : EReal)
  | 3 => Cert.Spec.rowPosSum (gpos i p) (Lrow x0 p) (Rtab x1) (aword x2 p) (bwords x3)
  | _ => Cert.Spec.rowMarginSum (gpos i p) (Lrow x0 p) (Rtab x1) (aword x2 p) (bwords x3)

/-- The block as one function of its index. -/
def Gblk : Vec Ideal S128x5 .f32 := fun y => blockStat i x0 x1 x2 x3 ⟨(y 0).val, (y 0).isLt⟩ (y 1).val

theorem Gblk_emb0 (q : Fin 128) : Gblk i x0 x1 x2 x3 (r4_0.emb (ix2 q 0)) = blockStat i x0 x1 x2 x3 q 0 := by
  unfold Gblk; congr 1; exact Fin.ext (by show 0 + 1 * q.val = q.val; omega)
theorem Gblk_emb1 (q : Fin 128) : Gblk i x0 x1 x2 x3 (r4_1.emb (ix2 q 0)) = blockStat i x0 x1 x2 x3 q 1 := by
  unfold Gblk; congr 1; exact Fin.ext (by show 0 + 1 * q.val = q.val; omega)
theorem Gblk_emb2 (q : Fin 128) : Gblk i x0 x1 x2 x3 (r4_2.emb (ix2 q 0)) = blockStat i x0 x1 x2 x3 q 2 := by
  unfold Gblk; congr 1; exact Fin.ext (by show 0 + 1 * q.val = q.val; omega)
theorem Gblk_emb3 (q : Fin 128) : Gblk i x0 x1 x2 x3 (r4_3.emb (ix2 q 0)) = blockStat i x0 x1 x2 x3 q 3 := by
  unfold Gblk; congr 1; exact Fin.ext (by show 0 + 1 * q.val = q.val; omega)
theorem Gblk_emb4 (q : Fin 128) : Gblk i x0 x1 x2 x3 (r4_4.emb (ix2 q 0)) = blockStat i x0 x1 x2 x3 q 4 := by
  unfold Gblk; congr 1; exact Fin.ext (by show 0 + 1 * q.val = q.val; omega)

/-- An index of a 128 × 1 column is its row and the one column. -/
theorem col_idx (x : S128x1.Idx) : x = ix2 (x 0) 0 := by
  funext a; match a with | ⟨0, _⟩ => rfl | ⟨1, h⟩ => exact Fin.ext (Nat.lt_one_iff.mp (x ⟨1, h⟩).isLt)

/-- Each stored column is its column of the block function. -/
theorem piece0 (x : S128x1.Idx) : k0_pay8 (F := Ideal) i x0 x1 x = Gblk i x0 x1 x2 x3 (r4_0.emb x) := by
  rw [col_idx x]; exact (col0 i x0 x1 (x 0)).trans (Gblk_emb0 i x0 x1 x2 x3 (x 0)).symm
theorem piece1 (x : S128x1.Idx) : k0_pay9 (F := Ideal) i x2 x3 x = Gblk i x0 x1 x2 x3 (r4_1.emb x) := by
  rw [col_idx x]; exact (col1 i x2 x3 (x 0)).trans (Gblk_emb1 i x0 x1 x2 x3 (x 0)).symm
theorem piece2 (x : S128x1.Idx) : k0_pay10 (F := Ideal) i x2 x3 x = Gblk i x0 x1 x2 x3 (r4_2.emb x) := by
  rw [col_idx x]; exact (col2 i x2 x3 (x 0)).trans (Gblk_emb2 i x0 x1 x2 x3 (x 0)).symm
theorem piece3 (x : S128x1.Idx) : k0_pay1 (F := Ideal) (k0_pay11 i x2 x3 x0 x1) x = Gblk i x0 x1 x2 x3 (r4_3.emb x) := by
  rw [col_idx x]; exact (col3 i x0 x1 x2 x3 (x 0)).trans (Gblk_emb3 i x0 x1 x2 x3 (x 0)).symm
theorem piece4 (x : S128x1.Idx) : k0_pay2 (F := Ideal) (k0_pay6 i x2 x3) (k0_pay7 x0 x1) x = Gblk i x0 x1 x2 x3 (r4_4.emb x) := by
  rw [col_idx x]; exact (col4 i x0 x1 x2 x3 (x 0)).trans (Gblk_emb4 i x0 x1 x2 x3 (x 0)).symm

/-- The five stored columns tile the block: together they leave the block function. -/
theorem canon5 : View.canon (Val := Elt Ideal) (e := .f32)
      [⟨r4_4, k0_pay2 (F := Ideal) (k0_pay6 i x2 x3) (k0_pay7 x0 x1)⟩, ⟨r4_3, k0_pay1 (F := Ideal) (k0_pay11 i x2 x3 x0 x1)⟩,
       ⟨r4_2, k0_pay10 (F := Ideal) i x2 x3⟩, ⟨r4_1, k0_pay9 (F := Ideal) i x2 x3⟩, ⟨r4_0, k0_pay8 (F := Ideal) i x0 x1⟩]
    = Gblk i x0 x1 x2 x3 := by
  funext y
  refine View.canon_apply_of_pieces (Gblk i x0 x1 x2 x3) _ ?_ y (cover0_4 (F := Ideal) _ _ _ _ _ y)
  intro pc hpc x
  simp only [List.mem_cons, List.mem_nil_iff, or_false] at hpc
  rcases hpc with rfl | rfl | rfl | rfl | rfl
  · exact piece4 i x0 x1 x2 x3 x
  · exact piece3 i x0 x1 x2 x3 x
  · exact piece2 i x0 x1 x2 x3 x
  · exact piece1 i x0 x1 x2 x3 x
  · exact piece0 i x0 x1 x2 x3 x

theorem hz : (![0, 0] : Fin 2 → Nat) = fun _ => 0 := funext fun a => by fin_cases a <;> rfl

/-- What the body leaves in the output block is the block function of the four blocks it read. -/
theorem out_apply : out0_4 (F := Ideal) i x0 x1 x2 x3 = Gblk i x0 x1 x2 x3 := by
  unfold out0_4
  simp only [View.ld_unit_zero (S := S128x512) hz, View.ld_unit_zero (S := S512x7168) hz,
    View.ld_unit_zero (S := S128x1) hz, View.ld_unit_zero (S := S1x7168) hz]
  exact canon5 i x0 x1 x2 x3

end Block

/-! ## The array -/

section Array

variable (A0 : Vec Ideal S7168x512 .bf16) (A1 : Vec Ideal S512x7168 .bf16) (A2 : Vec Ideal S7168x1 .i32) (A3 : Vec Ideal S1x7168 .i32)

/-- Statistic `j` of row `r` of the first array against the second, with the words of the third and the fourth. -/
def arrStat (r : Fin 7168) : ℕ → EReal
  | 0 => Cert.Spec.rowDenom r.val (fun k => A0 (ix2 r k)) (fun k c => A1 (ix2 k c))
  | 1 => (((Cert.Spec.rowNpos r.val (A2 (ix2 r 0)) (fun c => A3 (ix2 0 c)) : ℕ) : ℝ) : EReal)
  | 2 => (((Cert.Spec.rowNneg r.val (A2 (ix2 r 0)) (fun c => A3 (ix2 0 c)) : ℕ) : ℝ) : EReal)
  | 3 => Cert.Spec.rowPosSum r.val (fun k => A0 (ix2 r k)) (fun k c => A1 (ix2 k c)) (A2 (ix2 r 0)) (fun c => A3 (ix2 0 c))
  | _ => Cert.Spec.rowMarginSum r.val (fun k => A0 (ix2 r k)) (fun k c => A1 (ix2 k c)) (A2 (ix2 r 0)) (fun c => A3 (ix2 0 c))

/-- The 7168 × 5 array of statistics as one function of the four arrays. -/
def Gst : Vec Ideal S7168x5 .f32 := fun y => arrStat A0 A1 A2 A3 ⟨(y 0).val, (y 0).isLt⟩ (y 1).val

end Array

variable (m : (ℓ : Loc nD τ sig) → Buf (Elt Ideal) ℓ)

/-- The printed index maps, decided over the grid: windows 0, 2 and 4 take block `t` of the rows, windows 1 and 3 the one
    block there is; the point's coordinate is its number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- The position of row `p` of block `t`. -/
def rowOf (t : Fin cfg0.N) (p : Fin 128) : Fin 7168 := ⟨t.val * 128 + p.val, by
  have ht : t.val < 56 := lt_of_lt_of_eq t.isLt N_0
  have hp := p.isLt
  omega⟩

/-- Block `t` of the table's rows: row `p` of the block is row `128 t + p` of the array. -/
theorem blk0 (c : Dev nD) (t : Fin cfg0.N) (p : Fin 128) (k : Fin 512) :
    (iblk m c 0 t : Vec Ideal S128x512 .bf16) (ix2 p k) = (V m c main_v31 : Vec Ideal S7168x512 .bf16) (ix2 (rowOf t p) k) := by
  obtain ⟨e0, e1, -⟩ := idx_facts t
  show V m c main_v31 (((cfg0.win 0).blk t).view.emb (ix2 p k)) = V m c main_v31 (ix2 (rowOf t p) k)
  refine congrArg (V m c main_v31) (funext fun a => Fin.ext ?_)
  match a with
  | ⟨0, _⟩ => show win0_0.index t (0 : Fin 2) * 128 + 1 * p.val = t.val * 128 + p.val; omega
  | ⟨1, _⟩ => show win0_0.index t (1 : Fin 2) * 512 + 1 * k.val = k.val; omega

/-- The whole transposed table. -/
theorem blk1 (c : Dev nD) (t : Fin cfg0.N) (k : Fin 512) (q : Fin 7168) :
    (iblk m c 1 t : Vec Ideal S512x7168 .bf16) (ix2 k q) = (V m c main_v32 : Vec Ideal S512x7168 .bf16) (ix2 k q) := by
  obtain ⟨-, -, e0, e1, -⟩ := idx_facts t
  show V m c main_v32 (((cfg0.win 1).blk t).view.emb (ix2 k q)) = V m c main_v32 (ix2 k q)
  refine congrArg (V m c main_v32) (funext fun a => Fin.ext ?_)
  match a with
  | ⟨0, _⟩ => show win0_1.index t (0 : Fin 2) * 512 + 1 * k.val = k.val; omega
  | ⟨1, _⟩ => show win0_1.index t (1 : Fin 2) * 7168 + 1 * q.val = q.val; omega

/-- Block `t` of the column of words. -/
theorem blk2 (c : Dev nD) (t : Fin cfg0.N) (p : Fin 128) :
    (iblk m c 2 t : Vec Ideal S128x1 .i32) (ix2 p 0) = (V m c main_v33 : Vec Ideal S7168x1 .i32) (ix2 (rowOf t p) 0) := by
  obtain ⟨-, -, -, -, e0, e1, -⟩ := idx_facts t
  show V m c main_v33 (((cfg0.win 2).blk t).view.emb (ix2 p 0)) = V m c main_v33 (ix2 (rowOf t p) 0)
  refine congrArg (V m c main_v33) (funext fun a => Fin.ext ?_)
  match a with
  | ⟨0, _⟩ => show win0_2.index t (0 : Fin 2) * 128 + 1 * p.val = t.val * 128 + p.val; omega
  | ⟨1, _⟩ => show win0_2.index t (1 : Fin 2) * 1 + 1 * 0 = 0; omega

/-- The whole row of words. -/
theorem blk3 (c : Dev nD) (t : Fin cfg0.N) (q : Fin 7168) :
    (iblk m c 3 t : Vec Ideal S1x7168 .i32) (ix2 0 q) = (V m c main_v34 : Vec Ideal S1x7168 .i32) (ix2 0 q) := by
  obtain ⟨-, -, -, -, -, -, e0, e1, -⟩ := idx_facts t
  show V m c main_v34 (((cfg0.win 3).blk t).view.emb (ix2 0 q)) = V m c main_v34 (ix2 0 q)
  refine congrArg (V m c main_v34) (funext fun a => Fin.ext ?_)
  match a with
  | ⟨0, _⟩ => show win0_3.index t (0 : Fin 2) * 1 + 1 * 0 = 0; omega
  | ⟨1, _⟩ => show win0_3.index t (1 : Fin 2) * 7168 + 1 * q.val = q.val; omega

/-- Statistic `j` of row `p` of the block stored at point `t` is statistic `j` of row `128 t + p` of the arrays. -/
theorem blockStat_eq (c : Dev nD) (t : Fin cfg0.N) (p : Fin 128) (j : ℕ) :
    blockStat (grid0.coords t) (iblk m c 0 t) (iblk m c 1 t) (iblk m c 2 t) (iblk m c 3 t) p j
      = arrStat (V m c main_v31) (V m c main_v32) (V m c main_v33) (V m c main_v34) (rowOf t p) j := by
  have hg : gpos (grid0.coords t) p = (rowOf t p).val := by
    obtain ⟨-, -, -, -, -, -, -, -, -, -, e⟩ := idx_facts t
    show ((grid0.coords t) 0).val * 128 + p.val = t.val * 128 + p.val
    rw [e]
  have hL : Lrow (iblk m c 0 t) p = fun k => (V m c main_v31 : Vec Ideal S7168x512 .bf16) (ix2 (rowOf t p) k) :=
    funext fun k => blk0 m c t p k
  have hR : Rtab (iblk m c 1 t) = fun k q => (V m c main_v32 : Vec Ideal S512x7168 .bf16) (ix2 k q) :=
    funext fun k => funext fun q => blk1 m c t k q
  have ha : aword (iblk m c 2 t) p = (V m c main_v33 : Vec Ideal S7168x1 .i32) (ix2 (rowOf t p) 0) := blk2 m c t p
  have hb : bwords (iblk m c 3 t) = fun q => (V m c main_v34 : Vec Ideal S1x7168 .i32) (ix2 0 q) :=
    funext fun q => blk3 m c t q
  match j with
  | 0 => show Cert.Spec.rowDenom _ _ _ = Cert.Spec.rowDenom _ _ _; rw [hg, hL, hR]
  | 1 => show (((Cert.Spec.rowNpos _ _ _ : ℕ) : ℝ) : EReal) = (((Cert.Spec.rowNpos _ _ _ : ℕ) : ℝ) : EReal); rw [hg, ha, hb]
  | 2 => show (((Cert.Spec.rowNneg _ _ _ : ℕ) : ℝ) : EReal) = (((Cert.Spec.rowNneg _ _ _ : ℕ) : ℝ) : EReal); rw [hg, ha, hb]
  | 3 => show Cert.Spec.rowPosSum _ _ _ _ _ = Cert.Spec.rowPosSum _ _ _ _ _; rw [hg, hL, hR, ha, hb]
  | (n + 4) => show Cert.Spec.rowMarginSum _ _ _ _ _ = Cert.Spec.rowMarginSum _ _ _ _ _; rw [hg, hL, hR, ha, hb]

/-- WHAT POINT `t` WRITES BACK is block `t` of the statistics of the four arrays as the region finds them. -/
theorem flushed_eq (c : Dev nD) (t : Fin cfg0.N) :
    (dats m 0 c).flushed 4 t
      = ((cfg0.win 4).blk t).view.read (Elt Ideal) (Gst (V m c main_v31) (V m c main_v32) (V m c main_v33) (V m c main_v34)) := by
  show (cfg0.win 4).cut (grid0.coords t) ((dats m 0 c).after 4 t) = _
  rw [after0_4 m c t, out_apply (grid0.coords t) (iblk m c 0 t) (iblk m c 1 t) (iblk m c 2 t) (iblk m c 3 t)]
  obtain ⟨-, -, -, -, -, -, -, -, e0, e1, -⟩ := idx_facts t
  funext y
  show blockStat (grid0.coords t) (iblk m c 0 t) (iblk m c 1 t) (iblk m c 2 t) (iblk m c 3 t) ⟨(y 0).val, (y 0).isLt⟩ (y 1).val
    = Gst (V m c main_v31) (V m c main_v32) (V m c main_v33) (V m c main_v34) (((cfg0.win 4).blk t).view.emb y)
  refine (blockStat_eq m c t ⟨(y 0).val, (y 0).isLt⟩ (y 1).val).trans ?_
  have hrow : rowOf t ⟨(y 0).val, (y 0).isLt⟩
      = ⟨((((cfg0.win 4).blk t).view.emb y) 0).val, ((((cfg0.win 4).blk t).view.emb y) 0).isLt⟩ := Fin.ext (by
    show t.val * 128 + (y 0).val = win0_4.index t (0 : Fin 2) * 128 + 1 * (y 0).val
    omega)
  have hcol : (y 1).val = ((((cfg0.win 4).blk t).view.emb y) 1).val := by
    show (y 1).val = win0_4.index t (1 : Fin 2) * 5 + 1 * (y 1).val
    omega
  show arrStat (V m c main_v31) (V m c main_v32) (V m c main_v33) (V m c main_v34) (rowOf t ⟨(y 0).val, (y 0).isLt⟩) (y 1).val
    = arrStat (V m c main_v31) (V m c main_v32) (V m c main_v33) (V m c main_v34)
        ⟨((((cfg0.win 4).blk t).view.emb y) 0).val, ((((cfg0.win 4).blk t).view.emb y) 0).isLt⟩ ((((cfg0.win 4).blk t).view.emb y) 1).val
  rw [hrow, ← hcol]

/-- An index of the array is in point `t`'s block iff each coordinate is in the block's range on its axis. -/
theorem mem_blk4 (t : Fin cfg0.N) (i : S7168x5.Idx) :
    i ∈ ((cfg0.win 4).blk t).view.set ↔ ∀ a : Fin 2, win0_4.index t a * S128x5.size a ≤ (i a).val ∧ (i a).val < win0_4.index t a * S128x5.size a + S128x5.size a := by
  show i ∈ ((View.whole main_v35).slice (win0_4.rect t)).set ↔ _
  rw [View.set_slice_whole, Rect.mem_set_unit]
  exact Iff.rfl

/-- Every index of the array is in some point's block: row `r` in the block of point `r / 128`. -/
theorem cover4 (i : S7168x5.Idx) : ∃ t : Fin cfg0.N, (cfg0.win 4).flush t = true ∧ i ∈ ((cfg0.win 4).blk t).view.set := by
  have hi0 : (i 0).val < 7168 := (i 0).isLt
  have hi1 : (i 1).val < 5 := (i 1).isLt
  refine ⟨⟨(i 0).val / 128, lt_of_lt_of_eq (by omega : (i 0).val / 128 < 56) N_0.symm⟩, flush0_4 _, ?_⟩
  rw [mem_blk4]
  obtain ⟨-, -, -, -, -, -, -, -, e0, e1, -⟩ := idx_facts ⟨(i 0).val / 128, lt_of_lt_of_eq (by omega : (i 0).val / 128 < 56) N_0.symm⟩
  intro a
  match a with
  | ⟨0, _⟩ => show win0_4.index _ (0 : Fin 2) * 128 ≤ (i 0).val ∧ (i 0).val < win0_4.index _ (0 : Fin 2) * 128 + 128; rw [e0]; show (i 0).val / 128 * 128 ≤ (i 0).val ∧ (i 0).val < (i 0).val / 128 * 128 + 128; omega
  | ⟨1, _⟩ => show win0_4.index _ (1 : Fin 2) * 5 ≤ (i 1).val ∧ (i 1).val < win0_4.index _ (1 : Fin 2) * 5 + 5; rw [e1]; omega

/-- THE ARRAY after the run: the statistics of the four arrays as the region finds them. -/
theorem final4 (c : Dev nD) :
    (dats m 0 c).arrAt 4 cfg0.N = Gst (V m c main_v31) (V m c main_v32) (V m c main_v33) (V m c main_v34) :=
  (dats m 0 c).arrAt_eq_of_cover 4 _ (fun t _ => flushed_eq m c t) cover4

end Cert.KernelIdeal.Final

end
-- ==== Proof.LibNaryApp.lean ====
/-
  General facts about host operations over a literal family of three or four operand references (a concatenation of
  three or four pieces). Such an operation leaves at its result reference its function applied to the family of the
  operands' contents, each read at its own reference. Here that value is written as ONE application, naryApp3 f u0 u1 u2
  (naryApp4 f u0 u1 u2 u3), of the function to the three (four) contents as separate arguments; by definition it is the
  function at the family (u0, u1, u2) (respectively (u0, u1, u2, u3)).
-/
import Idealize.ShloMosaic.Lib.StableHlo.Run

noncomputable section

namespace Idealize.ShloMosaic.StableHlo

open Idealize.SL.Sem

variable {τ : Topo} {sig : RefSig} {Val : EltTy → Type}
variable {x a b c y : Ref sig .tc}

/-- A function of a family over the three references `![x, a, b]`, applied to one value per reference. -/
def naryApp3 (f : ((k : Fin 3) → ((![x, a, b] : Fin 3 → Ref sig .tc) k).ty.Contents Val) → y.ty.Contents Val)
    (u0 : x.ty.Contents Val) (u1 : a.ty.Contents Val) (u2 : b.ty.Contents Val) : y.ty.Contents Val :=
  f (Fin.cons u0 (Fin.cons u1 (Fin.cons u2 (fun i => i.elim0))))

/-- A function of a family over the four references `![x, a, b, c]`, applied to one value per reference. -/
def naryApp4 (f : ((k : Fin 4) → ((![x, a, b, c] : Fin 4 → Ref sig .tc) k).ty.Contents Val) → y.ty.Contents Val)
    (u0 : x.ty.Contents Val) (u1 : a.ty.Contents Val) (u2 : b.ty.Contents Val) (u3 : c.ty.Contents Val) : y.ty.Contents Val :=
  f (Fin.cons u0 (Fin.cons u1 (Fin.cons u2 (Fin.cons u3 (fun i => i.elim0)))))

/-- An operation over three operand references leaves at its result reference its function applied to the three
    operands' contents. -/
theorem nary3_result_app
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = naryApp3 f (F (Proc.devRef .tc x)) (F (Proc.devRef .tc a)) (F (Proc.devRef .tc b)) := by
  unfold naryApp3
  rw [nary_result]; congr 1; funext k; fin_cases k <;> rfl

/-- The same over four operand references. -/
theorem nary4_result_app
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = naryApp4 f (F (Proc.devRef .tc x)) (F (Proc.devRef .tc a)) (F (Proc.devRef .tc b)) (F (Proc.devRef .tc c)) := by
  unfold naryApp4
  exact nary4_result f hxs hy F

/-- The contents of one reference after a literal list of operations: each operation's result at its own result
    reference is its function's value, and at any other reference what was there; a three- or four-piece concatenation's
    value is the folded application above. -/
macro "after_results_pieces" : tactic =>
  `(tactic| (simp (disch := decide) only [after_cons, after_nil,
      nullary_result', unary_result', binary_result', ternary_result', quaternary_result', reshape_result',
      nary4_result_app, nary3_result_app, unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KPrefix.lean ====
/-
  What the region finds in its four input arrays.

  Before the region the program normalises the three float arguments row by row (each entry shifted by a small constant,
  each row divided by its Euclidean length clamped below), joins them into one table of 7168 rows of 512 entries, rounds
  the table to the narrow float format and transposes it; and it builds the 7168 id words from the 1024 given ones. Here
  these four arrays are written as composed terms of the four arguments, for any float family, the terms are shown to be
  what the operations before the region leave behind, and each array is read at an index over the extended reals.
-/
import proofs.«164784_j15556371546850_1_alg».proof.Proof.Gen.KernelIdeal.Launch
import proofs.«164784_j15556371546850_1_alg».proof.Proof.LibNaryApp
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Prefix

open Cert.KernelIdeal Cert.KernelIdeal.Gen Idealize.ShloMosaic Idealize.ShloMosaic.StableHlo Idealize.SL.Sem

variable {F : FTy → Type} [FloatOps F]

/-! ## The four arrays as terms of the arguments

Each of the three float arguments is shifted by a small constant, and every row (the last axis) of the shifted array is
divided by its Euclidean length, the length clamped below by a tiny constant. The two rank-3 arguments are then laid
out as 3072 rows, and the three pieces are joined along the row axis into one table of 7168 rows. The id words are the
1024 given words, then each of them three times over, then each plus 100000 three times over. -/

/-- A [1024, 512] array plus the small constant, entrywise. -/
def shifted2 (a : (⟨S1024x512, .f32⟩ : BufTy).Contents (Elt F)) : (⟨S1024x512, .f32⟩ : BufTy).Contents (Elt F) :=
  addf a (broadcastInDim S1024x512 ![] bcast_S_S1024x512 (constant (F := F) S_ .f32 0x322BCC77#32))

/-- The Euclidean length of each row of a [1024, 512] array, as a [1024, 1] column. -/
def rowLen2 (v : (⟨S1024x512, .f32⟩ : BufTy).Contents (Elt F)) : (⟨S1024x1, .f32⟩ : BufTy).Contents (Elt F) :=
  Host.sqrt (broadcastInDim S1024x1 ![0] bcast_S1024_S1024x1_0
    (Host.reduceAdd (mulf v v) (constant (F := F) S_ .f32 0x00000000#32) reducesTo_S1024x512_S1024_d1 h_S_))

/-- A [1024, 512] array shifted, each row over its length (the length at least the tiny constant). -/
def unit2 (a : (⟨S1024x512, .f32⟩ : BufTy).Contents (Elt F)) : (⟨S1024x512, .f32⟩ : BufTy).Contents (Elt F) :=
  Host.divf (shifted2 a)
    (broadcastInDim S1024x512 ![0, 1] bcast_S1024x1_S1024x512_0_1
      (maximumf (rowLen2 (shifted2 a))
        (broadcastInDim S1024x1 ![] bcast_S_S1024x1 (constant (F := F) S_ .f32 0x2B8CBCCC#32))))

/-- A [1024, 3, 512] array plus the small constant, entrywise. -/
def shifted3 (a : (⟨S1024x3x512, .f32⟩ : BufTy).Contents (Elt F)) : (⟨S1024x3x512, .f32⟩ : BufTy).Contents (Elt F) :=
  addf a (broadcastInDim S1024x3x512 ![] bcast_S_S1024x3x512 (constant (F := F) S_ .f32 0x322BCC77#32))

/-- The Euclidean length of each row (last axis) of a [1024, 3, 512] array, as a [1024, 3, 1] array. -/
def rowLen3 (v : (⟨S1024x3x512, .f32⟩ : BufTy).Contents (Elt F)) : (⟨S1024x3x1, .f32⟩ : BufTy).Contents (Elt F) :=
  Host.sqrt (broadcastInDim S1024x3x1 ![0, 1] bcast_S1024x3_S1024x3x1_0_1
    (Host.reduceAdd (mulf v v) (constant (F := F) S_ .f32 0x00000000#32) reducesTo_S1024x3x512_S1024x3_d2 h_S_))

/-- A [1024, 3, 512] array shifted, each row over its length (the length at least the tiny constant), laid out as
    3072 rows. -/
def unit3 (a : (⟨S1024x3x512, .f32⟩ : BufTy).Contents (Elt F)) : (⟨S3072x512, .f32⟩ : BufTy).Contents (Elt F) :=
  shapeCast S3072x512
    (Host.divf (shifted3 a)
      (broadcastInDim S1024x3x512 ![0, 1, 2] bcast_S1024x3x1_S1024x3x512_0_1_2
        (maximumf (rowLen3 (shifted3 a))
          (broadcastInDim S1024x3x1 ![] bcast_S_S1024x3x1 (constant (F := F) S_ .f32 0x2B8CBCCC#32)))))
    shapeCasts_S1024x3x512_S3072x512

/-- The normalised embedding table [7168, 512] as the composed term of the three float arguments. -/
def embT (a0 : (⟨S1024x512, .f32⟩ : BufTy).Contents (Elt F)) (a1 a2 : (⟨S1024x3x512, .f32⟩ : BufTy).Contents (Elt F)) :
    (⟨S7168x512, .f32⟩ : BufTy).Contents (Elt F) :=
  concatenate S7168x512 0 [⟨S1024x512, unit2 a0⟩, ⟨S3072x512, unit3 a1⟩, ⟨S3072x512, unit3 a2⟩]
    concatenates_S1024x512_S3072x512_S3072x512_S7168x512_d0

/-- 1024 words, each three times over, as 3072 words. -/
def thrice (v : (⟨S1024, .i32⟩ : BufTy).Contents (Elt F)) : (⟨S3072, .i32⟩ : BufTy).Contents (Elt F) :=
  shapeCast S3072 (broadcastInDim S1024x3 ![0] bcast_S1024_S1024x3_0 v) shapeCasts_S1024x3_S3072

/-- The 7168 id words as the composed term of the integer argument: the given words, each three times over, and each
    plus 100000 three times over. -/
def idsT (a3 : (⟨S1024, .i32⟩ : BufTy).Contents (Elt F)) : (⟨S7168, .i32⟩ : BufTy).Contents (Elt F) :=
  concatenate S7168 0
    [⟨S1024, a3⟩, ⟨S3072, thrice a3⟩,
     ⟨S3072, thrice (addi a3 (broadcastInDim S1024 ![] bcast_S_S1024 (constantI S_ 32 100000#32)))⟩]
    concatenates_S1024_S3072_S3072_S7168_d0

/-! ## What the operations before the region leave in the region's four input arrays -/

/-- The host operations before the region, in order. -/
abbrev pfxOps : List (HloOp τ sig (Elt F)) :=
  List.flatten [hostOps0, hostOps0_1, hostOps0_2, hostOps0_3, hostOps0_4, hostOps0_5, hostOps0_6]

/-- The left operand of the product: the table rounded to the narrow format. -/
theorem pre_v31 (W : Valuation τ sig (Elt F)) :
    StableHlo.after pfxOps W (Proc.devRef .tc main_v31)
      = truncf .bf16 (embT (W (Proc.devRef .tc main_arg0)) (W (Proc.devRef .tc main_arg1)) (W (Proc.devRef .tc main_arg2)))
          bitsLt_bf16_f32 := by
  simp only [pfxOps, hostOps0, hostOps0_1, hostOps0_2, hostOps0_3, hostOps0_4, hostOps0_5, hostOps0_6,
    List.flatten_cons, List.flatten_nil, List.append_nil, List.cons_append, List.nil_append]
  after_results_pieces
  rfl

/-- The right operand of the product: the rounded table transposed. -/
theorem pre_v32 (W : Valuation τ sig (Elt F)) :
    StableHlo.after pfxOps W (Proc.devRef .tc main_v32)
      = transpose S512x7168 [1, 0]
          (truncf .bf16 (embT (W (Proc.devRef .tc main_arg0)) (W (Proc.devRef .tc main_arg1)) (W (Proc.devRef .tc main_arg2)))
            bitsLt_bf16_f32)
          transposes_S7168x512_S512x7168_1_0 := by
  simp only [pfxOps, hostOps0, hostOps0_1, hostOps0_2, hostOps0_3, hostOps0_4, hostOps0_5, hostOps0_6,
    List.flatten_cons, List.flatten_nil, List.append_nil, List.cons_append, List.nil_append]
  after_results_pieces
  rfl

/-- The id words as a column. -/
theorem pre_v33 (W : Valuation τ sig (Elt F)) :
    StableHlo.after pfxOps W (Proc.devRef .tc main_v33)
      = shapeCast S7168x1 (idsT (W (Proc.devRef .tc main_arg3))) shapeCasts_S7168_S7168x1 := by
  simp only [pfxOps, hostOps0, hostOps0_1, hostOps0_2, hostOps0_3, hostOps0_4, hostOps0_5, hostOps0_6,
    List.flatten_cons, List.flatten_nil, List.append_nil, List.cons_append, List.nil_append]
  after_results_pieces
  rfl

/-- The id words as a row. -/
theorem pre_v34 (W : Valuation τ sig (Elt F)) :
    StableHlo.after pfxOps W (Proc.devRef .tc main_v34)
      = shapeCast S1x7168 (idsT (W (Proc.devRef .tc main_arg3))) shapeCasts_S7168_S1x7168 := by
  simp only [pfxOps, hostOps0, hostOps0_1, hostOps0_2, hostOps0_3, hostOps0_4, hostOps0_5, hostOps0_6,
    List.flatten_cons, List.flatten_nil, List.append_nil, List.cons_append, List.nil_append]
  after_results_pieces
  rfl

/-! ## The four arrays read at an index, over the extended reals -/

/-- A change of float format is the identity on extended reals. -/
theorem trunc_apply (e : FVec Ideal S7168x512 .f32) (j : S7168x512.Idx) :
    (truncf .bf16 e bitsLt_bf16_f32) j = e j := rfl

/-- The transposed table at (k, c) is the table at (c, k). -/
theorem transpose_apply (x : FVec Ideal S7168x512 .bf16) (k : Fin 512) (c : Fin 7168) :
    (transpose S512x7168 [1, 0] x transposes_S7168x512_S512x7168_1_0) (ValueIdx.ix2 k c) = x (ValueIdx.ix2 c k) :=
  Idealize.ShloMosaic.transpose_apply [1, 0] x transposes_S7168x512_S512x7168_1_0 (ValueIdx.ix2 k c) (ValueIdx.ix2 c k)
    (fun b => match b with | ⟨0, _⟩ => rfl | ⟨1, _⟩ => rfl)

/-- The column of words at row r is word r. -/
theorem col_apply (v : IVec S7168 32) (r : Fin 7168) :
    (shapeCast S7168x1 v shapeCasts_S7168_S7168x1) (ValueIdx.ix2 r (0 : Fin 1)) = v (ValueIdx.ix1 r) :=
  shapeCast_apply v shapeCasts_S7168_S7168x1 _ _ (by
    rw [Shape.rowMajor_val_one, Shape.rowMajor_val_two]
    show r.val = r.val * 1 + 0
    omega)

/-- The row of words at column c is word c. -/
theorem row_apply (v : IVec S7168 32) (c : Fin 7168) :
    (shapeCast S1x7168 v shapeCasts_S7168_S1x7168) (ValueIdx.ix2 (0 : Fin 1) c) = v (ValueIdx.ix1 c) :=
  ValueIdx.shapeCast_a_1a_apply v shapeCasts_S7168_S1x7168 0 c

end Cert.KernelIdeal.Prefix

end
-- ==== Proof.KTail.lean ====
/-
  The last part of the kernel program, after the row-block region: from the 7168 × 5 array of per-row statistics
  (column 0 the sum of exponentials, column 1 the number of positives, column 2 the number of negatives, column 3 the sum
  of the positive similarities, column 4 the clipped margin sum) the host forms, row by row,
  log denom − posSum / max(npos, 1) + marginSum / max(nneg, 1), keeps the rows that have a positive and a negative,
  counts them as a 32-bit word, adds the kept terms up, and divides the sum by the count clamped below at one; with no
  counted row the result is zero. Read over the extended reals this is the specification's loss, provided the five columns
  hold the specification's five statistics.
-/
import proofs.«164784_j15556371546850_1_alg».proof.Proof.Gen.KernelIdeal.Launch
import proofs.«164784_j15556371546850_1_alg».proof.Proof.Spec
import proofs.«164784_j15556371546850_1_alg».proof.Proof.LibNaryApp
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.ValueIdxRank1

noncomputable section

namespace Cert.KernelIdeal.Tail

open Cert.KernelIdeal Cert.KernelIdeal.Gen Idealize.ShloMosaic Idealize.ShloMosaic.StableHlo Idealize.ShloMosaic.ValueIdx

/-- The host operations after the region, in program order. -/
abbrev sfxOps : List (HloOp τ sig (Elt Ideal)) := List.flatten [hostOps1, hostOps1_1, hostOps1_2, hostOps1_3]

/-- The statistics array: 7168 rows of five extended reals. -/
abbrev Stats : Type := (⟨S7168x5, .f32⟩ : BufTy).Contents (Elt Ideal)
/-- One extended real per row. -/
abbrev RowVec : Type := FVec Ideal S7168 .f32

/-- Column `j` of the statistics array as a vector over the rows: the 7168 × 1 slice at column offset `j`, read as a
    vector of length 7168. -/
def col (st : Stats) (j : ℕ) (h : S7168x5.Slices ![0, j] S7168x1) : RowVec :=
  fun i => shapeCast S7168 (extractStridedSlice S7168x1 ![0, j] st h) Gen.shapeCasts_S7168x1_S7168 i

/-- The constant one in every row. -/
def ones : RowVec := broadcastInDim S7168 ![] Gen.bcast_S_S7168 (constant (F := Ideal) S_ .f32 0x3F800000#32)
/-- The constant zero in every row. -/
def zeros : RowVec := broadcastInDim S7168 ![] Gen.bcast_S_S7168 (constant (F := Ideal) S_ .f32 0x00000000#32)

/-- Each row's term: log denom − posSum / max(npos, 1) + marginSum / max(nneg, 1). -/
def rowTerm (st : Stats) : RowVec :=
  addf
    (subf (Host.log (F := Ideal) (col st 0 Gen.slices_S7168x5_S7168x1_0_0))
      (Host.divf (F := Ideal) (col st 3 Gen.slices_S7168x5_S7168x1_0_3) (maximumf (col st 1 Gen.slices_S7168x5_S7168x1_0_1) ones)))
    (Host.divf (F := Ideal) (col st 4 Gen.slices_S7168x5_S7168x1_0_4) (maximumf (col st 2 Gen.slices_S7168x5_S7168x1_0_2) ones))

/-- Each row's bit: set when the row has a positive and a negative (both counts above zero). -/
def keepBit (st : Stats) : (⟨S7168, .i1⟩ : BufTy).Contents (Elt Ideal) :=
  andi (cmpf (F := Ideal) .ogt (col st 1 Gen.slices_S7168x5_S7168x1_0_1) zeros)
    (cmpf (F := Ideal) .ogt (col st 2 Gen.slices_S7168x5_S7168x1_0_2) zeros)

/-- The number of kept rows, as a 32-bit word: the bits widened and added up from zero. -/
def keptWord (st : Stats) : (⟨S_, .i32⟩ : BufTy).Contents (Elt Ideal) :=
  Host.reduce IntOp.addi (extui 32 (keepBit st) Gen.natLt_1_32) (constantI S_ 32 0#32) Gen.reducesTo_S7168_S_d0 Gen.h_S_

/-- The sum, from zero, of the kept rows' terms (a row that is not kept contributes zero). -/
def keptSum (st : Stats) : (⟨S_, .f32⟩ : BufTy).Contents (Elt Ideal) :=
  Host.reduceAdd (F := Ideal) (select (keepBit st) (rowTerm st) zeros) (constant (F := Ideal) S_ .f32 0x00000000#32)
    Gen.reducesTo_S7168_S_d0 Gen.h_S_

/-- The tail as ONE pure function of the statistics array: the kept sum over the count clamped below at one when the
    count is positive, else zero. -/
def tailT (st : Stats) : (⟨S_, .f32⟩ : BufTy).Contents (Elt Ideal) :=
  select (cmpi .sgt (keptWord st) (constantI S_ 32 0#32))
    (Host.divf (F := Ideal) (keptSum st) (sitofp (F := Ideal) .f32 (maxsi (keptWord st) (constantI S_ 32 1#32))))
    (constant (F := Ideal) S_ .f32 0x00000000#32)

/-! ## The operations compose to the one function -/

/-- After the host operations that follow the region, the result reference holds the tail function of what the
    statistics reference held: each operation's result is its function of its operands' contents, and the two outlined
    selects read their operands through the identity. -/
theorem tail_eq (W : Valuation τ sig (Elt Ideal)) :
    StableHlo.after sfxOps W (Proc.devRef .tc main_v68) = tailT (W (Proc.devRef .tc main_v35)) := by
  simp only [sfxOps, hostOps1, hostOps1_1, hostOps1_2, hostOps1_3, List.flatten_cons, List.flatten_nil, List.append_nil,
    List.cons_append, List.nil_append]
  after_results_simp
  simp only [TRef.ofBuf, TRef.toBuf, cast_eq]
  rfl

/-! ## The columns, the constants and each row's term, read at a row -/

/-- Column `j` at row `r` is the array's entry `(r, j)`: the 7168 × 1 slice at column offset `j` holds the entries
    `(r, j)`, and a 7168 × 1 array read as a vector of length 7168 holds at `r` its entry `(r, 0)` (both are position
    `r` in row-major order). -/
theorem col_apply (st : Stats) (j : ℕ) (h : S7168x5.Slices ![0, j] S7168x1) (hj : j < 5) (r : Fin 7168) :
    col st j h (ix1 r) = st (ix2 r ⟨j, hj⟩) := by
  unfold col
  refine (shapeCast_apply _ _ (ix1 r) (ix2 r (0 : Fin 1)) ?_).trans ?_
  · rw [Shape.rowMajor_val_two, Shape.rowMajor_val_one]
    show r.val * 1 + 0 = r.val
    omega
  · exact slice2_axis1_apply j st h r (0 : Fin 1) ⟨j, hj⟩ (Nat.add_zero j).symm

theorem col0_apply (st : Stats) (r : Fin 7168) : col st 0 Gen.slices_S7168x5_S7168x1_0_0 (ix1 r) = st (ix2 r 0) :=
  col_apply st 0 _ (by decide) r
theorem col1_apply (st : Stats) (r : Fin 7168) : col st 1 Gen.slices_S7168x5_S7168x1_0_1 (ix1 r) = st (ix2 r 1) :=
  col_apply st 1 _ (by decide) r
theorem col2_apply (st : Stats) (r : Fin 7168) : col st 2 Gen.slices_S7168x5_S7168x1_0_2 (ix1 r) = st (ix2 r 2) :=
  col_apply st 2 _ (by decide) r
theorem col3_apply (st : Stats) (r : Fin 7168) : col st 3 Gen.slices_S7168x5_S7168x1_0_3 (ix1 r) = st (ix2 r 3) :=
  col_apply st 3 _ (by decide) r
theorem col4_apply (st : Stats) (r : Fin 7168) : col st 4 Gen.slices_S7168x5_S7168x1_0_4 (ix1 r) = st (ix2 r 4) :=
  col_apply st 4 _ (by decide) r

/-- The broadcast of the binary32 word of one reads one in every row. -/
theorem ones_apply (i : S7168.Idx) : (ones i : EReal) = 1 := by
  unfold ones
  rw [broadcastInDim_scalar_apply, constant_apply, Ideal.ofBits_one_f32]

/-- The broadcast of the zero word reads zero in every row. -/
theorem zeros_apply (i : S7168.Idx) : (zeros i : EReal) = 0 := by
  unfold zeros
  rw [broadcastInDim_scalar_apply, constant_apply, Ideal.ofBits_zero_f32]

/-- A count clamped below at one, as extended reals: the maximum of the count and one is the count's maximum with one
    taken among the naturals. -/
theorem max_natCast_one (n : ℕ) : max (((n : ℕ) : ℝ) : EReal) 1 = Cert.Spec.clampCount n := by
  unfold Cert.Spec.clampCount
  rw [Nat.cast_max, EReal.coe_strictMono.monotone.map_max, Nat.cast_one, EReal.coe_one]

/-- Each row's term at a row: every operation of it acts row by row. -/
theorem rowTerm_apply (st : Stats) (i : S7168.Idx) :
    (rowTerm st i : EReal)
      = (Ideal.log (col st 0 Gen.slices_S7168x5_S7168x1_0_0 i)
          - Ideal.div (col st 3 Gen.slices_S7168x5_S7168x1_0_3 i) (max (col st 1 Gen.slices_S7168x5_S7168x1_0_1 i) 1))
        + Ideal.div (col st 4 Gen.slices_S7168x5_S7168x1_0_4 i) (max (col st 2 Gen.slices_S7168x5_S7168x1_0_2 i) 1) := by
  have e : (rowTerm st i : EReal)
      = (Ideal.log (col st 0 Gen.slices_S7168x5_S7168x1_0_0 i)
          - Ideal.div (col st 3 Gen.slices_S7168x5_S7168x1_0_3 i) (max (col st 1 Gen.slices_S7168x5_S7168x1_0_1 i) (ones i)))
        + Ideal.div (col st 4 Gen.slices_S7168x5_S7168x1_0_4 i) (max (col st 2 Gen.slices_S7168x5_S7168x1_0_2 i) (ones i)) := rfl
  rw [e, ones_apply]

section Hyp

variable (E : Fin 7168 → Fin 512 → EReal) (ids : Fin 7168 → BitVec 32) (st : Stats)
  (h0 : ∀ r : Fin 7168, st (ix2 r 0) = Cert.Spec.denom E r)
  (h1 : ∀ r : Fin 7168, st (ix2 r 1) = (((Cert.Spec.npos ids r : ℕ) : ℝ) : EReal))
  (h2 : ∀ r : Fin 7168, st (ix2 r 2) = (((Cert.Spec.nneg ids r : ℕ) : ℝ) : EReal))
  (h3 : ∀ r : Fin 7168, st (ix2 r 3) = Cert.Spec.posSum E ids r)
  (h4 : ∀ r : Fin 7168, st (ix2 r 4) = Cert.Spec.marginSum E ids r)

include h0 h1 h2 h3 h4 in
/-- With the five columns the specification's statistics, each row's term is the specification's contribution of the row. -/
theorem rowTerm_eq (r : Fin 7168) : (rowTerm st (ix1 r) : EReal) = Cert.Spec.rowLoss E ids r := by
  rw [rowTerm_apply, col0_apply, col1_apply, col2_apply, col3_apply, col4_apply, h0 r, h1 r, h2 r, h3 r, h4 r,
    max_natCast_one, max_natCast_one]
  rfl

/-! ## The kept rows -/

/-- The kept bit at a row: the conjunction of the two comparisons with zero. -/
theorem keepBit_apply (i : S7168.Idx) :
    keepBit st i = IntOp.andi (Ideal.cmp .ogt (col st 1 Gen.slices_S7168x5_S7168x1_0_1 i) 0)
      (Ideal.cmp .ogt (col st 2 Gen.slices_S7168x5_S7168x1_0_2 i) 0) := by
  have e : keepBit st i = IntOp.andi (Ideal.cmp .ogt (col st 1 Gen.slices_S7168x5_S7168x1_0_1 i) (zeros i))
      (Ideal.cmp .ogt (col st 2 Gen.slices_S7168x5_S7168x1_0_2 i) (zeros i)) := rfl
  rw [e, zeros_apply]

/-- A natural number, as an extended real, is above zero exactly when it is positive. -/
theorem cmp_ogt_natCast_zero (n : ℕ) :
    Ideal.cmp .ogt (((n : ℕ) : ℝ) : EReal) 0 = BitVec.ofBool (decide (0 < n)) := by
  show BitVec.ofBool (decide ((0 : EReal) < (((n : ℕ) : ℝ) : EReal))) = _
  congr 1
  exact decide_eq_decide.mpr (EReal.coe_pos.trans Nat.cast_pos)

/-- The conjunction of two one-bit words that encode propositions encodes their conjunction. -/
theorem andi_ofBool (p q : Bool) : IntOp.andi (BitVec.ofBool p) (BitVec.ofBool q) = BitVec.ofBool (p && q) := by
  cases p <;> cases q <;> rfl

include h1 h2 in
/-- With columns 1 and 2 the numbers of positives and negatives, the kept bit of a row says that the row counts. -/
theorem keepBit_eq (r : Fin 7168) : keepBit st (ix1 r) = BitVec.ofBool (decide (Cert.Spec.valid ids r)) := by
  rw [keepBit_apply, col1_apply, col2_apply, h1 r, h2 r, cmp_ogt_natCast_zero, cmp_ogt_natCast_zero, andi_ofBool]
  congr 1
  exact (Bool.decide_and _ _).symm

include h1 h2 in
theorem keepBit_eq_one_iff (r : Fin 7168) : keepBit st (ix1 r) = 1#1 ↔ Cert.Spec.valid ids r := by
  rw [keepBit_eq ids st h1 h2 r, Predicate.ofBool_eq_one_iff, decide_eq_true_iff]

/-- The count word's value: the widened bits are zeros and ones, there are 7168 of them, so their sum from zero does
    not wrap and is the number of rows whose bit is set. -/
theorem keptWord_toNat (j : S_.Idx) :
    (keptWord st j).toNat = (Finset.univ.filter fun r : Fin 7168 => keepBit st (ix1 r) = 1#1).card := by
  classical
  -- the rank-zero shape has one index, so every row's index reduces to it
  haveI : Subsingleton S_.Idx := ⟨fun a b => funext fun d => d.elim0⟩
  unfold keptWord
  rw [Host.reduce_eq_fold]
  have hall : (Finset.univ.filter fun i : S7168.Idx => Gen.reducesTo_S7168_S_d0.drop i = j) = Finset.univ :=
    Finset.filter_true_of_mem fun i _ => Subsingleton.elim _ _
  rw [hall]
  have hsum : ∑ i : S7168.Idx, (extui 32 (keepBit st) Gen.natLt_1_32 i).toNat
      = (Finset.univ.filter fun r : Fin 7168 => keepBit st (ix1 r) = 1#1).card := by
    rw [Finset.card_filter]
    refine (Equiv.sum_comp (idxEquiv1 (n := 7168)).symm _).symm.trans (Finset.sum_congr rfl fun r _ => ?_)
    exact Predicate.toNat_setWidth_bit (keepBit st (ix1 r))
  show (Finset.fold IntOp.addi 0#32 (extui 32 (keepBit st) Gen.natLt_1_32) Finset.univ).toNat = _
  rw [Predicate.toNat_fold_addi _ _ (by
    rw [hsum]; exact lt_of_le_of_lt (Finset.card_le_univ _) (by rw [Fintype.card_fin]; norm_num)), hsum]

include h1 h2 in
/-- So the count word's value is the specification's count of rows. -/
theorem keptWord_toNat_eq (j : S_.Idx) : (keptWord st j).toNat = Cert.Spec.count ids := by
  rw [keptWord_toNat]
  unfold Cert.Spec.count
  congr 1
  exact Finset.filter_congr fun r _ => keepBit_eq_one_iff ids st h1 h2 r

/-- At most 7168 rows count. -/
theorem count_le : Cert.Spec.count ids ≤ 7168 := by
  unfold Cert.Spec.count
  exact (Finset.card_le_univ _).trans (by rw [Fintype.card_fin])

include h0 h1 h2 h3 h4 in
/-- The sum of the kept rows' terms is the specification's total: a row that does not count contributes zero on both
    sides, and the sum over the indices of a vector of length 7168 is the sum over its positions. -/
theorem keptSum_eq (j : S_.Idx) : (keptSum st j : EReal) = Cert.Spec.total E ids := by
  unfold keptSum
  rw [hostReduceAdd_apply]
  refine (Ideal.hostReduceAdd_total _ (fun b => b.elim0) _ _ j).trans ?_
  rw [constant_apply, Ideal.ofBits_zero_f32, zero_add]
  unfold Cert.Spec.total
  refine (Equiv.sum_comp (idxEquiv1 (n := 7168)).symm _).symm.trans (Finset.sum_congr rfl fun r _ => ?_)
  show Scalar.select (keepBit st (ix1 r)) (rowTerm st (ix1 r)) (zeros (ix1 r)) = _
  rw [keepBit_eq ids st h1 h2 r, rowTerm_eq E ids st h0 h1 h2 h3 h4 r, zeros_apply]
  by_cases hv : Cert.Spec.valid ids r
  · rw [if_pos hv, decide_eq_true hv]; exact select_one _ _
  · rw [if_neg hv, decide_eq_false hv]; exact select_zero _ _

/-! ## The mean -/

/-- A word whose value is at most 7168: compared signed with zero it is above exactly when its value is positive, and
    its signed maximum with one, read signed, is the value's maximum with one. -/
theorem sgt_zero_iff (w : BitVec 32) (hw : w.toNat ≤ 7168) : IntOp.cmpi .sgt w 0#32 = 1#1 ↔ 0 < w.toNat :=
  Predicate.sgt_iff_toNat (by omega) (by decide)

theorem maxsi_one_toInt (w : BitVec 32) (hw : w.toNat ≤ 7168) : (IntOp.maxsi w 1#32).toInt = ((max w.toNat 1 : ℕ) : ℤ) := by
  have hti : w.toInt = w.toNat := Predicate.toInt_eq_toNat_of_lt (by omega)
  have h1 : (1#32 : BitVec 32).toInt = 1 := by decide
  unfold IntOp.maxsi
  split <;> rename_i hc <;> simp only [BitVec.slt, hti, h1, decide_eq_true_eq] at hc
  · rw [hti]; omega
  · rw [h1]; omega

end Hyp

theorem tail_loss (E : Fin 7168 → Fin 512 → EReal) (ids : Fin 7168 → BitVec 32) (st : Stats)
    (h0 : ∀ r : Fin 7168, st (ix2 r 0) = Cert.Spec.denom E r)
    (h1 : ∀ r : Fin 7168, st (ix2 r 1) = (((Cert.Spec.npos ids r : ℕ) : ℝ) : EReal))
    (h2 : ∀ r : Fin 7168, st (ix2 r 2) = (((Cert.Spec.nneg ids r : ℕ) : ℝ) : EReal))
    (h3 : ∀ r : Fin 7168, st (ix2 r 3) = Cert.Spec.posSum E ids r)
    (h4 : ∀ r : Fin 7168, st (ix2 r 4) = Cert.Spec.marginSum E ids r) :
    tailT st = fun _ => Cert.Spec.loss E ids := by
  funext j
  have hn : (keptWord st j).toNat = Cert.Spec.count ids := keptWord_toNat_eq ids st h1 h2 j
  have hle : (keptWord st j).toNat ≤ 7168 := hn ▸ count_le ids
  have e : tailT st j = Scalar.select (IntOp.cmpi .sgt (keptWord st j) 0#32)
      (Ideal.div (keptSum st j) ((((IntOp.maxsi (keptWord st j) 1#32).toInt : ℝ)) : EReal)) (Ideal.ofBits .f32 0x00000000#32) := rfl
  rw [e, keptSum_eq E ids st h0 h1 h2 h3 h4 j, maxsi_one_toInt _ hle, hn, Ideal.ofBits_zero_f32]
  unfold Cert.Spec.loss
  by_cases hc : 0 < Cert.Spec.count ids
  · rw [if_pos hc, (sgt_zero_iff _ hle).mpr (hn ▸ hc), select_one]
    unfold Cert.Spec.clampCount
    rw [Int.cast_natCast]
  · rw [if_neg hc]
    have hb : IntOp.cmpi .sgt (keptWord st j) 0#32 = 0#1 :=
      eq_zero_of_ne_one fun h => hc (hn ▸ (sgt_zero_iff _ hle).mp h)
    rw [hb, select_zero]

end Cert.KernelIdeal.Tail

end
-- ==== Proof.KRun.lean ====
/-
  The kernel program's run, read: its one result is the loss of the table and words it built from its arguments.

  The run around the region leaves, in the result buffer, what the host operations after the region make of the
  statistics array the region wrote. That array is the statistics of the four arrays the region read (the table
  rounded to the narrow float format — the identity on extended reals —, its transpose, the words as a column and as a
  row), so its five columns are the five row statistics of the table against itself with the words; and the host
  operations after the region turn exactly those columns into the loss.
-/
import proofs.«164784_j15556371546850_1_alg».proof.Proof.FrameKI
import proofs.«164784_j15556371546850_1_alg».proof.Proof.KFinal
import proofs.«164784_j15556371546850_1_alg».proof.Proof.KPrefix
import proofs.«164784_j15556371546850_1_alg».proof.Proof.KTail
import proofs.«164784_j15556371546850_1_alg».proof.Proof.Spec

set_option maxRecDepth 16384

noncomputable section

namespace Cert.KernelIdeal.RunValue

open Cert.KernelIdeal Cert.KernelIdeal.Gen Cert.KernelIdeal.Hand Cert.KernelIdeal.Final
open Idealize.ShloMosaic Idealize.ShloMosaic.TcCoe Idealize.ShloMosaic.ValueIdx Idealize.SL.Sem

variable (m : (ℓ : Loc nD τ sig) → Buf (Elt Ideal) ℓ) (ρ : Dev nD → PrngReg)

/-- The table of normalised embeddings a core builds from its three float arguments. -/
def embK (c : Dev nD) : FVec Ideal S7168x512 .f32 :=
  Prefix.embT (F := Ideal) (m ((c.tc : Thread nD τ).loc main_arg0)) (m ((c.tc : Thread nD τ).loc main_arg1)) (m ((c.tc : Thread nD τ).loc main_arg2))
/-- The id words it builds from its integer argument. -/
def idsK (c : Dev nD) : IVec S7168 32 := Prefix.idsT (F := Ideal) (m ((c.tc : Thread nD τ).loc main_arg3))

/-- The same as a table of rows and as words by position. -/
def tableK (c : Dev nD) : Fin 7168 → Fin 512 → EReal := Cert.Spec.tableOf (embK m c)
def wordsK (c : Dev nD) : Fin 7168 → BitVec 32 := Cert.Spec.wordsOf (idsK m c)

/-! ## The four arrays the region reads -/

theorem A0_eq (c : Dev nD) : (V m c main_v31 : FVec Ideal S7168x512 .bf16) = truncf .bf16 (embK m c) bitsLt_bf16_f32 :=
  Prefix.pre_v31 (F := Ideal) (fun b => m (c, b))
theorem A1_eq (c : Dev nD) : (V m c main_v32 : FVec Ideal S512x7168 .bf16)
    = transpose S512x7168 [1, 0] (truncf .bf16 (embK m c) bitsLt_bf16_f32) transposes_S7168x512_S512x7168_1_0 :=
  Prefix.pre_v32 (F := Ideal) (fun b => m (c, b))
theorem A2_eq (c : Dev nD) : (V m c main_v33 : IVec S7168x1 32) = shapeCast S7168x1 (idsK m c) shapeCasts_S7168_S7168x1 :=
  Prefix.pre_v33 (F := Ideal) (fun b => m (c, b))
theorem A3_eq (c : Dev nD) : (V m c main_v34 : IVec S1x7168 32) = shapeCast S1x7168 (idsK m c) shapeCasts_S7168_S1x7168 :=
  Prefix.pre_v34 (F := Ideal) (fun b => m (c, b))

/-- Row `r` of the first array is row `r` of the table. -/
theorem rowL (c : Dev nD) (r : Fin 7168) : (fun k : Fin 512 => (V m c main_v31 : Vec Ideal S7168x512 .bf16) (ix2 r k)) = tableK m c r := by
  funext k
  rw [A0_eq]
  exact Prefix.trunc_apply (embK m c) (ix2 r k)
/-- The second array is the table transposed. -/
theorem tabR (c : Dev nD) : (fun (k : Fin 512) (q : Fin 7168) => (V m c main_v32 : Vec Ideal S512x7168 .bf16) (ix2 k q)) = Cert.Spec.transposed (tableK m c) := by
  funext k q
  rw [A1_eq, Prefix.transpose_apply]
  exact Prefix.trunc_apply (embK m c) (ix2 q k)
/-- The third array at row `r` is word `r`. -/
theorem wordA (c : Dev nD) (r : Fin 7168) : (V m c main_v33 : Vec Ideal S7168x1 .i32) (ix2 r 0) = wordsK m c r := by
  rw [A2_eq]
  exact Prefix.col_apply (idsK m c) r
/-- The fourth array is the words. -/
theorem wordsB (c : Dev nD) : (fun q : Fin 7168 => (V m c main_v34 : Vec Ideal S1x7168 .i32) (ix2 0 q)) = wordsK m c := by
  funext q
  rw [A3_eq]
  exact Prefix.row_apply (idsK m c) q

/-! ## The statistics array's columns -/

theorem stat0 (c : Dev nD) (r : Fin 7168) :
    Gst (V m c main_v31) (V m c main_v32) (V m c main_v33) (V m c main_v34) (ix2 r 0) = Cert.Spec.denom (tableK m c) r := by
  show Cert.Spec.rowDenom r.val (fun k => (V m c main_v31 : Vec Ideal S7168x512 .bf16) (ix2 r k)) (fun k q => (V m c main_v32 : Vec Ideal S512x7168 .bf16) (ix2 k q)) = _
  rw [rowL, tabR]; rfl
theorem stat1 (c : Dev nD) (r : Fin 7168) :
    Gst (V m c main_v31) (V m c main_v32) (V m c main_v33) (V m c main_v34) (ix2 r 1) = (((Cert.Spec.npos (wordsK m c) r : ℕ) : ℝ) : EReal) := by
  show (((Cert.Spec.rowNpos r.val ((V m c main_v33 : Vec Ideal S7168x1 .i32) (ix2 r 0)) (fun q => (V m c main_v34 : Vec Ideal S1x7168 .i32) (ix2 0 q)) : ℕ) : ℝ) : EReal) = _
  rw [wordA, wordsB]; rfl
theorem stat2 (c : Dev nD) (r : Fin 7168) :
    Gst (V m c main_v31) (V m c main_v32) (V m c main_v33) (V m c main_v34) (ix2 r 2) = (((Cert.Spec.nneg (wordsK m c) r : ℕ) : ℝ) : EReal) := by
  show (((Cert.Spec.rowNneg r.val ((V m c main_v33 : Vec Ideal S7168x1 .i32) (ix2 r 0)) (fun q => (V m c main_v34 : Vec Ideal S1x7168 .i32) (ix2 0 q)) : ℕ) : ℝ) : EReal) = _
  rw [wordA, wordsB]; rfl
theorem stat3 (c : Dev nD) (r : Fin 7168) :
    Gst (V m c main_v31) (V m c main_v32) (V m c main_v33) (V m c main_v34) (ix2 r 3) = Cert.Spec.posSum (tableK m c) (wordsK m c) r := by
  show Cert.Spec.rowPosSum r.val (fun k => (V m c main_v31 : Vec Ideal S7168x512 .bf16) (ix2 r k)) (fun k q => (V m c main_v32 : Vec Ideal S512x7168 .bf16) (ix2 k q))
    ((V m c main_v33 : Vec Ideal S7168x1 .i32) (ix2 r 0)) (fun q => (V m c main_v34 : Vec Ideal S1x7168 .i32) (ix2 0 q)) = _
  rw [rowL, tabR, wordA, wordsB]; rfl
theorem stat4 (c : Dev nD) (r : Fin 7168) :
    Gst (V m c main_v31) (V m c main_v32) (V m c main_v33) (V m c main_v34) (ix2 r 4) = Cert.Spec.marginSum (tableK m c) (wordsK m c) r := by
  show Cert.Spec.rowMarginSum r.val (fun k => (V m c main_v31 : Vec Ideal S7168x512 .bf16) (ix2 r k)) (fun k q => (V m c main_v32 : Vec Ideal S512x7168 .bf16) (ix2 k q))
    ((V m c main_v33 : Vec Ideal S7168x1 .i32) (ix2 r 0)) (fun q => (V m c main_v34 : Vec Ideal S1x7168 .i32) (ix2 0 q)) = _
  rw [rowL, tabR, wordA, wordsB]; rfl

/-! ## The result -/

/-- What the host operations after the region leave in the result buffer: the loss. -/
theorem result_eq (c : Dev nD) :
    Pipeline.afterTail₀ cfgs (dats m) 0 (V0 m) sfx c main_v68 = fun _ => Cert.Spec.loss (tableK m c) (wordsK m c) := by
  unfold Pipeline.afterTail₀
  refine (Tail.tail_eq _).trans ?_
  rw [Pipeline.withArrays_arr spec0 launch0.win.arr_inj c _ _ 4, final4]
  exact Tail.tail_loss (tableK m c) (wordsK m c) _ (stat0 m c) (stat1 m c) (stat2 m c) (stat3 m c) (stat4 m c)

/-- THE RUN, READ: every weakly fair execution terminates with the result buffer at the loss and the arguments as
    launched. -/
theorem run : θ_run defs (onTc (τ := τ) (main (F := Ideal))) ⟨m, fun _ => 0, ρ⟩ (fun r => ∀ c : Dev nD,
      r.2.mem ((c.tc : Thread nD τ).loc main_v68) = (fun _ => Cert.Spec.loss (tableK m c) (wordsK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v68 (Pipeline.mem_restRefs_of main_v68 (by decide) (by decide))).trans (result_eq m c),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩)
    (run_main m ρ)

end Cert.KernelIdeal.RunValue

end
-- ==== Proof.KGlue.lean ====
/-
  The table and the id words the region reads are the reference's.

  The reference program's first operations are the same operations on the same four arguments as the program's own
  operations before the region. Its stage-by-stage values of the joined, normalised table and of the id words are,
  unfolded, the composed terms of the arguments that the region finds in its input arrays. The comparison is made at an
  arbitrary float family, where both sides are the same composition of the same uninterpreted operations.
-/
import proofs.«164784_j15556371546850_1_alg».proof.Proof.KPrefix
import proofs.«164784_j15556371546850_1_alg».proof.Proof.ReadP

noncomputable section

namespace Cert.KernelIdeal.Prefix

open Cert.KernelIdeal Cert.KernelIdeal.Gen Idealize.ShloMosaic
open Cert.ReferenceIdeal.ReadP (val_main_v23 val_main_v30)

variable {F : FTy → Type} [FloatOps F]

/-- The table is the reference's table. -/
theorem embT_eq_ref (a0 : (⟨S1024x512, .f32⟩ : BufTy).Contents (Elt F))
    (a1 a2 : (⟨S1024x3x512, .f32⟩ : BufTy).Contents (Elt F)) :
    embT (F := F) a0 a1 a2 = val_main_v23 (F := F) a0 a1 a2 := rfl

/-- The id words are the reference's id words. -/
theorem idsT_eq_ref (a3 : (⟨S1024, .i32⟩ : BufTy).Contents (Elt F)) :
    idsT (F := F) a3 = val_main_v30 (F := F) a3 := rfl

end Cert.KernelIdeal.Prefix

end
-- ==== Proof.RefSpec.lean ====
/-
  The reference's result is the specification's loss, over the extended reals.

  The reference normalises and concatenates the embeddings into a 7168 × 512 table and the words into a 7168-vector;
  both are carried here as given. From them it forms the similarity matrix (the table times its transpose, over the
  temperature), the masks (the same word; the same position; positive = same word and another position; negative =
  another word and another position), five row statistics, a per-row contribution, and the mean over the rows that
  count. Each stage is read at an index and identified with the specification's term of the same name:
  first the similarity, then the masks as propositions, then the five statistics (the two counts as 32-bit words),
  then the tail.
-/
import proofs.«164784_j15556371546850_1_alg».proof.Proof.ReadP
import proofs.«164784_j15556371546850_1_alg».proof.Proof.Spec
import Idealize.ShloMosaic.Lib.StableHlo.Predicate
import Idealize.ShloMosaic.Lib.ReduceAll
import Idealize.ShloMosaic.PureOps.Ideal.Laws
import Idealize.ShloMosaic.Lib.ValueIdx

noncomputable section

namespace Cert.ReferenceIdeal.RefSpec

open Cert.ReferenceIdeal Cert.ReferenceIdeal.ReadP Idealize.ShloMosaic Idealize.ShloMosaic.ValueIdx
  Idealize.ShloMosaic.StableHlo.Predicate

/-! ## One-bit words

A mask entry is a one-bit word; the masks of the reference are built from two comparisons by and, or and not.
Each combination is read here as the proposition it decides. -/

theorem and_bit (a b : BitVec 1) : IntOp.andi a b = 1#1 ↔ a = 1#1 ∧ b = 1#1 := by
  rcases BitVec.eq_zero_or_eq_one a with rfl | rfl <;> rcases BitVec.eq_zero_or_eq_one b with rfl | rfl <;> decide

/-- The same word and another position. -/
theorem pos_bit (s e : BitVec 1) : IntOp.andi s (~~~e) = 1#1 ↔ s = 1#1 ∧ ¬ e = 1#1 := by
  rcases BitVec.eq_zero_or_eq_one s with rfl | rfl <;> rcases BitVec.eq_zero_or_eq_one e with rfl | rfl <;> decide

/-- Another word and another position. -/
theorem neg_bit (s e : BitVec 1) : IntOp.andi (~~~s) (~~~e) = 1#1 ↔ ¬ s = 1#1 ∧ ¬ e = 1#1 := by
  rcases BitVec.eq_zero_or_eq_one s with rfl | rfl <;> rcases BitVec.eq_zero_or_eq_one e with rfl | rfl <;> decide

/-- A positive or a negative: exactly another position. -/
theorem offdiag_bit (s e : BitVec 1) :
    IntOp.ori (IntOp.andi s (~~~e)) (IntOp.andi (~~~s) (~~~e)) = 1#1 ↔ ¬ e = 1#1 := by
  rcases BitVec.eq_zero_or_eq_one s with rfl | rfl <;> rcases BitVec.eq_zero_or_eq_one e with rfl | rfl <;> decide

/-- A selection on a bit that decides P is the conditional on P. -/
theorem select_ite {α : Type} (m : BitVec 1) (P : Prop) [Decidable P] (h : m = 1#1 ↔ P) (a b : α) :
    Scalar.select m a b = if P then a else b := by
  unfold Scalar.select
  by_cases hP : P
  · rw [if_pos hP]; exact if_pos (h.2 hP)
  · rw [if_neg hP]; exact if_neg (fun hm => hP (h.1 hm))

/-! ## 32-bit words below 2³¹ -/

/-- Two positions below 7168 have the same 32-bit word exactly when they are the same position. -/
theorem eye_bit (r c : Fin 7168) :
    IntOp.cmpi .eq (IntOp.addi (BitVec.ofNat 32 r.val) 0#32) (BitVec.ofNat 32 c.val) = 1#1 ↔ r = c := by
  rw [cmpi_eq_iff]
  show BitVec.ofNat 32 r.val + 0#32 = BitVec.ofNat 32 c.val ↔ r = c
  rw [BitVec.add_zero]
  constructor
  · intro h
    have h' := congrArg BitVec.toNat h
    simp only [BitVec.toNat_ofNat] at h'
    have hr := r.isLt
    have hc := c.isLt
    exact Fin.ext (by omega)
  · rintro rfl; rfl

/-- The signed maximum of a small count's word with one, read as a real, is the count clamped below at one. -/
theorem clamp_word (n : ℕ) (hn : n < 2 ^ 31) :
    ((IntOp.maxsi (BitVec.ofNat 32 n) 1#32).toInt : ℝ) = ((max n 1 : ℕ) : ℝ) := by
  have h1 : (1#32 : BitVec 32).toInt = 1 := by decide
  have hn' : (BitVec.ofNat 32 n).toInt = n := toInt_ofNat_small n hn
  unfold IntOp.maxsi
  split
  · rename_i hc
    simp only [BitVec.slt, h1, hn', decide_eq_true_eq] at hc
    have hm : max n 1 = n := by omega
    rw [hn', hm]; simp
  · rename_i hc
    simp only [BitVec.slt, h1, hn', decide_eq_true_eq] at hc
    have hm : max n 1 = 1 := by omega
    rw [h1, hm]; simp

/-- A small count's word is signed-greater than zero exactly when the count is positive. -/
theorem sgt_zero (n : ℕ) (hn : n < 2 ^ 31) : IntOp.cmpi .sgt (BitVec.ofNat 32 n) 0#32 = 1#1 ↔ 0 < n := by
  have hto : (BitVec.ofNat 32 n).toNat = n := by rw [BitVec.toNat_ofNat]; exact Nat.mod_eq_of_lt (by omega)
  rw [sgt_iff_toNat (by rw [hto]; exact hn) (by decide), hto]
  rfl

/-! ## Counting by summing widened bits -/

/-- Summing the widened bits of a 7168 × 7168 mask along its columns gives, at row r, the word of the number of
    columns whose bit is set; stated for a mask whose bit at (r, c) decides P r c. -/
theorem count_cols_word (mask : IVec (⟨2, ![7168, 7168]⟩ : Shape) 1) (P : Fin 7168 → Fin 7168 → Prop)
    [∀ r c, Decidable (P r c)] (hP : ∀ r c, mask (ix2 r c) = 1#1 ↔ P r c) (hw : 1 < 32)
    (h : (⟨2, ![7168, 7168]⟩ : Shape).ReducesTo [1] ⟨1, ![7168]⟩) {u : Shape} (hu : 0 < u.numel) (r : Fin 7168) :
    Host.reduce IntOp.addi (extui 32 mask hw) (constantI u 32 0#32) h hu (ix1 r)
      = BitVec.ofNat 32 (Finset.univ.filter fun c : Fin 7168 => P r c).card := by
  apply BitVec.eq_of_toNat_eq
  have hcard : (Finset.univ.filter fun c : Fin 7168 => P r c).card ≤ 7168 :=
    (Finset.card_le_univ _).trans (by simp)
  rw [BitVec.toNat_ofNat, Nat.mod_eq_of_lt (by omega),
    toNat_reduce_count_cols (by norm_num) mask hw h hu (ix1 r)]
  refine congrArg Finset.card (Finset.filter_congr fun c _ => ?_)
  exact hP r c

/-- A sum over the 7168 rank-one indices is the sum over the positions. -/
theorem sum_idx1 {M : Type*} [AddCommMonoid M] (f : (⟨1, ![7168]⟩ : Shape).Idx → M) :
    ∑ j, f j = ∑ r : Fin 7168, f (ix1 r) := by
  refine Finset.sum_bij' (fun i _ => i 0) (fun q _ => ix1 q) (fun _ _ => Finset.mem_univ _)
    (fun _ _ => Finset.mem_univ _) (fun i _ => (eq_ix1 i).symm) (fun _ _ => rfl) ?_
  intro i _
  exact congrArg f (eq_ix1 i)

/-- Summing the widened bits of a 7168-vector mask gives the word of the number of positions whose bit is set. -/
theorem count_all_word (mask : IVec (⟨1, ![7168]⟩ : Shape) 1) (P : Fin 7168 → Prop) [DecidablePred P]
    (hP : ∀ r, mask (ix1 r) = 1#1 ↔ P r) (hw : 1 < 32)
    (h : (⟨1, ![7168]⟩ : Shape).ReducesTo [0] ⟨0, ![]⟩) {u : Shape} (hu : 0 < u.numel) (j : (⟨0, ![]⟩ : Shape).Idx) :
    Host.reduce IntOp.addi (extui 32 mask hw) (constantI u 32 0#32) h hu j
      = BitVec.ofNat 32 (Finset.univ.filter P).card := by
  have hsum : ∑ i : (⟨1, ![7168]⟩ : Shape).Idx, (extui 32 mask hw i).toNat = (Finset.univ.filter P).card := by
    rw [sum_idx1, Finset.card_filter]
    refine Finset.sum_congr rfl fun q _ => ?_
    rw [show (extui 32 mask hw (ix1 q)).toNat = if mask (ix1 q) = 1#1 then 1 else 0 from toNat_setWidth_bit _]
    exact if_congr (hP q) rfl rfl
  classical
  apply BitVec.eq_of_toNat_eq
  have hcard : (Finset.univ.filter P).card ≤ 7168 := (Finset.card_le_univ _).trans (by simp)
  rw [BitVec.toNat_ofNat, Nat.mod_eq_of_lt (by omega), Host.reduce_eq_fold]
  rw [Finset.filter_true_of_mem (fun i _ => (eq_ix0 (h.drop i)).trans (eq_ix0 j).symm)]
  show (Finset.fold IntOp.addi 0#32 (extui 32 mask hw) Finset.univ).toNat = _
  rw [toNat_fold_addi _ _ (by rw [hsum]; omega), hsum]

/-- Any set of positions has fewer than 2³¹ members. -/
theorem card_small (s : Finset (Fin 7168)) : s.card < 2 ^ 31 :=
  (Finset.card_le_univ s).trans_lt (by rw [Fintype.card_fin]; norm_num)

/-- A row has fewer than 2³¹ positives. -/
theorem npos_small (w : Fin 7168 → BitVec 32) (r : Fin 7168) : Cert.Spec.npos w r < 2 ^ 31 := by
  unfold Cert.Spec.npos Cert.Spec.rowNpos; exact card_small _

/-- A row has fewer than 2³¹ negatives. -/
theorem nneg_small (w : Fin 7168 → BitVec 32) (r : Fin 7168) : Cert.Spec.nneg w r < 2 ^ 31 := by
  unfold Cert.Spec.nneg Cert.Spec.rowNneg; exact card_small _

/-- Fewer than 2³¹ rows count. -/
theorem count_small (w : Fin 7168 → BitVec 32) : Cert.Spec.count w < 2 ^ 31 := by
  unfold Cert.Spec.count; exact card_small _

/-! ## The stages of the reference -/

variable (x0 : (⟨S1024x512, .f32⟩ : BufTy).Contents (Elt Ideal))
  (x1 x2 : (⟨S1024x3x512, .f32⟩ : BufTy).Contents (Elt Ideal))
  (x3 : (⟨S1024, .i32⟩ : BufTy).Contents (Elt Ideal))

local notation "E" => Cert.Spec.tableOf (val_main_v23 (F := Ideal) x0 x1 x2)
local notation "ids" => Cert.Spec.wordsOf (val_main_v30 (F := Ideal) x3)

/-! ### Where the stages read their operands -/

theorem lidx_ix (r c : Fin 7168) (k : Fin 512) : lidx_main_v32 (ix2 r c) k = ix2 r k :=
  funext fun a => Fin.ext (by match a with | ⟨0, _⟩ => rfl | ⟨1, _⟩ => rfl)

theorem ridx_ix (r c : Fin 7168) (k : Fin 512) : idx_main_v31 (ridx_main_v32 (ix2 r c) k) = ix2 c k :=
  funext fun a => Fin.ext (by match a with | ⟨0, _⟩ => rfl | ⟨1, _⟩ => rfl)

theorem idx53_ix (r k : Fin 7168) : idx_main_v53 (ix1 r) k = ix2 r k :=
  funext fun a => Fin.ext (by match a with | ⟨0, _⟩ => rfl | ⟨1, _⟩ => rfl)

theorem idx59_ix (r k : Fin 7168) : idx_main_v59 (ix1 r) k = ix2 r k :=
  funext fun a => Fin.ext (by match a with | ⟨0, _⟩ => rfl | ⟨1, _⟩ => rfl)

theorem idx71_ix (r k : Fin 7168) : idx_main_v71 (ix1 r) k = ix2 r k :=
  funext fun a => Fin.ext (by match a with | ⟨0, _⟩ => rfl | ⟨1, _⟩ => rfl)

/-! ### The zero fill of the selections -/

theorem zero3 (i : S7168x7168.Idx) : val_main_call3_v1 (F := Ideal) i = 0 := by
  rw [val_main_call3_v1_apply, val_main_call3_v0_apply, val_main_cst_7_apply]
  exact Ideal.ofBits_zero_f32

theorem zero4 (i : S7168x7168.Idx) : val_main_call4_v1 (F := Ideal) i = 0 := by
  rw [val_main_call4_v1_apply, val_main_call4_v0_apply, val_main_cst_11_apply]
  exact Ideal.ofBits_zero_f32

theorem zero5 (i : S7168x7168.Idx) : val_main_call5_v1 (F := Ideal) i = 0 := by
  rw [val_main_call5_v1_apply, val_main_call5_v0_apply, val_main_cst_16_apply]
  exact Ideal.ofBits_zero_f32

theorem zero6 (i : S7168.Idx) : val_main_call6_v1 (F := Ideal) i = 0 := by
  rw [val_main_call6_v1_apply, val_main_call6_v0_apply, val_main_cst_22_apply]
  exact Ideal.ofBits_zero_f32

/-! ### The similarity -/

/-- Entry (r, c) of the similarity matrix: the inner product of rows r and c of the table, over the temperature. -/
theorem sim_apply (r c : Fin 7168) :
    val_main_v34 (F := Ideal) x0 x1 x2 (ix2 r c) = Cert.Spec.rowSim (E r) (Cert.Spec.transposed E) c := by
  rw [val_main_v34_apply, val_main_v32_apply, val_main_v33_apply, val_main_cst_5_apply]
  unfold Cert.Spec.rowSim Cert.Spec.temp
  refine congrArg₂ Ideal.div (Finset.sum_congr rfl fun k _ => ?_) rfl
  rw [val_main_v31_apply]
  exact congrArg₂ (· * ·) (congrArg (val_main_v23 (F := Ideal) x0 x1 x2) (lidx_ix r c k))
    (congrArg (val_main_v23 (F := Ideal) x0 x1 x2) (ridx_ix r c k))

/-! ### The masks, as propositions -/

/-- The row of words laid along the columns: entry (r, c) is the word of c. -/
theorem v37_ix (r c : Fin 7168) : val_main_v37 (F := Ideal) x3 (ix2 r c) = ids c := by
  rw [val_main_v37_apply, val_main_v35_apply]
  exact congrArg (val_main_v30 (F := Ideal) x3) (funext fun a => Fin.ext (by match a with | ⟨0, _⟩ => rfl))

/-- The column of words laid along the rows: entry (r, c) is the word of r. -/
theorem v38_ix (r c : Fin 7168) : val_main_v38 (F := Ideal) x3 (ix2 r c) = ids r := by
  rw [val_main_v38_apply, val_main_v36_apply]
  exact congrArg (val_main_v30 (F := Ideal) x3) (funext fun a => Fin.ext (by match a with | ⟨0, _⟩ => rfl))

/-- The same-word mask. -/
theorem same_ix (r c : Fin 7168) : val_main_v39 (F := Ideal) x3 (ix2 r c) = 1#1 ↔ ids r = ids c := by
  rw [val_main_v39_apply, v37_ix, v38_ix, cmpi_eq_iff]
  exact eq_comm

/-- The diagonal mask. -/
theorem eye_ix (r c : Fin 7168) : val_main_v44 (F := Ideal) (ix2 r c) = 1#1 ↔ r = c := by
  rw [val_main_v44_apply, val_main_v43_apply, val_main_v40_apply, val_main_v41_apply, val_main_v42_apply,
    val_main_c_6_apply]
  exact eye_bit r c

/-- The positive mask. -/
theorem pos_ix (r c : Fin 7168) :
    val_main_v46 (F := Ideal) x3 (ix2 r c) = 1#1 ↔ Cert.Spec.rowIsPos r.val (ids r) ids c := by
  rw [val_main_v46_apply, val_main_v45_apply, pos_bit, same_ix, eye_ix]
  exact and_congr_right' (not_congr Fin.ext_iff)

/-- The negative mask. -/
theorem neg_ix (r c : Fin 7168) :
    val_main_v49 (F := Ideal) x3 (ix2 r c) = 1#1 ↔ Cert.Spec.rowIsNeg r.val (ids r) ids c := by
  rw [val_main_v49_apply, val_main_v47_apply, val_main_v48_apply, neg_bit, same_ix, eye_ix]
  exact and_congr_right' (not_congr Fin.ext_iff)

/-- Positive or negative: another position. -/
theorem offdiag_ix (r c : Fin 7168) : val_main_v51 (F := Ideal) x3 (ix2 r c) = 1#1 ↔ r.val ≠ c.val := by
  rw [val_main_v51_apply, val_main_v49_apply, val_main_v47_apply, val_main_v48_apply, val_main_v46_apply,
    val_main_v45_apply, offdiag_bit, eye_ix]
  exact not_congr Fin.ext_iff

/-! ### The five row statistics -/

/-- The sum of the exponentials of a row's off-diagonal similarities. -/
theorem denom_apply (r : Fin 7168) :
    val_main_v53 (F := Ideal) x0 x1 x2 x3 (ix1 r) = Cert.Spec.denom E r := by
  rw [val_main_v53_apply, val_main_cst_8_apply]
  unfold Cert.Spec.denom Cert.Spec.rowDenom
  refine (congrArg (· + _) Ideal.ofBits_zero_f32).trans ((zero_add _).trans (Finset.sum_congr rfl fun k _ => ?_))
  rw [idx53_ix, val_main_v52_apply, select_ite _ _ (offdiag_ix x3 r k), val_main_v50_apply, sim_apply, zero3]
  exact if_congr Iff.rfl rfl rfl

/-- The number of a row's positives, as a word. -/
theorem npos_apply (r : Fin 7168) :
    val_main_v55 (F := Ideal) x3 (ix1 r) = BitVec.ofNat 32 (Cert.Spec.npos ids r) := by
  unfold val_main_v55 val_main_v54 val_main_c_9
  exact count_cols_word (val_main_v46 (F := Ideal) x3) (fun r c => Cert.Spec.rowIsPos r.val (ids r) ids c)
    (pos_ix x3) _ _ _ r

/-- The number of a row's negatives, as a word. -/
theorem nneg_apply (r : Fin 7168) :
    val_main_v57 (F := Ideal) x3 (ix1 r) = BitVec.ofNat 32 (Cert.Spec.nneg ids r) := by
  unfold val_main_v57 val_main_v56 val_main_c_10
  exact count_cols_word (val_main_v49 (F := Ideal) x3) (fun r c => Cert.Spec.rowIsNeg r.val (ids r) ids c)
    (neg_ix x3) _ _ _ r

/-- The sum of a row's positive similarities. -/
theorem posSum_apply (r : Fin 7168) :
    val_main_v59 (F := Ideal) x0 x1 x2 x3 (ix1 r) = Cert.Spec.posSum E ids r := by
  rw [val_main_v59_apply, val_main_cst_12_apply]
  unfold Cert.Spec.posSum Cert.Spec.rowPosSum
  refine (congrArg (· + _) Ideal.ofBits_zero_f32).trans ((zero_add _).trans (Finset.sum_congr rfl fun k _ => ?_))
  rw [idx59_ix, val_main_v58_apply, select_ite _ _ (pos_ix x3 r k), sim_apply, zero4]

/-- The sum over a row's negatives of the similarity plus the margin, clipped below at zero. -/
theorem marginSum_apply (r : Fin 7168) :
    val_main_v71 (F := Ideal) x0 x1 x2 x3 (ix1 r) = Cert.Spec.marginSum E ids r := by
  rw [val_main_v71_apply, val_main_cst_17_apply]
  unfold Cert.Spec.marginSum Cert.Spec.rowMarginSum
  refine (congrArg (· + _) Ideal.ofBits_zero_f32).trans ((zero_add _).trans (Finset.sum_congr rfl fun k _ => ?_))
  rw [idx71_ix, val_main_v70_apply, select_ite _ _ (neg_ix x3 r k), val_main_v69_apply, val_main_v67_apply,
    sim_apply, val_main_v66_apply, val_main_cst_14_apply, val_main_v68_apply, val_main_cst_15_apply, zero5]
  refine if_congr Iff.rfl (congrArg (max _) Ideal.ofBits_zero_f32) rfl

/-! ### The tail: per-row contribution, the rows that count, the mean -/

/-- The divisor of the positive term: the number of positives, at least one, as a real. -/
theorem clampNpos_apply (r : Fin 7168) :
    val_main_v63 (F := Ideal) x3 (ix1 r) = Cert.Spec.clampCount (Cert.Spec.npos ids r) := by
  rw [val_main_v63_apply, val_main_v62_apply, val_main_v61_apply, val_main_c_13_apply, npos_apply]
  exact congrArg (fun t : ℝ => (t : EReal)) (clamp_word _ (npos_small _ _))

/-- The divisor of the margin term: the number of negatives, at least one, as a real. -/
theorem clampNneg_apply (r : Fin 7168) :
    val_main_v74 (F := Ideal) x3 (ix1 r) = Cert.Spec.clampCount (Cert.Spec.nneg ids r) := by
  rw [val_main_v74_apply, val_main_v73_apply, val_main_v72_apply, val_main_c_18_apply, nneg_apply]
  exact congrArg (fun t : ℝ => (t : EReal)) (clamp_word _ (nneg_small _ _))

/-- A row's contribution. -/
theorem rowLoss_apply (r : Fin 7168) :
    val_main_v83 (F := Ideal) x0 x1 x2 x3 (ix1 r) = Cert.Spec.rowLoss E ids r := by
  rw [val_main_v83_apply, val_main_v65_apply, val_main_v60_apply, val_main_v64_apply, val_main_v75_apply,
    denom_apply, posSum_apply, marginSum_apply, clampNpos_apply, clampNneg_apply]
  rfl

/-- The mask of the rows that count: a positive and a negative. -/
theorem valid_ix (r : Fin 7168) : val_main_v80 (F := Ideal) x3 (ix1 r) = 1#1 ↔ Cert.Spec.valid ids r := by
  rw [val_main_v80_apply, and_bit, val_main_v77_apply, val_main_v79_apply, val_main_v76_apply,
    val_main_c_19_apply, val_main_v78_apply, val_main_c_20_apply, npos_apply, nneg_apply,
    sgt_zero _ (npos_small _ _), sgt_zero _ (nneg_small _ _)]
  exact Iff.rfl

/-- A row's contribution where it counts, zero elsewhere. -/
theorem masked_ix (r : Fin 7168) :
    val_main_v84 (F := Ideal) x0 x1 x2 x3 (ix1 r)
      = if Cert.Spec.valid ids r then Cert.Spec.rowLoss E ids r else 0 := by
  rw [val_main_v84_apply, select_ite _ _ (valid_ix x3 r), rowLoss_apply, zero6]

/-- The sum of the counted rows' contributions. -/
theorem total_apply (i : S_.Idx) :
    val_main_v85 (F := Ideal) x0 x1 x2 x3 i = Cert.Spec.total E ids := by
  rw [val_main_v85_apply, val_main_cst_23_apply, sum_idx1]
  unfold Cert.Spec.total
  refine (congrArg (· + _) Ideal.ofBits_zero_f32).trans ((zero_add _).trans (Finset.sum_congr rfl fun r _ => ?_))
  exact masked_ix x0 x1 x2 x3 r

/-- The number of rows that count, as a word. -/
theorem count_apply (i : S_.Idx) :
    val_main_v82 (F := Ideal) x3 i = BitVec.ofNat 32 (Cert.Spec.count ids) := by
  unfold val_main_v82 val_main_v81 val_main_c_21
  exact count_all_word (val_main_v80 (F := Ideal) x3) (fun r => Cert.Spec.valid ids r) (valid_ix x3) _ _ _ i

/-- THE RESULT: the reference returns the specification's loss. -/
theorem ref_loss : val_main_v90 (F := Ideal) x0 x1 x2 x3 = fun _ => Cert.Spec.loss E ids := by
  funext i
  rw [val_main_v90_apply, val_main_v86_apply, val_main_c_24_apply, count_apply,
    select_ite _ _ (sgt_zero _ (count_small _)), val_main_v89_apply, total_apply, val_main_v88_apply,
    val_main_v87_apply, val_main_c_25_apply, count_apply, val_main_call7_v0_apply, val_main_cst_26_apply]
  unfold Cert.Spec.loss
  refine if_congr Iff.rfl (congrArg (Ideal.div _) ?_) Ideal.ofBits_zero_f32
  exact congrArg (fun t : ℝ => (t : EReal)) (clamp_word _ (count_small _))

end Cert.ReferenceIdeal.RefSpec

end
-- ==== Proof.RefRun.lean ====
/-
  The reference's run, read as the stages of its last value.

  The reference is a straight line of 141 host operations. Run from any contents with the counters at zero, it ends
  with every buffer at the fold of the operations' results over the launch contents. The line is cut into five
  stretches, at places where few buffers are still to be read: after the two joined arrays (the table of embeddings and
  the vector of words); after the similarity, the masks and the first row sum; after the row statistics; the tail up to
  the mean; and the last selection.
  For each stretch: from ANY contents that hold the earlier stages at the buffers the stretch reads, the stretch leaves
  the later stages at the buffers that are read after it. Chained from the launch contents, the last buffer holds its
  stage of the four arguments, and the arguments are untouched.
-/
import proofs.«164784_j15556371546850_1_alg».proof.Proof.ReadP
import proofs.«164784_j15556371546850_1_alg».proof.Proof.Gen.ReferenceIdeal
import proofs.«164784_j15556371546850_1_alg».proof.Proof.LibNaryApp
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-! ## The operations -/

/-- The 141 operations, in order (a called function's operations stand in its call's place). -/
abbrev ops : List (HloOp τ sig (Elt F)) :=
  [ nullary main_cst (constant S_ .f32 0x322BCC77#32),
    unary main_cst main_v0 (broadcastInDim S1024x512 ![] bcast_S_S1024x512 : (⟨S_, .f32⟩ : BufTy).Contents (Elt F) → (⟨S1024x512, .f32⟩ : BufTy).Contents (Elt F)),
    binary main_arg0 main_v0 main_v1 (addf : (⟨S1024x512, .f32⟩ : BufTy).Contents (Elt F) → (⟨S1024x512, .f32⟩ : BufTy).Contents (Elt F) → (⟨S1024x512, .f32⟩ : BufTy).Contents (Elt F)),
    TRef.binary (TRef.of (T := ⟨S1024x512, .f32⟩) main_v1) (TRef.of (T := ⟨S1024x512, .f32⟩) main_v1) (TRef.of (T := ⟨S1024x512, .f32⟩) main_call0_v0) mulf,
    TRef.nullary (TRef.of (T := ⟨S_, .f32⟩) main_call0_cst) (constant S_ .f32 0x00000000#32),
    TRef.binary (TRef.of (T := ⟨S1024x512, .f32⟩) main_call0_v0) (TRef.of (T := ⟨S_, .f32⟩) main_call0_cst) (TRef.of (T := ⟨S1024, .f32⟩) main_call0_v1) (fun x v => Host.reduceAdd x v reducesTo_S1024x512_S1024_d1 h_S_),
    TRef.unary (TRef.of (T := ⟨S1024, .f32⟩) main_call0_v1) (TRef.of (T := ⟨S1024x1, .f32⟩) main_call0_v2) (broadcastInDim S1024x1 ![0] bcast_S1024_S1024x1_0),
    TRef.unary (TRef.of (T := ⟨S1024x1, .f32⟩) main_call0_v2) (TRef.of (T := ⟨S1024x1, .f32⟩) main_v2) Host.sqrt,
    nullary main_cst_0 (constant S_ .f32 0x2B8CBCCC#32),
    unary main_cst_0 main_v3 (broadcastInDim S1024x1 ![] bcast_S_S1024x1 : (⟨S_, .f32⟩ : BufTy).Contents (Elt F) → (⟨S1024x1, .f32⟩ : BufTy).Contents (Elt F)),
    binary main_v2 main_v3 main_v4 (maximumf : (⟨S1024x1, .f32⟩ : BufTy).Contents (Elt F) → (⟨S1024x1, .f32⟩ : BufTy).Contents (Elt F) → (⟨S1024x1, .f32⟩ : BufTy).Contents (Elt F)),
    unary main_v4 main_v5 (broadcastInDim S1024x512 ![0, 1] bcast_S1024x1_S1024x512_0_1 : (⟨S1024x1, .f32⟩ : BufTy).Contents (Elt F) → (⟨S1024x512, .f32⟩ : BufTy).Contents (Elt F)),
    binary main_v1 main_v5 main_v6 (Host.divf : (⟨S1024x512, .f32⟩ : BufTy).Contents (Elt F) → (⟨S1024x512, .f32⟩ : BufTy).Contents (Elt F) → (⟨S1024x512, .f32⟩ : BufTy).Contents (Elt F)),
    nullary main_cst_1 (constant S_ .f32 0x322BCC77#32),
    unary main_cst_1 main_v7 (broadcastInDim S1024x3x512 ![] bcast_S_S1024x3x512 : (⟨S_, .f32⟩ : BufTy).Contents (Elt F) → (⟨S1024x3x512, .f32⟩ : BufTy).Contents (Elt F)),
    binary main_arg1 main_v7 main_v8 (addf : (⟨S1024x3x512, .f32⟩ : BufTy).Contents (Elt F) → (⟨S1024x3x512, .f32⟩ : BufTy).Contents (Elt F) → (⟨S1024x3x512, .f32⟩ : BufTy).Contents (Elt F)),
    TRef.binary (TRef.of (T := ⟨S1024x3x512, .f32⟩) main_v8) (TRef.of (T := ⟨S1024x3x512, .f32⟩) main_v8) (TRef.of (T := ⟨S1024x3x512, .f32⟩) main_call1_v0) mulf,
    TRef.nullary (TRef.of (T := ⟨S_, .f32⟩) main_call1_cst) (constant S_ .f32 0x00000000#32),
    TRef.binary (TRef.of (T := ⟨S1024x3x512, .f32⟩) main_call1_v0) (TRef.of (T := ⟨S_, .f32⟩) main_call1_cst) (TRef.of (T := ⟨S1024x3, .f32⟩) main_call1_v1) (fun x v => Host.reduceAdd x v reducesTo_S1024x3x512_S1024x3_d2 h_S_),
    TRef.unary (TRef.of (T := ⟨S1024x3, .f32⟩) main_call1_v1) (TRef.of (T := ⟨S1024x3x1, .f32⟩) main_call1_v2) (broadcastInDim S1024x3x1 ![0, 1] bcast_S1024x3_S1024x3x1_0_1),
    TRef.unary (TRef.of (T := ⟨S1024x3x1, .f32⟩) main_call1_v2) (TRef.of (T := ⟨S1024x3x1, .f32⟩) main_v9) Host.sqrt,
    nullary main_cst_2 (constant S_ .f32 0x2B8CBCCC#32),
    unary main_cst_2 main_v10 (broadcastInDim S1024x3x1 ![] bcast_S_S1024x3x1 : (⟨S_, .f32⟩ : BufTy).Contents (Elt F) → (⟨S1024x3x1, .f32⟩ : BufTy).Contents (Elt F)),
    binary main_v9 main_v10 main_v11 (maximumf : (⟨S1024x3x1, .f32⟩ : BufTy).Contents (Elt F) → (⟨S1024x3x1, .f32⟩ : BufTy).Contents (Elt F) → (⟨S1024x3x1, .f32⟩ : BufTy).Contents (Elt F)),
    unary main_v11 main_v12 (broadcastInDim S1024x3x512 ![0, 1, 2] bcast_S1024x3x1_S1024x3x512_0_1_2 : (⟨S1024x3x1, .f32⟩ : BufTy).Contents (Elt F) → (⟨S1024x3x512, .f32⟩ : BufTy).Contents (Elt F)),
    binary main_v8 main_v12 main_v13 (Host.divf : (⟨S1024x3x512, .f32⟩ : BufTy).Contents (Elt F) → (⟨S1024x3x512, .f32⟩ : BufTy).Contents (Elt F) → (⟨S1024x3x512, .f32⟩ : BufTy).Contents (Elt F)),
    reshape main_v13 main_v14 rfl shapeCasts_S1024x3x512_S3072x512,
    nullary main_cst_3 (constant S_ .f32 0x322BCC77#32),
    unary main_cst_3 main_v15 (broadcastInDim S1024x3x512 ![] bcast_S_S1024x3x512 : (⟨S_, .f32⟩ : BufTy).Contents (Elt F) → (⟨S1024x3x512, .f32⟩ : BufTy).Contents (Elt F)),
    binary main_arg2 main_v15 main_v16 (addf : (⟨S1024x3x512, .f32⟩ : BufTy).Contents (Elt F) → (⟨S1024x3x512, .f32⟩ : BufTy).Contents (Elt F) → (⟨S1024x3x512, .f32⟩ : BufTy).Contents (Elt F)),
    TRef.binary (TRef.of (T := ⟨S1024x3x512, .f32⟩) main_v16) (TRef.of (T := ⟨S1024x3x512, .f32⟩) main_v16) (TRef.of (T := ⟨S1024x3x512, .f32⟩) main_call2_v0) mulf,
    TRef.nullary (TRef.of (T := ⟨S_, .f32⟩) main_call2_cst) (constant S_ .f32 0x00000000#32),
    TRef.binary (TRef.of (T := ⟨S1024x3x512, .f32⟩) main_call2_v0) (TRef.of (T := ⟨S_, .f32⟩) main_call2_cst) (TRef.of (T := ⟨S1024x3, .f32⟩) main_call2_v1) (fun x v => Host.reduceAdd x v reducesTo_S1024x3x512_S1024x3_d2 h_S_),
    TRef.unary (TRef.of (T := ⟨S1024x3, .f32⟩) main_call2_v1) (TRef.of (T := ⟨S1024x3x1, .f32⟩) main_call2_v2) (broadcastInDim S1024x3x1 ![0, 1] bcast_S1024x3_S1024x3x1_0_1),
    TRef.unary (TRef.of (T := ⟨S1024x3x1, .f32⟩) main_call2_v2) (TRef.of (T := ⟨S1024x3x1, .f32⟩) main_v17) Host.sqrt,
    nullary main_cst_4 (constant S_ .f32 0x2B8CBCCC#32),
    unary main_cst_4 main_v18 (broadcastInDim S1024x3x1 ![] bcast_S_S1024x3x1 : (⟨S_, .f32⟩ : BufTy).Contents (Elt F) → (⟨S1024x3x1, .f32⟩ : BufTy).Contents (Elt F)),
    binary main_v17 main_v18 main_v19 (maximumf : (⟨S1024x3x1, .f32⟩ : BufTy).Contents (Elt F) → (⟨S1024x3x1, .f32⟩ : BufTy).Contents (Elt F) → (⟨S1024x3x1, .f32⟩ : BufTy).Contents (Elt F)),
    unary main_v19 main_v20 (broadcastInDim S1024x3x512 ![0, 1, 2] bcast_S1024x3x1_S1024x3x512_0_1_2 : (⟨S1024x3x1, .f32⟩ : BufTy).Contents (Elt F) → (⟨S1024x3x512, .f32⟩ : BufTy).Contents (Elt F)),
    binary main_v16 main_v20 main_v21 (Host.divf : (⟨S1024x3x512, .f32⟩ : BufTy).Contents (Elt F) → (⟨S1024x3x512, .f32⟩ : BufTy).Contents (Elt F) → (⟨S1024x3x512, .f32⟩ : BufTy).Contents (Elt F)),
    reshape main_v21 main_v22 rfl shapeCasts_S1024x3x512_S3072x512,
    nary ![main_v6, main_v14, main_v22] main_v23 (fun u => concatenate S7168x512 0 [⟨S1024x512, u 0⟩, ⟨S3072x512, u 1⟩, ⟨S3072x512, u 2⟩] concatenates_S1024x512_S3072x512_S3072x512_S7168x512_d0),
    unary main_arg3 main_v24 (broadcastInDim S1024x3 ![0] bcast_S1024_S1024x3_0 : (⟨S1024, .i32⟩ : BufTy).Contents (Elt F) → (⟨S1024x3, .i32⟩ : BufTy).Contents (Elt F)),
    reshape main_v24 main_v25 rfl shapeCasts_S1024x3_S3072,
    nullary main_c (constantI S_ 32 100000#32),
    unary main_c main_v26 (broadcastInDim S1024 ![] bcast_S_S1024 : (⟨S_, .i32⟩ : BufTy).Contents (Elt F) → (⟨S1024, .i32⟩ : BufTy).Contents (Elt F)),
    binary main_arg3 main_v26 main_v27 (addi : (⟨S1024, .i32⟩ : BufTy).Contents (Elt F) → (⟨S1024, .i32⟩ : BufTy).Contents (Elt F) → (⟨S1024, .i32⟩ : BufTy).Contents (Elt F)),
    unary main_v27 main_v28 (broadcastInDim S1024x3 ![0] bcast_S1024_S1024x3_0 : (⟨S1024, .i32⟩ : BufTy).Contents (Elt F) → (⟨S1024x3, .i32⟩ : BufTy).Contents (Elt F)),
    reshape main_v28 main_v29 rfl shapeCasts_S1024x3_S3072,
    nary ![main_arg3, main_v25, main_v29] main_v30 (fun u => concatenate S7168 0 [⟨S1024, u 0⟩, ⟨S3072, u 1⟩, ⟨S3072, u 2⟩] concatenates_S1024_S3072_S3072_S7168_d0),
    unary main_v23 main_v31 ((transpose S512x7168 [1, 0] · transposes_S7168x512_S512x7168_1_0) : (⟨S7168x512, .f32⟩ : BufTy).Contents (Elt F) → (⟨S512x7168, .f32⟩ : BufTy).Contents (Elt F)),
    binary main_v23 main_v31 main_v32 ((fun l r => Host.dotGeneral dot_S7168x512_S512x7168_S7168x7168_1_0_0_1_n_n none l r) : (⟨S7168x512, .f32⟩ : BufTy).Contents (Elt F) → (⟨S512x7168, .f32⟩ : BufTy).Contents (Elt F) → (⟨S7168x7168, .f32⟩ : BufTy).Contents (Elt F)),
    nullary main_cst_5 (constant S_ .f32 0x3D8F5C29#32),
    unary main_cst_5 main_v33 (broadcastInDim S7168x7168 ![] bcast_S_S7168x7168 : (⟨S_, .f32⟩ : BufTy).Contents (Elt F) → (⟨S7168x7168, .f32⟩ : BufTy).Contents (Elt F)),
    binary main_v32 main_v33 main_v34 (Host.divf : (⟨S7168x7168, .f32⟩ : BufTy).Contents (Elt F) → (⟨S7168x7168, .f32⟩ : BufTy).Contents (Elt F) → (⟨S7168x7168, .f32⟩ : BufTy).Contents (Elt F)),
    unary main_v30 main_v35 (broadcastInDim S1x7168 ![1] bcast_S7168_S1x7168_1 : (⟨S7168, .i32⟩ : BufTy).Contents (Elt F) → (⟨S1x7168, .i32⟩ : BufTy).Contents (Elt F)),
    unary main_v30 main_v36 (broadcastInDim S7168x1 ![0] bcast_S7168_S7168x1_0 : (⟨S7168, .i32⟩ : BufTy).Contents (Elt F) → (⟨S7168x1, .i32⟩ : BufTy).Contents (Elt F)),
    unary main_v35 main_v37 (broadcastInDim S7168x7168 ![0, 1] bcast_S1x7168_S7168x7168_0_1 : (⟨S1x7168, .i32⟩ : BufTy).Contents (Elt F) → (⟨S7168x7168, .i32⟩ : BufTy).Contents (Elt F)),
    unary main_v36 main_v38 (broadcastInDim S7168x7168 ![0, 1] bcast_S7168x1_S7168x7168_0_1 : (⟨S7168x1, .i32⟩ : BufTy).Contents (Elt F) → (⟨S7168x7168, .i32⟩ : BufTy).Contents (Elt F)),
    binary main_v37 main_v38 main_v39 (cmpi .eq : (⟨S7168x7168, .i32⟩ : BufTy).Contents (Elt F) → (⟨S7168x7168, .i32⟩ : BufTy).Contents (Elt F) → (⟨S7168x7168, .i1⟩ : BufTy).Contents (Elt F)),
    nullary main_v40 (iotaInDim S7168x7168 32 0),
    nullary main_v41 (iotaInDim S7168x7168 32 1),
    nullary main_c_6 (constantI S_ 32 0#32),
    unary main_c_6 main_v42 (broadcastInDim S7168x7168 ![] bcast_S_S7168x7168 : (⟨S_, .i32⟩ : BufTy).Contents (Elt F) → (⟨S7168x7168, .i32⟩ : BufTy).Contents (Elt F)),
    binary main_v40 main_v42 main_v43 (addi : (⟨S7168x7168, .i32⟩ : BufTy).Contents (Elt F) → (⟨S7168x7168, .i32⟩ : BufTy).Contents (Elt F) → (⟨S7168x7168, .i32⟩ : BufTy).Contents (Elt F)),
    binary main_v43 main_v41 main_v44 (cmpi .eq : (⟨S7168x7168, .i32⟩ : BufTy).Contents (Elt F) → (⟨S7168x7168, .i32⟩ : BufTy).Contents (Elt F) → (⟨S7168x7168, .i1⟩ : BufTy).Contents (Elt F)),
    unary main_v44 main_v45 (noti : (⟨S7168x7168, .i1⟩ : BufTy).Contents (Elt F) → (⟨S7168x7168, .i1⟩ : BufTy).Contents (Elt F)),
    binary main_v39 main_v45 main_v46 (andi : (⟨S7168x7168, .i1⟩ : BufTy).Contents (Elt F) → (⟨S7168x7168, .i1⟩ : BufTy).Contents (Elt F) → (⟨S7168x7168, .i1⟩ : BufTy).Contents (Elt F)),
    unary main_v39 main_v47 (noti : (⟨S7168x7168, .i1⟩ : BufTy).Contents (Elt F) → (⟨S7168x7168, .i1⟩ : BufTy).Contents (Elt F)),
    unary main_v44 main_v48 (noti : (⟨S7168x7168, .i1⟩ : BufTy).Contents (Elt F) → (⟨S7168x7168, .i1⟩ : BufTy).Contents (Elt F)),
    binary main_v47 main_v48 main_v49 (andi : (⟨S7168x7168, .i1⟩ : BufTy).Contents (Elt F) → (⟨S7168x7168, .i1⟩ : BufTy).Contents (Elt F) → (⟨S7168x7168, .i1⟩ : BufTy).Contents (Elt F)),
    unary main_v34 main_v50 (Host.exp : (⟨S7168x7168, .f32⟩ : BufTy).Contents (Elt F) → (⟨S7168x7168, .f32⟩ : BufTy).Contents (Elt F)),
    binary main_v46 main_v49 main_v51 (ori : (⟨S7168x7168, .i1⟩ : BufTy).Contents (Elt F) → (⟨S7168x7168, .i1⟩ : BufTy).Contents (Elt F) → (⟨S7168x7168, .i1⟩ : BufTy).Contents (Elt F)),
    nullary main_cst_7 (constant S_ .f32 0x00000000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S7168x7168, .f32⟩) main_call3_v1) (broadcastInDim S7168x7168 ![] bcast_S_S7168x7168),
    TRef.ternary (TRef.of (T := ⟨S7168x7168, .i1⟩) main_v51) (TRef.of (T := ⟨S7168x7168, .f32⟩) main_v50) (TRef.of (T := ⟨S7168x7168, .f32⟩) main_call3_v1) (TRef.of (T := ⟨S7168x7168, .f32⟩) main_v52) select,
    nullary main_cst_8 (constant S_ .f32 0x00000000#32),
    binary main_v52 main_cst_8 main_v53 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)),
    unary main_v46 main_v54 ((extui 32 · natLt_1_32) : (⟨S7168x7168, .i1⟩ : BufTy).Contents (Elt F) → (⟨S7168x7168, .i32⟩ : BufTy).Contents (Elt F)),
    nullary main_c_9 (constantI S_ 32 0#32),
    binary main_v54 main_c_9 main_v55 ((fun x v => Host.reduce IntOp.addi x v reducesTo_S7168x7168_S7168_d1 h_S_) : (⟨S7168x7168, .i32⟩ : BufTy).Contents (Elt F) → (⟨S_, .i32⟩ : BufTy).Contents (Elt F) → (⟨S7168, .i32⟩ : BufTy).Contents (Elt F)),
    unary main_v49 main_v56 ((extui 32 · natLt_1_32) : (⟨S7168x7168, .i1⟩ : BufTy).Contents (Elt F) → (⟨S7168x7168, .i32⟩ : BufTy).Contents (Elt F)),
    nullary main_c_10 (constantI S_ 32 0#32),
    binary main_v56 main_c_10 main_v57 ((fun x v => Host.reduce IntOp.addi x v reducesTo_S7168x7168_S7168_d1 h_S_) : (⟨S7168x7168, .i32⟩ : BufTy).Contents (Elt F) → (⟨S_, .i32⟩ : BufTy).Contents (Elt F) → (⟨S7168, .i32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S7168x7168, .f32⟩) main_call4_v1) (broadcastInDim S7168x7168 ![] bcast_S_S7168x7168),
    TRef.ternary (TRef.of (T := ⟨S7168x7168, .i1⟩) main_v46) (TRef.of (T := ⟨S7168x7168, .f32⟩) main_v34) (TRef.of (T := ⟨S7168x7168, .f32⟩) main_call4_v1) (TRef.of (T := ⟨S7168x7168, .f32⟩) main_v58) select,
    nullary main_cst_12 (constant S_ .f32 0x00000000#32),
    binary main_v58 main_cst_12 main_v59 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)),
    unary main_v53 main_v60 (Host.log : (⟨S7168, .f32⟩ : BufTy).Contents (Elt F) → (⟨S7168, .f32⟩ : BufTy).Contents (Elt F)),
    nullary main_c_13 (constantI S_ 32 1#32),
    unary main_c_13 main_v61 (broadcastInDim S7168 ![] bcast_S_S7168 : (⟨S_, .i32⟩ : BufTy).Contents (Elt F) → (⟨S7168, .i32⟩ : BufTy).Contents (Elt F)),
    binary main_v55 main_v61 main_v62 (maxsi : (⟨S7168, .i32⟩ : BufTy).Contents (Elt F) → (⟨S7168, .i32⟩ : BufTy).Contents (Elt F) → (⟨S7168, .i32⟩ : BufTy).Contents (Elt F)),
    unary main_v62 main_v63 (sitofp .f32 : (⟨S7168, .i32⟩ : BufTy).Contents (Elt F) → (⟨S7168, .f32⟩ : BufTy).Contents (Elt F)),
    binary main_v59 main_v63 main_v64 (Host.divf : (⟨S7168, .f32⟩ : BufTy).Contents (Elt F) → (⟨S7168, .f32⟩ : BufTy).Contents (Elt F) → (⟨S7168, .f32⟩ : BufTy).Contents (Elt F)),
    binary main_v60 main_v64 main_v65 (subf : (⟨S7168, .f32⟩ : BufTy).Contents (Elt F) → (⟨S7168, .f32⟩ : BufTy).Contents (Elt F) → (⟨S7168, .f32⟩ : BufTy).Contents (Elt F)),
    nullary main_cst_14 (constant S_ .f32 0x3E4CCCCD#32),
    unary main_cst_14 main_v66 (broadcastInDim S7168x7168 ![] bcast_S_S7168x7168 : (⟨S_, .f32⟩ : BufTy).Contents (Elt F) → (⟨S7168x7168, .f32⟩ : BufTy).Contents (Elt F)),
    binary main_v34 main_v66 main_v67 (addf : (⟨S7168x7168, .f32⟩ : BufTy).Contents (Elt F) → (⟨S7168x7168, .f32⟩ : BufTy).Contents (Elt F) → (⟨S7168x7168, .f32⟩ : BufTy).Contents (Elt F)),
    nullary main_cst_15 (constant S_ .f32 0x00000000#32),
    unary main_cst_15 main_v68 (broadcastInDim S7168x7168 ![] bcast_S_S7168x7168 : (⟨S_, .f32⟩ : BufTy).Contents (Elt F) → (⟨S7168x7168, .f32⟩ : BufTy).Contents (Elt F)),
    binary main_v67 main_v68 main_v69 (maximumf : (⟨S7168x7168, .f32⟩ : BufTy).Contents (Elt F) → (⟨S7168x7168, .f32⟩ : BufTy).Contents (Elt F) → (⟨S7168x7168, .f32⟩ : BufTy).Contents (Elt F)),
    nullary main_cst_16 (constant S_ .f32 0x00000000#32),
    TRef.unary (TRef.of (T := ⟨S_, .f32⟩) main_cst_16) (TRef.of (T := ⟨S_, .f32⟩) main_call5_v0) id,
    TRef.unary (TRef.of (T := ⟨S_, .f32⟩) main_call5_v0) (TRef.of (T := ⟨S7168x7168, .f32⟩) main_call5_v1) (broadcastInDim S7168x7168 ![] bcast_S_S7168x7168),
    TRef.ternary (TRef.of (T := ⟨S7168x7168, .i1⟩) main_v49) (TRef.of (T := ⟨S7168x7168, .f32⟩) main_v69) (TRef.of (T := ⟨S7168x7168, .f32⟩) main_call5_v1) (TRef.of (T := ⟨S7168x7168, .f32⟩) main_v70) select,
    nullary main_cst_17 (constant S_ .f32 0x00000000#32),
    binary main_v70 main_cst_17 main_v71 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)),
    nullary main_c_18 (constantI S_ 32 1#32),
    unary main_c_18 main_v72 (broadcastInDim S7168 ![] bcast_S_S7168 : (⟨S_, .i32⟩ : BufTy).Contents (Elt F) → (⟨S7168, .i32⟩ : BufTy).Contents (Elt F)),
    binary main_v57 main_v72 main_v73 (maxsi : (⟨S7168, .i32⟩ : BufTy).Contents (Elt F) → (⟨S7168, .i32⟩ : BufTy).Contents (Elt F) → (⟨S7168, .i32⟩ : BufTy).Contents (Elt F)),
    unary main_v73 main_v74 (sitofp .f32 : (⟨S7168, .i32⟩ : BufTy).Contents (Elt F) → (⟨S7168, .f32⟩ : BufTy).Contents (Elt F)),
    binary main_v71 main_v74 main_v75 (Host.divf : (⟨S7168, .f32⟩ : BufTy).Contents (Elt F) → (⟨S7168, .f32⟩ : BufTy).Contents (Elt F) → (⟨S7168, .f32⟩ : BufTy).Contents (Elt F)),
    nullary main_c_19 (constantI S_ 32 0#32),
    unary main_c_19 main_v76 (broadcastInDim S7168 ![] bcast_S_S7168 : (⟨S_, .i32⟩ : BufTy).Contents (Elt F) → (⟨S7168, .i32⟩ : BufTy).Contents (Elt F)),
    binary main_v55 main_v76 main_v77 (cmpi .sgt : (⟨S7168, .i32⟩ : BufTy).Contents (Elt F) → (⟨S7168, .i32⟩ : BufTy).Contents (Elt F) → (⟨S7168, .i1⟩ : BufTy).Contents (Elt F)),
    nullary main_c_20 (constantI S_ 32 0#32),
    unary main_c_20 main_v78 (broadcastInDim S7168 ![] bcast_S_S7168 : (⟨S_, .i32⟩ : BufTy).Contents (Elt F) → (⟨S7168, .i32⟩ : BufTy).Contents (Elt F)),
    binary main_v57 main_v78 main_v79 (cmpi .sgt : (⟨S7168, .i32⟩ : BufTy).Contents (Elt F) → (⟨S7168, .i32⟩ : BufTy).Contents (Elt F) → (⟨S7168, .i1⟩ : BufTy).Contents (Elt F)),
    binary main_v77 main_v79 main_v80 (andi : (⟨S7168, .i1⟩ : BufTy).Contents (Elt F) → (⟨S7168, .i1⟩ : BufTy).Contents (Elt F) → (⟨S7168, .i1⟩ : BufTy).Contents (Elt F)),
    unary main_v80 main_v81 ((extui 32 · natLt_1_32) : (⟨S7168, .i1⟩ : BufTy).Contents (Elt F) → (⟨S7168, .i32⟩ : BufTy).Contents (Elt F)),
    nullary main_c_21 (constantI S_ 32 0#32),
    binary main_v81 main_c_21 main_v82 ((fun x v => Host.reduce IntOp.addi x v reducesTo_S7168_S_d0 h_S_) : (⟨S7168, .i32⟩ : BufTy).Contents (Elt F) → (⟨S_, .i32⟩ : BufTy).Contents (Elt F) → (⟨S_, .i32⟩ : BufTy).Contents (Elt F)),
    binary main_v65 main_v75 main_v83 (addf : (⟨S7168, .f32⟩ : BufTy).Contents (Elt F) → (⟨S7168, .f32⟩ : BufTy).Contents (Elt F) → (⟨S7168, .f32⟩ : BufTy).Contents (Elt F)),
    nullary main_cst_22 (constant S_ .f32 0x00000000#32),
    TRef.unary (TRef.of (T := ⟨S_, .f32⟩) main_cst_22) (TRef.of (T := ⟨S_, .f32⟩) main_call6_v0) id,
    TRef.unary (TRef.of (T := ⟨S_, .f32⟩) main_call6_v0) (TRef.of (T := ⟨S7168, .f32⟩) main_call6_v1) (broadcastInDim S7168 ![] bcast_S_S7168),
    TRef.ternary (TRef.of (T := ⟨S7168, .i1⟩) main_v80) (TRef.of (T := ⟨S7168, .f32⟩) main_v83) (TRef.of (T := ⟨S7168, .f32⟩) main_call6_v1) (TRef.of (T := ⟨S7168, .f32⟩) main_v84) select,
    nullary main_cst_23 (constant S_ .f32 0x00000000#32),
    binary main_v84 main_cst_23 main_v85 ((fun x v => Host.reduceAdd x v reducesTo_S7168_S_d0 h_S_) : (⟨S7168, .f32⟩ : BufTy).Contents (Elt F) → (⟨S_, .f32⟩ : BufTy).Contents (Elt F) → (⟨S_, .f32⟩ : BufTy).Contents (Elt F)),
    nullary main_c_24 (constantI S_ 32 0#32),
    binary main_v82 main_c_24 main_v86 (cmpi .sgt : (⟨S_, .i32⟩ : BufTy).Contents (Elt F) → (⟨S_, .i32⟩ : BufTy).Contents (Elt F) → (⟨S_, .i1⟩ : BufTy).Contents (Elt F)),
    nullary main_c_25 (constantI S_ 32 1#32),
    binary main_v82 main_c_25 main_v87 (maxsi : (⟨S_, .i32⟩ : BufTy).Contents (Elt F) → (⟨S_, .i32⟩ : BufTy).Contents (Elt F) → (⟨S_, .i32⟩ : BufTy).Contents (Elt F)),
    unary main_v87 main_v88 (sitofp .f32 : (⟨S_, .i32⟩ : BufTy).Contents (Elt F) → (⟨S_, .f32⟩ : BufTy).Contents (Elt F)),
    binary main_v85 main_v88 main_v89 (Host.divf : (⟨S_, .f32⟩ : BufTy).Contents (Elt F) → (⟨S_, .f32⟩ : BufTy).Contents (Elt F) → (⟨S_, .f32⟩ : BufTy).Contents (Elt F)),
    nullary main_cst_26 (constant S_ .f32 0x00000000#32),
    TRef.unary (TRef.of (T := ⟨S_, .f32⟩) main_cst_26) (TRef.of (T := ⟨S_, .f32⟩) main_call7_v0) id,
    TRef.ternary (TRef.of (T := ⟨S_, .i1⟩) main_v86) (TRef.of (T := ⟨S_, .f32⟩) main_v89) (TRef.of (T := ⟨S_, .f32⟩) main_call7_v0) (TRef.of (T := ⟨S_, .f32⟩) main_v90) select ]

/-- Operations 1 to 50: the three arguments normalised and joined into the table; the words joined. -/
abbrev s1 : List (HloOp τ sig (Elt F)) :=
  [ nullary main_cst (constant S_ .f32 0x322BCC77#32),
    unary main_cst main_v0 (broadcastInDim S1024x512 ![] bcast_S_S1024x512 : (⟨S_, .f32⟩ : BufTy).Contents (Elt F) → (⟨S1024x512, .f32⟩ : BufTy).Contents (Elt F)),
    binary main_arg0 main_v0 main_v1 (addf : (⟨S1024x512, .f32⟩ : BufTy).Contents (Elt F) → (⟨S1024x512, .f32⟩ : BufTy).Contents (Elt F) → (⟨S1024x512, .f32⟩ : BufTy).Contents (Elt F)),
    TRef.binary (TRef.of (T := ⟨S1024x512, .f32⟩) main_v1) (TRef.of (T := ⟨S1024x512, .f32⟩) main_v1) (TRef.of (T := ⟨S1024x512, .f32⟩) main_call0_v0) mulf,
    TRef.nullary (TRef.of (T := ⟨S_, .f32⟩) main_call0_cst) (constant S_ .f32 0x00000000#32),
    TRef.binary (TRef.of (T := ⟨S1024x512, .f32⟩) main_call0_v0) (TRef.of (T := ⟨S_, .f32⟩) main_call0_cst) (TRef.of (T := ⟨S1024, .f32⟩) main_call0_v1) (fun x v => Host.reduceAdd x v reducesTo_S1024x512_S1024_d1 h_S_),
    TRef.unary (TRef.of (T := ⟨S1024, .f32⟩) main_call0_v1) (TRef.of (T := ⟨S1024x1, .f32⟩) main_call0_v2) (broadcastInDim S1024x1 ![0] bcast_S1024_S1024x1_0),
    TRef.unary (TRef.of (T := ⟨S1024x1, .f32⟩) main_call0_v2) (TRef.of (T := ⟨S1024x1, .f32⟩) main_v2) Host.sqrt,
    nullary main_cst_0 (constant S_ .f32 0x2B8CBCCC#32),
    unary main_cst_0 main_v3 (broadcastInDim S1024x1 ![] bcast_S_S1024x1 : (⟨S_, .f32⟩ : BufTy).Contents (Elt F) → (⟨S1024x1, .f32⟩ : BufTy).Contents (Elt F)),
    binary main_v2 main_v3 main_v4 (maximumf : (⟨S1024x1, .f32⟩ : BufTy).Contents (Elt F) → (⟨S1024x1, .f32⟩ : BufTy).Contents (Elt F) → (⟨S1024x1, .f32⟩ : BufTy).Contents (Elt F)),
    unary main_v4 main_v5 (broadcastInDim S1024x512 ![0, 1] bcast_S1024x1_S1024x512_0_1 : (⟨S1024x1, .f32⟩ : BufTy).Contents (Elt F) → (⟨S1024x512, .f32⟩ : BufTy).Contents (Elt F)),
    binary main_v1 main_v5 main_v6 (Host.divf : (⟨S1024x512, .f32⟩ : BufTy).Contents (Elt F) → (⟨S1024x512, .f32⟩ : BufTy).Contents (Elt F) → (⟨S1024x512, .f32⟩ : BufTy).Contents (Elt F)),
    nullary main_cst_1 (constant S_ .f32 0x322BCC77#32),
    unary main_cst_1 main_v7 (broadcastInDim S1024x3x512 ![] bcast_S_S1024x3x512 : (⟨S_, .f32⟩ : BufTy).Contents (Elt F) → (⟨S1024x3x512, .f32⟩ : BufTy).Contents (Elt F)),
    binary main_arg1 main_v7 main_v8 (addf : (⟨S1024x3x512, .f32⟩ : BufTy).Contents (Elt F) → (⟨S1024x3x512, .f32⟩ : BufTy).Contents (Elt F) → (⟨S1024x3x512, .f32⟩ : BufTy).Contents (Elt F)),
    TRef.binary (TRef.of (T := ⟨S1024x3x512, .f32⟩) main_v8) (TRef.of (T := ⟨S1024x3x512, .f32⟩) main_v8) (TRef.of (T := ⟨S1024x3x512, .f32⟩) main_call1_v0) mulf,
    TRef.nullary (TRef.of (T := ⟨S_, .f32⟩) main_call1_cst) (constant S_ .f32 0x00000000#32),
    TRef.binary (TRef.of (T := ⟨S1024x3x512, .f32⟩) main_call1_v0) (TRef.of (T := ⟨S_, .f32⟩) main_call1_cst) (TRef.of (T := ⟨S1024x3, .f32⟩) main_call1_v1) (fun x v => Host.reduceAdd x v reducesTo_S1024x3x512_S1024x3_d2 h_S_),
    TRef.unary (TRef.of (T := ⟨S1024x3, .f32⟩) main_call1_v1) (TRef.of (T := ⟨S1024x3x1, .f32⟩) main_call1_v2) (broadcastInDim S1024x3x1 ![0, 1] bcast_S1024x3_S1024x3x1_0_1),
    TRef.unary (TRef.of (T := ⟨S1024x3x1, .f32⟩) main_call1_v2) (TRef.of (T := ⟨S1024x3x1, .f32⟩) main_v9) Host.sqrt,
    nullary main_cst_2 (constant S_ .f32 0x2B8CBCCC#32),
    unary main_cst_2 main_v10 (broadcastInDim S1024x3x1 ![] bcast_S_S1024x3x1 : (⟨S_, .f32⟩ : BufTy).Contents (Elt F) → (⟨S1024x3x1, .f32⟩ : BufTy).Contents (Elt F)),
    binary main_v9 main_v10 main_v11 (maximumf : (⟨S1024x3x1, .f32⟩ : BufTy).Contents (Elt F) → (⟨S1024x3x1, .f32⟩ : BufTy).Contents (Elt F) → (⟨S1024x3x1, .f32⟩ : BufTy).Contents (Elt F)),
    unary main_v11 main_v12 (broadcastInDim S1024x3x512 ![0, 1, 2] bcast_S1024x3x1_S1024x3x512_0_1_2 : (⟨S1024x3x1, .f32⟩ : BufTy).Contents (Elt F) → (⟨S1024x3x512, .f32⟩ : BufTy).Contents (Elt F)),
    binary main_v8 main_v12 main_v13 (Host.divf : (⟨S1024x3x512, .f32⟩ : BufTy).Contents (Elt F) → (⟨S1024x3x512, .f32⟩ : BufTy).Contents (Elt F) → (⟨S1024x3x512, .f32⟩ : BufTy).Contents (Elt F)),
    reshape main_v13 main_v14 rfl shapeCasts_S1024x3x512_S3072x512,
    nullary main_cst_3 (constant S_ .f32 0x322BCC77#32),
    unary main_cst_3 main_v15 (broadcastInDim S1024x3x512 ![] bcast_S_S1024x3x512 : (⟨S_, .f32⟩ : BufTy).Contents (Elt F) → (⟨S1024x3x512, .f32⟩ : BufTy).Contents (Elt F)),
    binary main_arg2 main_v15 main_v16 (addf : (⟨S1024x3x512, .f32⟩ : BufTy).Contents (Elt F) → (⟨S1024x3x512, .f32⟩ : BufTy).Contents (Elt F) → (⟨S1024x3x512, .f32⟩ : BufTy).Contents (Elt F)),
    TRef.binary (TRef.of (T := ⟨S1024x3x512, .f32⟩) main_v16) (TRef.of (T := ⟨S1024x3x512, .f32⟩) main_v16) (TRef.of (T := ⟨S1024x3x512, .f32⟩) main_call2_v0) mulf,
    TRef.nullary (TRef.of (T := ⟨S_, .f32⟩) main_call2_cst) (constant S_ .f32 0x00000000#32),
    TRef.binary (TRef.of (T := ⟨S1024x3x512, .f32⟩) main_call2_v0) (TRef.of (T := ⟨S_, .f32⟩) main_call2_cst) (TRef.of (T := ⟨S1024x3, .f32⟩) main_call2_v1) (fun x v => Host.reduceAdd x v reducesTo_S1024x3x512_S1024x3_d2 h_S_),
    TRef.unary (TRef.of (T := ⟨S1024x3, .f32⟩) main_call2_v1) (TRef.of (T := ⟨S1024x3x1, .f32⟩) main_call2_v2) (broadcastInDim S1024x3x1 ![0, 1] bcast_S1024x3_S1024x3x1_0_1),
    TRef.unary (TRef.of (T := ⟨S1024x3x1, .f32⟩) main_call2_v2) (TRef.of (T := ⟨S1024x3x1, .f32⟩) main_v17) Host.sqrt,
    nullary main_cst_4 (constant S_ .f32 0x2B8CBCCC#32),
    unary main_cst_4 main_v18 (broadcastInDim S1024x3x1 ![] bcast_S_S1024x3x1 : (⟨S_, .f32⟩ : BufTy).Contents (Elt F) → (⟨S1024x3x1, .f32⟩ : BufTy).Contents (Elt F)),
    binary main_v17 main_v18 main_v19 (maximumf : (⟨S1024x3x1, .f32⟩ : BufTy).Contents (Elt F) → (⟨S1024x3x1, .f32⟩ : BufTy).Contents (Elt F) → (⟨S1024x3x1, .f32⟩ : BufTy).Contents (Elt F)),
    unary main_v19 main_v20 (broadcastInDim S1024x3x512 ![0, 1, 2] bcast_S1024x3x1_S1024x3x512_0_1_2 : (⟨S1024x3x1, .f32⟩ : BufTy).Contents (Elt F) → (⟨S1024x3x512, .f32⟩ : BufTy).Contents (Elt F)),
    binary main_v16 main_v20 main_v21 (Host.divf : (⟨S1024x3x512, .f32⟩ : BufTy).Contents (Elt F) → (⟨S1024x3x512, .f32⟩ : BufTy).Contents (Elt F) → (⟨S1024x3x512, .f32⟩ : BufTy).Contents (Elt F)),
    reshape main_v21 main_v22 rfl shapeCasts_S1024x3x512_S3072x512,
    nary ![main_v6, main_v14, main_v22] main_v23 (fun u => concatenate S7168x512 0 [⟨S1024x512, u 0⟩, ⟨S3072x512, u 1⟩, ⟨S3072x512, u 2⟩] concatenates_S1024x512_S3072x512_S3072x512_S7168x512_d0),
    unary main_arg3 main_v24 (broadcastInDim S1024x3 ![0] bcast_S1024_S1024x3_0 : (⟨S1024, .i32⟩ : BufTy).Contents (Elt F) → (⟨S1024x3, .i32⟩ : BufTy).Contents (Elt F)),
    reshape main_v24 main_v25 rfl shapeCasts_S1024x3_S3072,
    nullary main_c (constantI S_ 32 100000#32),
    unary main_c main_v26 (broadcastInDim S1024 ![] bcast_S_S1024 : (⟨S_, .i32⟩ : BufTy).Contents (Elt F) → (⟨S1024, .i32⟩ : BufTy).Contents (Elt F)),
    binary main_arg3 main_v26 main_v27 (addi : (⟨S1024, .i32⟩ : BufTy).Contents (Elt F) → (⟨S1024, .i32⟩ : BufTy).Contents (Elt F) → (⟨S1024, .i32⟩ : BufTy).Contents (Elt F)),
    unary main_v27 main_v28 (broadcastInDim S1024x3 ![0] bcast_S1024_S1024x3_0 : (⟨S1024, .i32⟩ : BufTy).Contents (Elt F) → (⟨S1024x3, .i32⟩ : BufTy).Contents (Elt F)),
    reshape main_v28 main_v29 rfl shapeCasts_S1024x3_S3072,
    nary ![main_arg3, main_v25, main_v29] main_v30 (fun u => concatenate S7168 0 [⟨S1024, u 0⟩, ⟨S3072, u 1⟩, ⟨S3072, u 2⟩] concatenates_S1024_S3072_S3072_S7168_d0) ]

/-- Operations 51 to 79: the similarity, the masks, and the sum of the off-diagonal exponentials. -/
abbrev s2 : List (HloOp τ sig (Elt F)) :=
  [ unary main_v23 main_v31 ((transpose S512x7168 [1, 0] · transposes_S7168x512_S512x7168_1_0) : (⟨S7168x512, .f32⟩ : BufTy).Contents (Elt F) → (⟨S512x7168, .f32⟩ : BufTy).Contents (Elt F)),
    binary main_v23 main_v31 main_v32 ((fun l r => Host.dotGeneral dot_S7168x512_S512x7168_S7168x7168_1_0_0_1_n_n none l r) : (⟨S7168x512, .f32⟩ : BufTy).Contents (Elt F) → (⟨S512x7168, .f32⟩ : BufTy).Contents (Elt F) → (⟨S7168x7168, .f32⟩ : BufTy).Contents (Elt F)),
    nullary main_cst_5 (constant S_ .f32 0x3D8F5C29#32),
    unary main_cst_5 main_v33 (broadcastInDim S7168x7168 ![] bcast_S_S7168x7168 : (⟨S_, .f32⟩ : BufTy).Contents (Elt F) → (⟨S7168x7168, .f32⟩ : BufTy).Contents (Elt F)),
    binary main_v32 main_v33 main_v34 (Host.divf : (⟨S7168x7168, .f32⟩ : BufTy).Contents (Elt F) → (⟨S7168x7168, .f32⟩ : BufTy).Contents (Elt F) → (⟨S7168x7168, .f32⟩ : BufTy).Contents (Elt F)),
    unary main_v30 main_v35 (broadcastInDim S1x7168 ![1] bcast_S7168_S1x7168_1 : (⟨S7168, .i32⟩ : BufTy).Contents (Elt F) → (⟨S1x7168, .i32⟩ : BufTy).Contents (Elt F)),
    unary main_v30 main_v36 (broadcastInDim S7168x1 ![0] bcast_S7168_S7168x1_0 : (⟨S7168, .i32⟩ : BufTy).Contents (Elt F) → (⟨S7168x1, .i32⟩ : BufTy).Contents (Elt F)),
    unary main_v35 main_v37 (broadcastInDim S7168x7168 ![0, 1] bcast_S1x7168_S7168x7168_0_1 : (⟨S1x7168, .i32⟩ : BufTy).Contents (Elt F) → (⟨S7168x7168, .i32⟩ : BufTy).Contents (Elt F)),
    unary main_v36 main_v38 (broadcastInDim S7168x7168 ![0, 1] bcast_S7168x1_S7168x7168_0_1 : (⟨S7168x1, .i32⟩ : BufTy).Contents (Elt F) → (⟨S7168x7168, .i32⟩ : BufTy).Contents (Elt F)),
    binary main_v37 main_v38 main_v39 (cmpi .eq : (⟨S7168x7168, .i32⟩ : BufTy).Contents (Elt F) → (⟨S7168x7168, .i32⟩ : BufTy).Contents (Elt F) → (⟨S7168x7168, .i1⟩ : BufTy).Contents (Elt F)),
    nullary main_v40 (iotaInDim S7168x7168 32 0),
    nullary main_v41 (iotaInDim S7168x7168 32 1),
    nullary main_c_6 (constantI S_ 32 0#32),
    unary main_c_6 main_v42 (broadcastInDim S7168x7168 ![] bcast_S_S7168x7168 : (⟨S_, .i32⟩ : BufTy).Contents (Elt F) → (⟨S7168x7168, .i32⟩ : BufTy).Contents (Elt F)),
    binary main_v40 main_v42 main_v43 (addi : (⟨S7168x7168, .i32⟩ : BufTy).Contents (Elt F) → (⟨S7168x7168, .i32⟩ : BufTy).Contents (Elt F) → (⟨S7168x7168, .i32⟩ : BufTy).Contents (Elt F)),
    binary main_v43 main_v41 main_v44 (cmpi .eq : (⟨S7168x7168, .i32⟩ : BufTy).Contents (Elt F) → (⟨S7168x7168, .i32⟩ : BufTy).Contents (Elt F) → (⟨S7168x7168, .i1⟩ : BufTy).Contents (Elt F)),
    unary main_v44 main_v45 (noti : (⟨S7168x7168, .i1⟩ : BufTy).Contents (Elt F) → (⟨S7168x7168, .i1⟩ : BufTy).Contents (Elt F)),
    binary main_v39 main_v45 main_v46 (andi : (⟨S7168x7168, .i1⟩ : BufTy).Contents (Elt F) → (⟨S7168x7168, .i1⟩ : BufTy).Contents (Elt F) → (⟨S7168x7168, .i1⟩ : BufTy).Contents (Elt F)),
    unary main_v39 main_v47 (noti : (⟨S7168x7168, .i1⟩ : BufTy).Contents (Elt F) → (⟨S7168x7168, .i1⟩ : BufTy).Contents (Elt F)),
    unary main_v44 main_v48 (noti : (⟨S7168x7168, .i1⟩ : BufTy).Contents (Elt F) → (⟨S7168x7168, .i1⟩ : BufTy).Contents (Elt F)),
    binary main_v47 main_v48 main_v49 (andi : (⟨S7168x7168, .i1⟩ : BufTy).Contents (Elt F) → (⟨S7168x7168, .i1⟩ : BufTy).Contents (Elt F) → (⟨S7168x7168, .i1⟩ : BufTy).Contents (Elt F)),
    unary main_v34 main_v50 (Host.exp : (⟨S7168x7168, .f32⟩ : BufTy).Contents (Elt F) → (⟨S7168x7168, .f32⟩ : BufTy).Contents (Elt F)),
    binary main_v46 main_v49 main_v51 (ori : (⟨S7168x7168, .i1⟩ : BufTy).Contents (Elt F) → (⟨S7168x7168, .i1⟩ : BufTy).Contents (Elt F) → (⟨S7168x7168, .i1⟩ : BufTy).Contents (Elt F)),
    nullary main_cst_7 (constant S_ .f32 0x00000000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S7168x7168, .f32⟩) main_call3_v1) (broadcastInDim S7168x7168 ![] bcast_S_S7168x7168),
    TRef.ternary (TRef.of (T := ⟨S7168x7168, .i1⟩) main_v51) (TRef.of (T := ⟨S7168x7168, .f32⟩) main_v50) (TRef.of (T := ⟨S7168x7168, .f32⟩) main_call3_v1) (TRef.of (T := ⟨S7168x7168, .f32⟩) main_v52) select,
    nullary main_cst_8 (constant S_ .f32 0x00000000#32),
    binary main_v52 main_cst_8 main_v53 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)) ]

/-- Operations 80 to 110: the two counts, the sum of the positive similarities, the logarithm less the positive mean,
    and the sum of the clipped margins. -/
abbrev s3 : List (HloOp τ sig (Elt F)) :=
  [ unary main_v46 main_v54 ((extui 32 · natLt_1_32) : (⟨S7168x7168, .i1⟩ : BufTy).Contents (Elt F) → (⟨S7168x7168, .i32⟩ : BufTy).Contents (Elt F)),
    nullary main_c_9 (constantI S_ 32 0#32),
    binary main_v54 main_c_9 main_v55 ((fun x v => Host.reduce IntOp.addi x v reducesTo_S7168x7168_S7168_d1 h_S_) : (⟨S7168x7168, .i32⟩ : BufTy).Contents (Elt F) → (⟨S_, .i32⟩ : BufTy).Contents (Elt F) → (⟨S7168, .i32⟩ : BufTy).Contents (Elt F)),
    unary main_v49 main_v56 ((extui 32 · natLt_1_32) : (⟨S7168x7168, .i1⟩ : BufTy).Contents (Elt F) → (⟨S7168x7168, .i32⟩ : BufTy).Contents (Elt F)),
    nullary main_c_10 (constantI S_ 32 0#32),
    binary main_v56 main_c_10 main_v57 ((fun x v => Host.reduce IntOp.addi x v reducesTo_S7168x7168_S7168_d1 h_S_) : (⟨S7168x7168, .i32⟩ : BufTy).Contents (Elt F) → (⟨S_, .i32⟩ : BufTy).Contents (Elt F) → (⟨S7168, .i32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S7168x7168, .f32⟩) main_call4_v1) (broadcastInDim S7168x7168 ![] bcast_S_S7168x7168),
    TRef.ternary (TRef.of (T := ⟨S7168x7168, .i1⟩) main_v46) (TRef.of (T := ⟨S7168x7168, .f32⟩) main_v34) (TRef.of (T := ⟨S7168x7168, .f32⟩) main_call4_v1) (TRef.of (T := ⟨S7168x7168, .f32⟩) main_v58) select,
    nullary main_cst_12 (constant S_ .f32 0x00000000#32),
    binary main_v58 main_cst_12 main_v59 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)),
    unary main_v53 main_v60 (Host.log : (⟨S7168, .f32⟩ : BufTy).Contents (Elt F) → (⟨S7168, .f32⟩ : BufTy).Contents (Elt F)),
    nullary main_c_13 (constantI S_ 32 1#32),
    unary main_c_13 main_v61 (broadcastInDim S7168 ![] bcast_S_S7168 : (⟨S_, .i32⟩ : BufTy).Contents (Elt F) → (⟨S7168, .i32⟩ : BufTy).Contents (Elt F)),
    binary main_v55 main_v61 main_v62 (maxsi : (⟨S7168, .i32⟩ : BufTy).Contents (Elt F) → (⟨S7168, .i32⟩ : BufTy).Contents (Elt F) → (⟨S7168, .i32⟩ : BufTy).Contents (Elt F)),
    unary main_v62 main_v63 (sitofp .f32 : (⟨S7168, .i32⟩ : BufTy).Contents (Elt F) → (⟨S7168, .f32⟩ : BufTy).Contents (Elt F)),
    binary main_v59 main_v63 main_v64 (Host.divf : (⟨S7168, .f32⟩ : BufTy).Contents (Elt F) → (⟨S7168, .f32⟩ : BufTy).Contents (Elt F) → (⟨S7168, .f32⟩ : BufTy).Contents (Elt F)),
    binary main_v60 main_v64 main_v65 (subf : (⟨S7168, .f32⟩ : BufTy).Contents (Elt F) → (⟨S7168, .f32⟩ : BufTy).Contents (Elt F) → (⟨S7168, .f32⟩ : BufTy).Contents (Elt F)),
    nullary main_cst_14 (constant S_ .f32 0x3E4CCCCD#32),
    unary main_cst_14 main_v66 (broadcastInDim S7168x7168 ![] bcast_S_S7168x7168 : (⟨S_, .f32⟩ : BufTy).Contents (Elt F) → (⟨S7168x7168, .f32⟩ : BufTy).Contents (Elt F)),
    binary main_v34 main_v66 main_v67 (addf : (⟨S7168x7168, .f32⟩ : BufTy).Contents (Elt F) → (⟨S7168x7168, .f32⟩ : BufTy).Contents (Elt F) → (⟨S7168x7168, .f32⟩ : BufTy).Contents (Elt F)),
    nullary main_cst_15 (constant S_ .f32 0x00000000#32),
    unary main_cst_15 main_v68 (broadcastInDim S7168x7168 ![] bcast_S_S7168x7168 : (⟨S_, .f32⟩ : BufTy).Contents (Elt F) → (⟨S7168x7168, .f32⟩ : BufTy).Contents (Elt F)),
    binary main_v67 main_v68 main_v69 (maximumf : (⟨S7168x7168, .f32⟩ : BufTy).Contents (Elt F) → (⟨S7168x7168, .f32⟩ : BufTy).Contents (Elt F) → (⟨S7168x7168, .f32⟩ : BufTy).Contents (Elt F)),
    nullary main_cst_16 (constant S_ .f32 0x00000000#32),
    TRef.unary (TRef.of (T := ⟨S_, .f32⟩) main_cst_16) (TRef.of (T := ⟨S_, .f32⟩) main_call5_v0) id,
    TRef.unary (TRef.of (T := ⟨S_, .f32⟩) main_call5_v0) (TRef.of (T := ⟨S7168x7168, .f32⟩) main_call5_v1) (broadcastInDim S7168x7168 ![] bcast_S_S7168x7168),
    TRef.ternary (TRef.of (T := ⟨S7168x7168, .i1⟩) main_v49) (TRef.of (T := ⟨S7168x7168, .f32⟩) main_v69) (TRef.of (T := ⟨S7168x7168, .f32⟩) main_call5_v1) (TRef.of (T := ⟨S7168x7168, .f32⟩) main_v70) select,
    nullary main_cst_17 (constant S_ .f32 0x00000000#32),
    binary main_v70 main_cst_17 main_v71 ((fun x v => Host.reduceAdd x v reducesTo_S7168x7168_S7168_d1 h_S_) : (⟨S7168x7168, .f32⟩ : BufTy).Contents (Elt F) → (⟨S_, .f32⟩ : BufTy).Contents (Elt F) → (⟨S7168, .f32⟩ : BufTy).Contents (Elt F)) ]

/-- Operations 111 to 138: the margin mean, the rows that count, their number, the sum of their contributions, and the
    mean with the condition that some row counts. -/
abbrev s4 : List (HloOp τ sig (Elt F)) :=
  [ nullary main_c_18 (constantI S_ 32 1#32),
    unary main_c_18 main_v72 (broadcastInDim S7168 ![] bcast_S_S7168 : (⟨S_, .i32⟩ : BufTy).Contents (Elt F) → (⟨S7168, .i32⟩ : BufTy).Contents (Elt F)),
    binary main_v57 main_v72 main_v73 (maxsi : (⟨S7168, .i32⟩ : BufTy).Contents (Elt F) → (⟨S7168, .i32⟩ : BufTy).Contents (Elt F) → (⟨S7168, .i32⟩ : BufTy).Contents (Elt F)),
    unary main_v73 main_v74 (sitofp .f32 : (⟨S7168, .i32⟩ : BufTy).Contents (Elt F) → (⟨S7168, .f32⟩ : BufTy).Contents (Elt F)),
    binary main_v71 main_v74 main_v75 (Host.divf : (⟨S7168, .f32⟩ : BufTy).Contents (Elt F) → (⟨S7168, .f32⟩ : BufTy).Contents (Elt F) → (⟨S7168, .f32⟩ : BufTy).Contents (Elt F)),
    nullary main_c_19 (constantI S_ 32 0#32),
    unary main_c_19 main_v76 (broadcastInDim S7168 ![] bcast_S_S7168 : (⟨S_, .i32⟩ : BufTy).Contents (Elt F) → (⟨S7168, .i32⟩ : BufTy).Contents (Elt F)),
    binary main_v55 main_v76 main_v77 (cmpi .sgt : (⟨S7168, .i32⟩ : BufTy).Contents (Elt F) → (⟨S7168, .i32⟩ : BufTy).Contents (Elt F) → (⟨S7168, .i1⟩ : BufTy).Contents (Elt F)),
    nullary main_c_20 (constantI S_ 32 0#32),
    unary main_c_20 main_v78 (broadcastInDim S7168 ![] bcast_S_S7168 : (⟨S_, .i32⟩ : BufTy).Contents (Elt F) → (⟨S7168, .i32⟩ : BufTy).Contents (Elt F)),
    binary main_v57 main_v78 main_v79 (cmpi .sgt : (⟨S7168, .i32⟩ : BufTy).Contents (Elt F) → (⟨S7168, .i32⟩ : BufTy).Contents (Elt F) → (⟨S7168, .i1⟩ : BufTy).Contents (Elt F)),
    binary main_v77 main_v79 main_v80 (andi : (⟨S7168, .i1⟩ : BufTy).Contents (Elt F) → (⟨S7168, .i1⟩ : BufTy).Contents (Elt F) → (⟨S7168, .i1⟩ : BufTy).Contents (Elt F)),
    unary main_v80 main_v81 ((extui 32 · natLt_1_32) : (⟨S7168, .i1⟩ : BufTy).Contents (Elt F) → (⟨S7168, .i32⟩ : BufTy).Contents (Elt F)),
    nullary main_c_21 (constantI S_ 32 0#32),
    binary main_v81 main_c_21 main_v82 ((fun x v => Host.reduce IntOp.addi x v reducesTo_S7168_S_d0 h_S_) : (⟨S7168, .i32⟩ : BufTy).Contents (Elt F) → (⟨S_, .i32⟩ : BufTy).Contents (Elt F) → (⟨S_, .i32⟩ : BufTy).Contents (Elt F)),
    binary main_v65 main_v75 main_v83 (addf : (⟨S7168, .f32⟩ : BufTy).Contents (Elt F) → (⟨S7168, .f32⟩ : BufTy).Contents (Elt F) → (⟨S7168, .f32⟩ : BufTy).Contents (Elt F)),
    nullary main_cst_22 (constant S_ .f32 0x00000000#32),
    TRef.unary (TRef.of (T := ⟨S_, .f32⟩) main_cst_22) (TRef.of (T := ⟨S_, .f32⟩) main_call6_v0) id,
    TRef.unary (TRef.of (T := ⟨S_, .f32⟩) main_call6_v0) (TRef.of (T := ⟨S7168, .f32⟩) main_call6_v1) (broadcastInDim S7168 ![] bcast_S_S7168),
    TRef.ternary (TRef.of (T := ⟨S7168, .i1⟩) main_v80) (TRef.of (T := ⟨S7168, .f32⟩) main_v83) (TRef.of (T := ⟨S7168, .f32⟩) main_call6_v1) (TRef.of (T := ⟨S7168, .f32⟩) main_v84) select,
    nullary main_cst_23 (constant S_ .f32 0x00000000#32),
    binary main_v84 main_cst_23 main_v85 ((fun x v => Host.reduceAdd x v reducesTo_S7168_S_d0 h_S_) : (⟨S7168, .f32⟩ : BufTy).Contents (Elt F) → (⟨S_, .f32⟩ : BufTy).Contents (Elt F) → (⟨S_, .f32⟩ : BufTy).Contents (Elt F)),
    nullary main_c_24 (constantI S_ 32 0#32),
    binary main_v82 main_c_24 main_v86 (cmpi .sgt : (⟨S_, .i32⟩ : BufTy).Contents (Elt F) → (⟨S_, .i32⟩ : BufTy).Contents (Elt F) → (⟨S_, .i1⟩ : BufTy).Contents (Elt F)),
    nullary main_c_25 (constantI S_ 32 1#32),
    binary main_v82 main_c_25 main_v87 (maxsi : (⟨S_, .i32⟩ : BufTy).Contents (Elt F) → (⟨S_, .i32⟩ : BufTy).Contents (Elt F) → (⟨S_, .i32⟩ : BufTy).Contents (Elt F)),
    unary main_v87 main_v88 (sitofp .f32 : (⟨S_, .i32⟩ : BufTy).Contents (Elt F) → (⟨S_, .f32⟩ : BufTy).Contents (Elt F)),
    binary main_v85 main_v88 main_v89 (Host.divf : (⟨S_, .f32⟩ : BufTy).Contents (Elt F) → (⟨S_, .f32⟩ : BufTy).Contents (Elt F) → (⟨S_, .f32⟩ : BufTy).Contents (Elt F)) ]

/-- Operations 139 to 141: the last selection (the mean where some row counts, zero otherwise). -/
abbrev s5 : List (HloOp τ sig (Elt F)) :=
  [ nullary main_cst_26 (constant S_ .f32 0x00000000#32),
    TRef.unary (TRef.of (T := ⟨S_, .f32⟩) main_cst_26) (TRef.of (T := ⟨S_, .f32⟩) main_call7_v0) id,
    TRef.ternary (TRef.of (T := ⟨S_, .i1⟩) main_v86) (TRef.of (T := ⟨S_, .f32⟩) main_v89) (TRef.of (T := ⟨S_, .f32⟩) main_call7_v0) (TRef.of (T := ⟨S_, .f32⟩) main_v90) select ]

/-- The line is its five stretches one after the other. -/
theorem ops_split : (ops : List (HloOp τ sig (Elt F))) = s1 ++ (s2 ++ (s3 ++ (s4 ++ s5))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., nary_bufs_sub .., unary_bufs_sub .., reshape_bufs_sub .., nullary_bufs_sub .., unary_bufs_sub .., binary_bufs_sub .., unary_bufs_sub .., reshape_bufs_sub .., nary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., unary_bufs_sub .., nullary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub ..⟩

/-! ## The first stretch: the two joined arrays -/

/-- The table of embeddings, from the three float arguments. -/
theorem s1_v23 (W : Valuation τ sig (Elt F))
    :
    after s1 W (Proc.devRef .tc main_v23) = val_main_v23 (F := F) (W (Proc.devRef .tc main_arg0)) (W (Proc.devRef .tc main_arg1)) (W (Proc.devRef .tc main_arg2)) := by
  simp only [s1]
  after_results_pieces
  rfl

/-- The vector of words, from the integer argument. -/
theorem s1_v30 (W : Valuation τ sig (Elt F))
    :
    after s1 W (Proc.devRef .tc main_v30) = val_main_v30 (F := F) (W (Proc.devRef .tc main_arg3)) := by
  simp only [s1]
  after_results_pieces
  rfl

/-! ## The second stretch: from the table and the words -/

/-- The similarity matrix. -/
theorem s2_v34 (W : Valuation τ sig (Elt F)) (x0 : (⟨S1024x512, .f32⟩ : BufTy).Contents (Elt F)) (x1 x2 : (⟨S1024x3x512, .f32⟩ : BufTy).Contents (Elt F))
    (h23 : W (Proc.devRef .tc main_v23) = val_main_v23 (F := F) x0 x1 x2) :
    after s2 W (Proc.devRef .tc main_v34) = val_main_v34 (F := F) x0 x1 x2 := by
  simp only [s2]
  after_results_pieces
  rw [h23]
  rfl

/-- The positive mask. -/
theorem s2_v46 (W : Valuation τ sig (Elt F)) (x3 : (⟨S1024, .i32⟩ : BufTy).Contents (Elt F))
    (h30 : W (Proc.devRef .tc main_v30) = val_main_v30 (F := F) x3) :
    after s2 W (Proc.devRef .tc main_v46) = val_main_v46 (F := F) x3 := by
  simp only [s2]
  after_results_pieces
  rw [h30]
  rfl

/-- The negative mask. -/
theorem s2_v49 (W : Valuation τ sig (Elt F)) (x3 : (⟨S1024, .i32⟩ : BufTy).Contents (Elt F))
    (h30 : W (Proc.devRef .tc main_v30) = val_main_v30 (F := F) x3) :
    after s2 W (Proc.devRef .tc main_v49) = val_main_v49 (F := F) x3 := by
  simp only [s2]
  after_results_pieces
  rw [h30]
  rfl

/-- The sum of the off-diagonal exponentials of each row. -/
theorem s2_v53 (W : Valuation τ sig (Elt F)) (x0 : (⟨S1024x512, .f32⟩ : BufTy).Contents (Elt F)) (x1 x2 : (⟨S1024x3x512, .f32⟩ : BufTy).Contents (Elt F)) (x3 : (⟨S1024, .i32⟩ : BufTy).Contents (Elt F))
    (h23 : W (Proc.devRef .tc main_v23) = val_main_v23 (F := F) x0 x1 x2)
    (h30 : W (Proc.devRef .tc main_v30) = val_main_v30 (F := F) x3) :
    after s2 W (Proc.devRef .tc main_v53) = val_main_v53 (F := F) x0 x1 x2 x3 := by
  simp only [s2]
  after_results_pieces
  rw [h23, h30]
  rfl

/-! ## The third stretch: from the similarity, the two masks and the first row sum -/

/-- The number of positives of each row. -/
theorem s3_v55 (W : Valuation τ sig (Elt F)) (x3 : (⟨S1024, .i32⟩ : BufTy).Contents (Elt F))
    (h46 : W (Proc.devRef .tc main_v46) = val_main_v46 (F := F) x3) :
    after s3 W (Proc.devRef .tc main_v55) = val_main_v55 (F := F) x3 := by
  simp only [s3]
  after_results_pieces
  rw [h46]
  rfl

/-- The number of negatives of each row. -/
theorem s3_v57 (W : Valuation τ sig (Elt F)) (x3 : (⟨S1024, .i32⟩ : BufTy).Contents (Elt F))
    (h49 : W (Proc.devRef .tc main_v49) = val_main_v49 (F := F) x3) :
    after s3 W (Proc.devRef .tc main_v57) = val_main_v57 (F := F) x3 := by
  simp only [s3]
  after_results_pieces
  rw [h49]
  rfl

/-- The logarithm of the first row sum less the mean positive similarity. -/
theorem s3_v65 (W : Valuation τ sig (Elt F)) (x0 : (⟨S1024x512, .f32⟩ : BufTy).Contents (Elt F)) (x1 x2 : (⟨S1024x3x512, .f32⟩ : BufTy).Contents (Elt F)) (x3 : (⟨S1024, .i32⟩ : BufTy).Contents (Elt F))
    (h34 : W (Proc.devRef .tc main_v34) = val_main_v34 (F := F) x0 x1 x2)
    (h46 : W (Proc.devRef .tc main_v46) = val_main_v46 (F := F) x3)
    (h53 : W (Proc.devRef .tc main_v53) = val_main_v53 (F := F) x0 x1 x2 x3) :
    after s3 W (Proc.devRef .tc main_v65) = val_main_v65 (F := F) x0 x1 x2 x3 := by
  simp only [s3]
  after_results_pieces
  rw [h34, h46, h53]
  rfl

/-- The sum of the clipped margins of each row. -/
theorem s3_v71 (W : Valuation τ sig (Elt F)) (x0 : (⟨S1024x512, .f32⟩ : BufTy).Contents (Elt F)) (x1 x2 : (⟨S1024x3x512, .f32⟩ : BufTy).Contents (Elt F)) (x3 : (⟨S1024, .i32⟩ : BufTy).Contents (Elt F))
    (h34 : W (Proc.devRef .tc main_v34) = val_main_v34 (F := F) x0 x1 x2)
    (h49 : W (Proc.devRef .tc main_v49) = val_main_v49 (F := F) x3) :
    after s3 W (Proc.devRef .tc main_v71) = val_main_v71 (F := F) x0 x1 x2 x3 := by
  simp only [s3]
  after_results_pieces
  rw [h34, h49]
  rfl

/-! ## The tail: from the two counts and the two per-row terms -/

/-- Whether some row counts. -/
theorem s4_v86 (W : Valuation τ sig (Elt F)) (x3 : (⟨S1024, .i32⟩ : BufTy).Contents (Elt F))
    (h55 : W (Proc.devRef .tc main_v55) = val_main_v55 (F := F) x3)
    (h57 : W (Proc.devRef .tc main_v57) = val_main_v57 (F := F) x3) :
    after s4 W (Proc.devRef .tc main_v86) = val_main_v86 (F := F) x3 := by
  simp only [s4]
  after_results_pieces
  rw [h55, h57]
  rfl

/-- The sum of the counted rows' contributions over their number (at least one). -/
theorem s4_v89 (W : Valuation τ sig (Elt F)) (x0 : (⟨S1024x512, .f32⟩ : BufTy).Contents (Elt F)) (x1 x2 : (⟨S1024x3x512, .f32⟩ : BufTy).Contents (Elt F)) (x3 : (⟨S1024, .i32⟩ : BufTy).Contents (Elt F))
    (h55 : W (Proc.devRef .tc main_v55) = val_main_v55 (F := F) x3)
    (h57 : W (Proc.devRef .tc main_v57) = val_main_v57 (F := F) x3)
    (h65 : W (Proc.devRef .tc main_v65) = val_main_v65 (F := F) x0 x1 x2 x3)
    (h71 : W (Proc.devRef .tc main_v71) = val_main_v71 (F := F) x0 x1 x2 x3) :
    after s4 W (Proc.devRef .tc main_v89) = val_main_v89 (F := F) x0 x1 x2 x3 := by
  simp only [s4]
  after_results_pieces
  rw [h55, h57, h65, h71]
  rfl

/-! ## The last selection -/

/-! ### The typed references of the last selection carry their contents unchanged

A called function's operations read and write their buffers through references that carry the value's type; moving
contents to and from such a reference is the identity, the buffer's type being the value's by computation. -/

theorem toBuf_v90 (v : (⟨S_, .f32⟩ : BufTy).Contents (Elt F)) :
    (TRef.of (sig := sig) (T := ⟨S_, .f32⟩) main_v90).toBuf (Val := Elt F) v = v := rfl
theorem ofBuf_v86 (v : (⟨S_, .i1⟩ : BufTy).Contents (Elt F)) :
    (TRef.of (sig := sig) (T := ⟨S_, .i1⟩) main_v86).ofBuf (Val := Elt F) v = v := rfl
theorem ofBuf_v89 (v : (⟨S_, .f32⟩ : BufTy).Contents (Elt F)) :
    (TRef.of (sig := sig) (T := ⟨S_, .f32⟩) main_v89).ofBuf (Val := Elt F) v = v := rfl
theorem toBuf_call7 (v : (⟨S_, .f32⟩ : BufTy).Contents (Elt F)) :
    (TRef.of (sig := sig) (T := ⟨S_, .f32⟩) main_call7_v0).toBuf (Val := Elt F) v = v := rfl
theorem ofBuf_call7 (v : (⟨S_, .f32⟩ : BufTy).Contents (Elt F)) :
    (TRef.of (sig := sig) (T := ⟨S_, .f32⟩) main_call7_v0).ofBuf (Val := Elt F) v = v := rfl
theorem ofBuf_cst26 (v : (⟨S_, .f32⟩ : BufTy).Contents (Elt F)) :
    (TRef.of (sig := sig) (T := ⟨S_, .f32⟩) main_cst_26).ofBuf (Val := Elt F) v = v := rfl

/-- The mean where some row counts, zero otherwise: the last selection, from its condition and the mean. -/
theorem s5_v90 (W : Valuation τ sig (Elt F)) (x0 : (⟨S1024x512, .f32⟩ : BufTy).Contents (Elt F)) (x1 x2 : (⟨S1024x3x512, .f32⟩ : BufTy).Contents (Elt F)) (x3 : (⟨S1024, .i32⟩ : BufTy).Contents (Elt F))
    (h86 : W (Proc.devRef .tc main_v86) = val_main_v86 (F := F) x3)
    (h89 : W (Proc.devRef .tc main_v89) = val_main_v89 (F := F) x0 x1 x2 x3) :
    after s5 W (Proc.devRef .tc main_v90) = val_main_v90 (F := F) x0 x1 x2 x3 := by
  simp only [s5]
  after_results_pieces
  rw [h86, h89]
  unfold val_main_v90
  generalize val_main_v86 (F := F) x3 = a
  generalize val_main_v89 (F := F) x0 x1 x2 x3 = b
  rw [toBuf_v90, ofBuf_v86, ofBuf_v89, ofBuf_call7, toBuf_call7, ofBuf_cst26]
  rfl

/-! ## The whole line -/

/-- After the 141 operations, from any contents, the last buffer holds its stage of the four arguments. -/
theorem result (V : Valuation τ sig (Elt F)) :
    after ops V (Proc.devRef .tc main_v90)
      = val_main_v90 (F := F) (V (Proc.devRef .tc main_arg0)) (V (Proc.devRef .tc main_arg1))
          (V (Proc.devRef .tc main_arg2)) (V (Proc.devRef .tc main_arg3)) := by
  rw [ops_split, after_append, after_append, after_append, after_append]
  have h23 := s1_v23 V
  have h30 := s1_v30 V
  generalize after s1 V = W1 at h23 h30 ⊢
  have h34 := s2_v34 W1 _ _ _ h23
  have h46 := s2_v46 W1 _ h30
  have h49 := s2_v49 W1 _ h30
  have h53 := s2_v53 W1 _ _ _ _ h23 h30
  generalize after s2 W1 = W2 at h34 h46 h49 h53 ⊢
  have h55 := s3_v55 W2 _ h46
  have h57 := s3_v57 W2 _ h49
  have h65 := s3_v65 W2 _ _ _ _ h34 h46 h53
  have h71 := s3_v71 W2 _ _ _ _ h34 h49
  generalize after s3 W2 = W3 at h55 h57 h65 h71 ⊢
  have h86 := s4_v86 W3 _ h55 h57
  have h89 := s4_v89 W3 _ _ _ _ h55 h57 h65 h71
  generalize after s4 W3 = W4 at h86 h89 ⊢
  exact s5_v90 W4 _ _ _ _ h86 h89

set_option maxRecDepth 8192 in
set_option maxHeartbeats 4000000 in
/-- On every device, for any float values, from any memory with zero counters: every weakly fair execution of the
    reference terminates with its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = val_main_v90 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v90).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.lean ====
/-
  The certificate: the kernel program (as printed and idealized) and the reference run, leave their arguments as they
  were, and over the extended reals end with the same loss.

  Both programs first build, by the same host operations, the table of 7168 normalised embeddings and the 7168 id
  words. The kernel program then computes each row's five statistics against all columns inside one region, 128 rows a
  grid point, and folds the 7168 × 5 array on the host; the reference computes the 7168 × 7168 similarity and mask
  arrays on the host, with integer counts. Each is shown to end at `Cert.Spec.loss` of the table and the words —
  the kernel program's result in `Proof/KRun.lean` (over the frame run of `Proof/FrameKI.lean`), the reference's in
  `Proof/RefSpec.lean` (over its run, `Proof/RefRun.lean`, read stage by stage) — and the table and words of the one
  are those of the other when the arguments agree (`Proof/KGlue.lean`). The frame of each program is its run with the
  values dropped; the idealization rewrote nothing, so it is preserved trivially.
-/
import proofs.«164784_j15556371546850_1_alg».proof.Defs
import proofs.«164784_j15556371546850_1_alg».proof.Proof.Gen.Kernel
import proofs.«164784_j15556371546850_1_alg».proof.Proof.Gen.KernelIdeal
import proofs.«164784_j15556371546850_1_alg».proof.Proof.Gen.ReferenceIdeal
import proofs.«164784_j15556371546850_1_alg».proof.Proof.Gen.Pre_finite_inputs
import proofs.«164784_j15556371546850_1_alg».proof.Proof.FrameK
import proofs.«164784_j15556371546850_1_alg».proof.Proof.FrameKI
import proofs.«164784_j15556371546850_1_alg».proof.Proof.KRun
import proofs.«164784_j15556371546850_1_alg».proof.Proof.KGlue
import proofs.«164784_j15556371546850_1_alg».proof.Proof.RefSpec
import proofs.«164784_j15556371546850_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame m ρ
/-- So does the idealized one. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

/-- Both programs end at the loss of the table and words built from the arguments, and those agree with the arguments. -/
theorem algebraic : Cert.algebraic_KernelIdeal_ReferenceIdeal := by
  intro m ρ m' ρ' _ hagree
  refine ⟨fun c _ => Cert.Spec.loss (Cert.KernelIdeal.RunValue.tableK m c) (Cert.KernelIdeal.RunValue.wordsK m c),
    Cert.KernelIdeal.RunValue.run m ρ, ?_⟩
  refine (θ_run Cert.ReferenceIdeal.defs _ _).mono (fun _ h c => ⟨(h c).1.trans ?_, (h c).2⟩)
    (Cert.ReferenceIdeal.HandRun.run m' ρ')
  rw [Cert.ReferenceIdeal.RefSpec.ref_loss, (hagree c).1, (hagree c).2.1, (hagree c).2.2.1, (hagree c).2.2.2]
  unfold Cert.KernelIdeal.RunValue.tableK Cert.KernelIdeal.RunValue.wordsK Cert.KernelIdeal.RunValue.embK Cert.KernelIdeal.RunValue.idsK
  beta_reduce
  rw [Cert.KernelIdeal.Prefix.embT_eq_ref, Cert.KernelIdeal.Prefix.idsT_eq_ref]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
